-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S1024x512 : Shape := ⟨2, ![1024, 512]⟩
abbrev S1x512 : Shape := ⟨2, ![1, 512]⟩
abbrev S2x512x512 : Shape := ⟨3, ![2, 512, 512]⟩
abbrev S3x1x512 : Shape := ⟨3, ![3, 1, 512]⟩
abbrev S2 : Shape := ⟨1, ![2]⟩
abbrev S3 : Shape := ⟨1, ![3]⟩
abbrev S_ : Shape := ⟨0, ![]⟩
abbrev S1 : Shape := ⟨1, ![1]⟩
abbrev S1x512x512 : Shape := ⟨3, ![1, 512, 512]⟩
abbrev S512x512 : Shape := ⟨2, ![512, 512]⟩
abbrev S512 : Shape := ⟨1, ![512]⟩
abbrev S1x1x512 : Shape := ⟨3, ![1, 1, 512]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S1x512, .f32⟩
  | .local _ .vmem, ⟨0, _⟩ => ⟨S1x512, .f32⟩
  | .local _ .vmem, ⟨1, _⟩ => ⟨S2x512x512, .f32⟩
  | .local _ .vmem, ⟨2, _⟩ => ⟨S1x512, .f32⟩
  | .local _ .vmem, ⟨3, _⟩ => ⟨S3x1x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_43 : BitVec 32 := 1#32
  let v48 : BitVec 32 := Scalar.addi v2 c1_i32_43
  let c4_i32_44 : BitVec 32 := 4#32
  let v49 : BitVec 32 := Scalar.remsi v48 c4_i32_44
  let c1_i32_48 : BitVec 32 := 1#32
  let v50 : BitVec 32 := Scalar.muli v49 c1_i32_48
  let v51 : BitVec 32 := Scalar.addi c0_i32_49 v50
  v51.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_52 : BitVec 32 := 2#32
  let v58 : BitVec 32 := Scalar.addi v2 c2_i32_52
  let c4_i32_53 : BitVec 32 := 4#32
  let v59 : BitVec 32 := Scalar.remsi v58 c4_i32_53
  let c1_i32_57 : BitVec 32 := 1#32
  let v60 : BitVec 32 := Scalar.muli v59 c1_i32_57
  let v61 : BitVec 32 := Scalar.addi c0_i32_58 v60
  v61.toNat
def k0_dev6 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_61 : BitVec 32 := 3#32
  let v68 : BitVec 32 := Scalar.addi v2 c3_i32_61
  let c4_i32_62 : BitVec 32 := 4#32
  let v69 : BitVec 32 := Scalar.remsi v68 c4_i32_62
  let c1_i32_66 : BitVec 32 := 1#32
  let v70 : BitVec 32 := Scalar.muli v69 c1_i32_66
  let v71 : BitVec 32 := Scalar.addi c0_i32_67 v70
  v71.toNat
abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  inb_S2_S1_0 : ∀ a, (![0] : Fin 1 → Nat) a + S1.size a ≤ S2.size a
  squeezes_S1_S_ : S1.Squeezes S_
  inb_S2x512x512_S1x512x512_0_0_0 : ∀ a, (![0, 0, 0] : Fin 3 → Nat) a + S1x512x512.size a ≤ S2x512x512.size a
  squeezes_S1x512x512_S512x512 : S1x512x512.Squeezes S512x512
  inb_S1024x512_S512x512_0_0 : ∀ a, (![0, 0] : Fin 2 → Nat) a + S512x512.size a ≤ S1024x512.size a
  inb_S2_S1_1 : ∀ a, (![1] : Fin 1 → Nat) a + S1.size a ≤ S2.size a
  inb_S2x512x512_S1x512x512_1_0_0 : ∀ a, (![1, 0, 0] : Fin 3 → Nat) a + S1x512x512.size a ≤ S2x512x512.size a
  inb_S1024x512_S512x512_512_0 : ∀ a, (![512, 0] : Fin 2 → Nat) a + S512x512.size a ≤ S1024x512.size a
  h_S1x512x512 : 0 < S1x512x512.numel
  shapeCasts_S1x512x512_S512x512 : S1x512x512.ShapeCasts S512x512
  reduces_S512x512_S512 : S512x512.Reduces [0] S512
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  hamt_3 : (3#32 : BitVec 32).msb = false
  inb_S3_S1_0 : ∀ a, (![0] : Fin 1 → Nat) a + S1.size a ≤ S3.size a
  inb_S3x1x512_S1x1x512_0_0_0 : ∀ a, (![0, 0, 0] : Fin 3 → Nat) a + S1x1x512.size a ≤ S3x1x512.size a
  squeezes_S1x1x512_S1x512 : S1x1x512.Squeezes S1x512
  inb_S3_S1_1 : ∀ a, (![1] : Fin 1 → Nat) a + S1.size a ≤ S3.size a
  inb_S3x1x512_S1x1x512_1_0_0 : ∀ a, (![1, 0, 0] : Fin 3 → Nat) a + S1x1x512.size a ≤ S3x1x512.size a
  inb_S3_S1_2 : ∀ a, (![2] : Fin 1 → Nat) a + S1.size a ≤ S3.size a
  inb_S3x1x512_S1x1x512_2_0_0 : ∀ a, (![2, 0, 0] : Fin 3 → Nat) a + S1x1x512.size a ≤ S3x1x512.size a
  h_S1x1x512 : 0 < S1x1x512.numel
  shapeCasts_S1x1x512_S1x512 : S1x1x512.ShapeCasts S1x512
  hcc0_scratch3 : 1 + S2.numel ≤ 9
  hcc0_scratch4 : 3 + S3.numel ≤ 9
  hcc0_scratch5 : 6 + S3.numel ≤ 9
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole

variable [Facts₀]

abbrev cc0_scratch3 : DmaSems sig S2 := SemArray.consecutive 1 S2 hcc0_scratch3
abbrev cc0_scratch4 : DmaSems sig S3 := SemArray.consecutive 3 S3 hcc0_scratch4
abbrev cc0_scratch5 : DmaSems sig S3 := SemArray.consecutive 6 S3 hcc0_scratch5

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S4096x512 : Shape := ⟨2, ![4096, 512]⟩
abbrev S_ : Shape := ⟨0, ![]⟩
abbrev S512 : Shape := ⟨1, ![512]⟩
abbrev S1x512 : Shape := ⟨2, ![1, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S_, .f32⟩
  | .hbm, ⟨2, _⟩ => ⟨S512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S4096x512_S512_d0 : S4096x512.ReducesTo [0] S512
  h_S_ : 0 < S_.numel
  bcast_S512_S1x512_1 : S512.BroadcastsInDim S1x512 (![1] : Fin 1 → Fin S1x512.rank)
  bcast_S_S1x512 : S_.BroadcastsInDim S1x512 (![] : Fin 0 → Fin S1x512.rank)

variable [Facts₀]

class Facts : Prop extends Facts₀ where

variable [Facts]
-- ==== Proof.Proto.lean ====
/-
  The protocol of the four-device mean, fixed once for both float instances.

  Every device sums the two halves of its 1024 x 512 block column by column into a 1 x 512 row (its partial sum),
  tells each of the three other devices, by one unit on that device's barrier semaphore, that it is inside the kernel,
  waits for its own three units, copies its partial sum into slot k of the device k + 1 places ahead of it on the ring
  (k = 0, 1, 2), waits for the three copies that land in its own three slots and for its own three copies to have been
  read, adds the four partial sums and scales by 2^-12.

  Semaphores, as cells of the rounds discipline with one round each: a device's barrier cell has three duties of one unit,
  duty k paid by the device k + 1 places behind it, whose unit hands over that device's slot 2 - k and the fact that the
  slot's receive cell has reached its round; each load cell, send cell and receive cell has one duty of the copy's credit,
  handing over the destination at the copied contents (load, receive) or the source share back (load, send).
-/
import proofs.«900939_g7700000000000940_dist_mean_ax0_shard0_i_m1024_n512_v7x_i4_f32_1_alg».proof.Proof.Gen.KernelIdeal
import proofs.«900939_g7700000000000940_dist_mean_ax0_shard0_i_m1024_n512_v7x_i4_f32_1_alg».proof.Proof.Gen.KernelIdeal.Skeleton
import proofs.«900939_g7700000000000940_dist_mean_ax0_shard0_i_m1024_n512_v7x_i4_f32_1_alg».proof.Proof.Gen.KernelIdeal.Launch
import proofs.«900939_g7700000000000940_dist_mean_ax0_shard0_i_m1024_n512_v7x_i4_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The ring: the device k + 1 places ahead, and the one k + 1 places behind -/

def pk (c : Dev nD) (k : Fin 3) : Dev nD := ⟨(c.val + k.val + 1) % 4, Nat.mod_lt _ (by decide)⟩
def bk (c : Dev nD) (k : Fin 3) : Dev nD := ⟨(c.val + 3 - k.val) % 4, Nat.mod_lt _ (by decide)⟩

theorem bk_pk (c : Dev nD) (k : Fin 3) : bk (pk c k) k = c := by revert c k; decide
theorem pk_bk (c : Dev nD) (k : Fin 3) : pk (bk c k) k = c := by revert c k; decide
/-- Going k + 1 ahead and then 3 - k ahead is once round the ring. -/
theorem pk_pk_rev (c : Dev nD) (k : Fin 3) : pk (pk c k) k.rev = c := by revert c k; decide
theorem pk_rev_pk (c : Dev nD) (k : Fin 3) : pk (pk c k.rev) k = c := by revert c k; decide
theorem bk_rev (c : Dev nD) (k : Fin 3) : bk c k.rev = pk c k := by revert c k; decide
theorem pk_ne (c : Dev nD) (k : Fin 3) : pk c k ≠ c := by revert c k; decide
theorem pk_inj (c : Dev nD) : Function.Injective (pk c) := by revert c; decide

def ring (k : Fin 3) : Dev nD ≃ Dev nD := ⟨fun c => pk c k, fun c => bk c k, fun c => bk_pk c k, fun c => pk_bk c k⟩

/-- The printed device chains: signals 1, 2, 3 and copies 4, 5, 6 name the devices 1, 2, 3 places ahead. -/
theorem dev1_eq (c : Dev nD) : (⟨k0_dev1 c, k0_dev1_lt c⟩ : Dev nD) = pk c 0 := Fin.ext (k0_dev1_eq c)
theorem dev2_eq (c : Dev nD) : (⟨k0_dev2 c, k0_dev2_lt c⟩ : Dev nD) = pk c 1 := Fin.ext (k0_dev2_eq c)
theorem dev3_eq (c : Dev nD) : (⟨k0_dev3 c, k0_dev3_lt c⟩ : Dev nD) = pk c 2 := Fin.ext (k0_dev3_eq c)
theorem dev4_eq (c : Dev nD) : (⟨k0_dev4 c, k0_dev4_lt c⟩ : Dev nD) = pk c 0 := Fin.ext (k0_dev4_eq c)
theorem dev5_eq (c : Dev nD) : (⟨k0_dev5 c, k0_dev5_lt c⟩ : Dev nD) = pk c 1 := Fin.ext (k0_dev5_eq c)
theorem dev6_eq (c : Dev nD) : (⟨k0_dev6 c, k0_dev6_lt c⟩ : Dev nD) = pk c 2 := Fin.ext (k0_dev6_eq c)

/-! ## The buffers, as the body names them -/

abbrev xM : Memref sig .tc .hbm S1024x512 .f32 := Memref.whole main_arg0
abbrev oM : Memref sig .tc .vmem S1x512 .f32 := Memref.whole cc0_stg0_0
abbrev vM : Memref sig .tc .vmem S2x512x512 .f32 := Memref.whole cc0_scratch0
abbrev mM : Memref sig .tc .vmem S1x512 .f32 := Memref.whole cc0_scratch1
abbrev cM : Memref sig .tc .vmem S3x1x512 .f32 := Memref.whole cc0_scratch2

/-- The two halves of the device's block of `x` (rows 0..511, rows 512..1023), -/
abbrev xR : Fin 2 → Rect S1024x512
  | 0 => Rect.unit (s := S1024x512) ![0, 0] S512x512.size inb_S1024x512_S512x512_0_0
  | 1 => Rect.unit (s := S1024x512) ![512, 0] S512x512.size inb_S1024x512_S512x512_512_0
abbrev xS0 : Memref sig .tc .hbm S512x512 .f32 := xM.slice (Rect.unit (s := S1024x512) ![0, 0] S512x512.size inb_S1024x512_S512x512_0_0) (fun _ => rfl)
abbrev xS1 : Memref sig .tc .hbm S512x512 .f32 := xM.slice (Rect.unit (s := S1024x512) ![512, 0] S512x512.size inb_S1024x512_S512x512_512_0) (fun _ => rfl)
/-- the two 512 x 512 slots they are loaded into, -/
abbrev vR : Fin 2 → Rect S2x512x512
  | 0 => Rect.unit (s := S2x512x512) ![0, 0, 0] S1x512x512.size inb_S2x512x512_S1x512x512_0_0_0
  | 1 => Rect.unit (s := S2x512x512) ![1, 0, 0] S1x512x512.size inb_S2x512x512_S1x512x512_1_0_0
abbrev vS0 : Memref sig .tc .vmem S512x512 .f32 :=
  (vM.slice (Rect.unit (s := S2x512x512) ![0, 0, 0] S1x512x512.size inb_S2x512x512_S1x512x512_0_0_0) (fun _ => rfl)).squeeze S512x512 squeezes_S1x512x512_S512x512
abbrev vS1 : Memref sig .tc .vmem S512x512 .f32 :=
  (vM.slice (Rect.unit (s := S2x512x512) ![1, 0, 0] S1x512x512.size inb_S2x512x512_S1x512x512_1_0_0) (fun _ => rfl)).squeeze S512x512 squeezes_S1x512x512_S512x512
/-- the row of the partial sum and of the result, -/
abbrev mR : Rect S1x512 := Rect.unit (s := S1x512) ![0, 0] S1x512.size inb_S1x512_S1x512_0_0
/-- and the three 1 x 512 slots the other devices' partial sums land in. -/
abbrev cR : Fin 3 → Rect S3x1x512
  | 0 => Rect.unit (s := S3x1x512) ![0, 0, 0] S1x1x512.size inb_S3x1x512_S1x1x512_0_0_0
  | 1 => Rect.unit (s := S3x1x512) ![1, 0, 0] S1x1x512.size inb_S3x1x512_S1x1x512_1_0_0
  | 2 => Rect.unit (s := S3x1x512) ![2, 0, 0] S1x1x512.size inb_S3x1x512_S1x1x512_2_0_0
abbrev cS0 : Memref sig .tc .vmem S1x512 .f32 :=
  (cM.slice (Rect.unit (s := S3x1x512) ![0, 0, 0] S1x1x512.size inb_S3x1x512_S1x1x512_0_0_0) (fun _ => rfl)).squeeze S1x512 squeezes_S1x1x512_S1x512
abbrev cS1 : Memref sig .tc .vmem S1x512 .f32 :=
  (cM.slice (Rect.unit (s := S3x1x512) ![1, 0, 0] S1x1x512.size inb_S3x1x512_S1x1x512_1_0_0) (fun _ => rfl)).squeeze S1x512 squeezes_S1x1x512_S1x512
abbrev cS2 : Memref sig .tc .vmem S1x512 .f32 :=
  (cM.slice (Rect.unit (s := S3x1x512) ![2, 0, 0] S1x1x512.size inb_S3x1x512_S1x1x512_2_0_0) (fun _ => rfl)).squeeze S1x512 squeezes_S1x1x512_S1x512

/-! ## The semaphores and their cells -/

/-- The runtime's barrier semaphore of collective id 0 (not scoped to the launch). -/
abbrev barS : Sem sig := (SemArray.scalar (sig.barrier 0 rfl) : Sems sig S_).sem
abbrev ldA : Fin 2 → DmaSems sig S_
  | 0 => (cc0_scratch3.slice (Rect.unit (s := S2) ![0] S1.size inb_S2_S1_0)).squeeze S_ squeezes_S1_S_
  | 1 => (cc0_scratch3.slice (Rect.unit (s := S2) ![1] S1.size inb_S2_S1_1)).squeeze S_ squeezes_S1_S_
abbrev sndA : Fin 3 → DmaSems sig S_
  | 0 => (cc0_scratch4.slice (Rect.unit (s := S3) ![0] S1.size inb_S3_S1_0)).squeeze S_ squeezes_S1_S_
  | 1 => (cc0_scratch4.slice (Rect.unit (s := S3) ![1] S1.size inb_S3_S1_1)).squeeze S_ squeezes_S1_S_
  | 2 => (cc0_scratch4.slice (Rect.unit (s := S3) ![2] S1.size inb_S3_S1_2)).squeeze S_ squeezes_S1_S_
abbrev rcvA : Fin 3 → DmaSems sig S_
  | 0 => (cc0_scratch5.slice (Rect.unit (s := S3) ![0] S1.size inb_S3_S1_0)).squeeze S_ squeezes_S1_S_
  | 1 => (cc0_scratch5.slice (Rect.unit (s := S3) ![1] S1.size inb_S3_S1_1)).squeeze S_ squeezes_S1_S_
  | 2 => (cc0_scratch5.slice (Rect.unit (s := S3) ![2] S1.size inb_S3_S1_2)).squeeze S_ squeezes_S1_S_

abbrev barL : SemLoc sig := .reg barS
abbrev ldL (j : Fin 2) : SemLoc sig := .dma (ldA j).sem
abbrev sndL (k : Fin 3) : SemLoc sig := .dma (sndA k).sem
abbrev rcvL (k : Fin 3) : SemLoc sig := .dma (rcvA k).sem

abbrev barCell (c : Dev nD) : GSem nD τ sig := ((c : Thread nD τ), barL)
abbrev ldCell (c : Dev nD) (j : Fin 2) : GSem nD τ sig := ((c : Thread nD τ), ldL j)
abbrev sndCell (c : Dev nD) (k : Fin 3) : GSem nD τ sig := ((c : Thread nD τ), sndL k)
abbrev rcvCell (c : Dev nD) (k : Fin 3) : GSem nD τ sig := ((c : Thread nD τ), rcvL k)

/-- The kernel's own (scoped) semaphores as the launch indexes them: the two loads', the three sends', the three receives'; -/
abbrev osem : Fin 8 → SemLoc sig
  | 0 => ldL 0 | 1 => ldL 1 | 2 => sndL 0 | 3 => sndL 1 | 4 => sndL 2 | 5 => rcvL 0 | 6 => rcvL 1 | 7 => rcvL 2
/-- all nine cells of a device: the barrier first. -/
abbrev csem : Fin 9 → SemLoc sig
  | 0 => barL | 1 => ldL 0 | 2 => ldL 1 | 3 => sndL 0 | 4 => sndL 1 | 5 => sndL 2 | 6 => rcvL 0 | 7 => rcvL 1 | 8 => rcvL 2
abbrev kcell (ck : Dev nD × Fin 9) : GSem nD τ sig := ((ck.1 : Thread nD τ), csem ck.2)

/-- The credit of one half-block load, and of one partial-sum copy. -/
abbrev NL : ℕ := vS0.view.dmaCredit
abbrev N : ℕ := cS0.view.dmaCredit
theorem NL_pos : 0 < NL := View.dmaCredit_pos _ (by decide)
theorem N_pos : 0 < N := View.dmaCredit_pos _ (by decide)

/-! ## Contents, named as the run produces them -/

/-- Device `c`'s block of `x` as launched. -/
def xA (c : Dev nD) : Buf (Elt F) ((c : Thread nD τ).loc main_arg0) := m ((c : Thread nD τ).loc main_arg0)

/-- The load scratch with half `j` of the block copied into slot `j` (elsewhere the launch contents: never read there). -/
def ldv (c : Dev nD) : Fin 2 → Buf (Elt F) ((c : Thread nD τ).loc cc0_scratch0)
  | 0 => vS0.view.write (Elt F) (m ((c : Thread nD τ).loc cc0_scratch0)) (xS0.view.read (Elt F) (xA m c)) Finset.univ
  | 1 => vS1.view.write (Elt F) (m ((c : Thread nD τ).loc cc0_scratch0)) (xS1.view.read (Elt F) (xA m c)) Finset.univ

/-- Device `c`'s partial sum: the column sums of its two halves, added. -/
def mineV (c : Dev nD) : (cc0_scratch1 : Ref sig .tc).ty.Contents (Elt F) :=
  k0_pay2 (vM.view.readAt (Elt F) (vR 0).toLoadRect (ldv m c 0)) (vM.view.readAt (Elt F) (vR 1).toLoadRect (ldv m c 1))

/-- The receive scratch with the partial sum of the device `k + 1` places behind copied into slot `k`. -/
def landv (c : Dev nD) : Fin 3 → Buf (Elt F) ((c : Thread nD τ).loc cc0_scratch2)
  | 0 => cS0.view.write (Elt F) (m ((c : Thread nD τ).loc cc0_scratch2)) (mM.view.read (Elt F) (mineV m (bk c 0))) Finset.univ
  | 1 => cS1.view.write (Elt F) (m ((c : Thread nD τ).loc cc0_scratch2)) (mM.view.read (Elt F) (mineV m (bk c 1))) Finset.univ
  | 2 => cS2.view.write (Elt F) (m ((c : Thread nD τ).loc cc0_scratch2)) (mM.view.read (Elt F) (mineV m (bk c 2))) Finset.univ

/-- The kernel's result on device `c`: its partial sum plus the three landed ones, scaled. -/
def outV (c : Dev nD) : (cc0_stg0_0 : Ref sig .tc).ty.Contents (Elt F) :=
  k0_pay1 (mM.view.readAt (Elt F) mR.toLoadRect (mineV m c)) (cM.view.readAt (Elt F) (cR 0).toLoadRect (landv m c 0))
    (cM.view.readAt (Elt F) (cR 1).toLoadRect (landv m c 1)) (cM.view.readAt (Elt F) (cR 2).toLoadRect (landv m c 2))

/-! ## Points-to assertions of the slots -/

/-- Slot `j` of the load scratch, owned outright at `f`. -/
def vPts (c : Dev nD) : Fin 2 → Buf (Elt F) ((c : Thread nD τ).loc cc0_scratch0) → sProp 𝕄
  | 0, f => vS0.view.loc (c : Thread nD τ) ↦[vS0.view.set]{fullShare} f
  | 1, f => vS1.view.loc (c : Thread nD τ) ↦[vS1.view.set]{fullShare} f
/-- Slot `k` of the receive scratch, owned outright at `f`. -/
def cPts (c : Dev nD) : Fin 3 → Buf (Elt F) ((c : Thread nD τ).loc cc0_scratch2) → sProp 𝕄
  | 0, f => cS0.view.loc (c : Thread nD τ) ↦[cS0.view.set]{fullShare} f
  | 1, f => cS1.view.loc (c : Thread nD τ) ↦[cS1.view.set]{fullShare} f
  | 2, f => cS2.view.loc (c : Thread nD τ) ↦[cS2.view.set]{fullShare} f
/-- The share of `x` each load borrows (the array is held whole at these two shares, each load's half carved out of one), -/
def qx : Fin 2 → PosShare TreeShare | 0 => fullShare.left | 1 => fullShare.right
def xPts (c : Dev nD) : Fin 2 → sProp 𝕄
  | 0 => xS0.view.loc (c : Thread nD τ) ↦[xS0.view.set]{qx 0} xA m c
  | 1 => xS1.view.loc (c : Thread nD τ) ↦[xS1.view.set]{qx 1} xA m c
/-- and the share of the partial sum each of the three copies borrows. -/
def qm : Fin 3 → PosShare TreeShare | 0 => fullShare.left | 1 => fullShare.right.left | 2 => fullShare.right.right
def mPts (c : Dev nD) (k : Fin 3) : sProp 𝕄 := mM.view.loc (c : Thread nD τ) ↦[mM.view.set]{qm k} mineV m c

/-! ## The schedule -/

/-- What the unit of duty `k` of `c`'s barrier cell hands `c`: paid by the device `k + 1` places behind `c`, which is
    `3 - k` places ahead, it is that device's slot `2 - k` (the slot `c` copies into) and that the slot's receive cell has
    reached round 0. -/
def barPay (c : Dev nD) : Fin 3 → sProp 𝕄
  | 0 => iprop((∃ f, cPts (F := F) (pk c 2) 2 f) ∗ reached ER (rcvCell (pk c 2) 2) 0)
  | 1 => iprop((∃ f, cPts (F := F) (pk c 1) 1 f) ∗ reached ER (rcvCell (pk c 1) 1) 0)
  | 2 => iprop((∃ f, cPts (F := F) (pk c 0) 0 f) ∗ reached ER (rcvCell (pk c 0) 0) 0)
/-- A load's landing: the slot at the copied half, and the borrowed share of that half of `x` back. -/
def ldPay (c : Dev nD) (j : Fin 2) : sProp 𝕄 := iprop(vPts c j (ldv m c j) ∗ xPts m c j)
/-- A receive's landing: the slot at the sender's partial sum. -/
def rcvPay (c : Dev nD) (k : Fin 3) : sProp 𝕄 := cPts c k (landv m c k)

abbrev IsOwn (s : SemLoc sig) : Prop := ∃ i : Fin 8, s = osem i

/-- One round, round 0, on every TensorCore cell: the barrier cell three duties of one unit, each own cell one duty
    (`0`) of its copy's credit. -/
def sched : Rounds.Schedule (GSem nD τ sig) (Fin 3) 𝕄 where
  duties g r := if r = 0 ∧ g.1.2 = .tc then (if g.2 = barL then Finset.univ else if IsOwn g.2 then {0} else ∅) else ∅
  unitless _ := False
  amount g _ _ := if g.2 = barL then 1 else if g.2 = ldL 0 ∨ g.2 = ldL 1 then NL else N
  payload g _ d :=
    if g.2 = barL then barPay g.1.1 d
    else if g.2 = ldL 0 then ldPay m g.1.1 0 else if g.2 = ldL 1 then ldPay m g.1.1 1
    else if g.2 = sndL 0 then mPts m g.1.1 0 else if g.2 = sndL 1 then mPts m g.1.1 1 else if g.2 = sndL 2 then mPts m g.1.1 2
    else if g.2 = rcvL 0 then rcvPay m g.1.1 0 else if g.2 = rcvL 1 then rcvPay m g.1.1 1 else if g.2 = rcvL 2 then rcvPay m g.1.1 2
    else iprop(emp)
  amount_pos g _ _ _ := by
    by_cases h : g.2 = barL
    · rw [if_pos h]; exact Nat.one_pos
    · rw [if_neg h]; split
      · exact NL_pos
      · exact N_pos

/-! ## What each device owes at launch; the levels -/

/-- The three copies' credits on the receive cells ahead, summed so that copy 0 peels the last summand, -/
def OR (c : Dev nD) : CellTallies nD τ sig Unit :=
  tallyAt (rcvCell (pk c 2) 2) () N + tallyAt (rcvCell (pk c 1) 1) () N + tallyAt (rcvCell (pk c 0) 0) () N
/-- and over them the three barrier units, so that signal 0 peels the last, signal 1 the next, signal 2 the third. -/
def O₂ (c : Dev nD) : CellTallies nD τ sig Unit := OR c + tallyAt (barCell (pk c 2)) () 1
def O₁ (c : Dev nD) : CellTallies nD τ sig Unit := O₂ c + tallyAt (barCell (pk c 1)) () 1
def O₀ (c : Dev nD) : CellTallies nD τ sig Unit := O₁ c + tallyAt (barCell (pk c 0)) () 1

def L (g : GSem nD τ sig) : Finset Unit := if g.1.2 = .tc then {()} else ∅
/-- Barrier cells at level 1, receive cells at 2, every other cell (staging, load, send) at 0: a device waits on a load
    cell or its barrier cell owing only receive credits, and on a receive or send cell owing nothing. -/
def lv (g : GSem nD τ sig) (_ : Unit) : ℕ := if g.2 = barL then 1 else if g.2 = rcvL 0 ∨ g.2 = rcvL 1 ∨ g.2 = rcvL 2 then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state and the pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The invariants device `c`'s body opens, under the names `K` the launch allocated them at: its own nine cells', the
    barrier cells' of the three devices it signals, the receive cells' of the three slots it copies into. -/
def invs (K : Dev nD × Fin 9 → ℕ) (c : Dev nD) : sProp 𝕄 :=
  iprop(cellInv ER (sched m) (K (c, 0)) (barCell c)
    ∗ cellInv ER (sched m) (K (c, 1)) (ldCell c 0) ∗ cellInv ER (sched m) (K (c, 2)) (ldCell c 1)
    ∗ cellInv ER (sched m) (K (c, 3)) (sndCell c 0) ∗ cellInv ER (sched m) (K (c, 4)) (sndCell c 1) ∗ cellInv ER (sched m) (K (c, 5)) (sndCell c 2)
    ∗ cellInv ER (sched m) (K (c, 6)) (rcvCell c 0) ∗ cellInv ER (sched m) (K (c, 7)) (rcvCell c 1) ∗ cellInv ER (sched m) (K (c, 8)) (rcvCell c 2)
    ∗ cellInv ER (sched m) (K (pk c 0, 0)) (barCell (pk c 0)) ∗ cellInv ER (sched m) (K (pk c 1, 0)) (barCell (pk c 1)) ∗ cellInv ER (sched m) (K (pk c 2, 0)) (barCell (pk c 2))
    ∗ cellInv ER (sched m) (K (pk c 0, 6)) (rcvCell (pk c 0) 0) ∗ cellInv ER (sched m) (K (pk c 1, 7)) (rcvCell (pk c 1) 1) ∗ cellInv ER (sched m) (K (pk c 2, 8)) (rcvCell (pk c 2) 2))

instance invs_persistent (K : Dev nD × Fin 9 → ℕ) (c : Dev nD) : BI.Persistent (invs m K c) := by unfold invs; infer_instance

/-- Its positions at round 0 of its nine cells. -/
def posns (c : Dev nD) : sProp 𝕄 :=
  iprop(atPos ER (barCell c) 0 ∅ 0 ∗ atPos ER (ldCell c 0) 0 ∅ 0 ∗ atPos ER (ldCell c 1) 0 ∅ 0
    ∗ atPos ER (sndCell c 0) 0 ∅ 0 ∗ atPos ER (sndCell c 1) 0 ∅ 0 ∗ atPos ER (sndCell c 2) 0 ∅ 0
    ∗ atPos ER (rcvCell c 0) 0 ∅ 0 ∗ atPos ER (rcvCell c 1) 0 ∅ 0 ∗ atPos ER (rcvCell c 2) 0 ∅ 0)
/-- That round 0 is reached on the barrier cells it signals and on its own eight cells (its own receive cells' it hands
    on with its signals). -/
def marks (c : Dev nD) : sProp 𝕄 :=
  iprop(reached ER (barCell (pk c 0)) 0 ∗ reached ER (barCell (pk c 1)) 0 ∗ reached ER (barCell (pk c 2)) 0
    ∗ reached ER (ldCell c 0) 0 ∗ reached ER (ldCell c 1) 0
    ∗ reached ER (sndCell c 0) 0 ∗ reached ER (sndCell c 1) 0 ∗ reached ER (sndCell c 2) 0
    ∗ reached ER (rcvCell c 0) 0 ∗ reached ER (rcvCell c 1) 0 ∗ reached ER (rcvCell c 2) 0)
/-- The tokens of the eleven duties it pays: duty `k` of the barrier cell `k + 1` ahead, its two load duties, its three
    send duties, the receive duty of slot `k` on the device `k + 1` ahead. -/
def payToks (c : Dev nD) : sProp 𝕄 :=
  iprop(dutyTok ER (barCell (pk c 0)) 0 0 ∗ dutyTok ER (barCell (pk c 1)) 0 1 ∗ dutyTok ER (barCell (pk c 2)) 0 2
    ∗ dutyTok ER (ldCell c 0) 0 0 ∗ dutyTok ER (ldCell c 1) 0 0
    ∗ dutyTok ER (sndCell c 0) 0 0 ∗ dutyTok ER (sndCell c 1) 0 0 ∗ dutyTok ER (sndCell c 2) 0 0
    ∗ dutyTok ER (rcvCell (pk c 0) 0) 0 0 ∗ dutyTok ER (rcvCell (pk c 1) 1) 0 0 ∗ dutyTok ER (rcvCell (pk c 2) 2) 0 0)

instance marks_persistent (c : Dev nD) : BI.Persistent (marks (F := F) c) := by unfold marks; infer_instance

def ghost (K : Dev nD × Fin 9 → ℕ) (c : Dev nD) : sProp 𝕄 :=
  iprop(invs m K c ∗ posns c ∗ marks c ∗ payToks c)

/-- The credit others pay device `c`: its barrier's three units, its three receive cells' copies. -/
def creds (c : Dev nD) : sProp 𝕄 :=
  iprop(cred (tallyAt (barCell c) () 3) ∗ cred (tallyAt (rcvCell c 0) () N) ∗ cred (tallyAt (rcvCell c 1) () N) ∗ cred (tallyAt (rcvCell c 2) () N))

/-- `x`'s block on device `c`, held whole at the launch contents. -/
def xWhole (c : Dev nD) : sProp 𝕄 := ((c : Thread nD τ).loc main_arg0) ↦{fullShare} xA m c
/-- The three scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- The eight own counters at zero, in the launch's order. -/
def ownZero (c : Dev nD) : sProp 𝕄 :=
  iprop(semVal (ldCell c 0) 0 ∗ semVal (ldCell c 1) 0 ∗ semVal (sndCell c 0) 0 ∗ semVal (sndCell c 1) 0 ∗ semVal (sndCell c 2) 0
    ∗ semVal (rcvCell c 0) 0 ∗ semVal (rcvCell c 1) 0 ∗ semVal (rcvCell c 2) 0)

/-- What device `c`'s body starts from, the scratch apart. -/
def start (c : Dev nD) : sProp 𝕄 :=
  iprop((∃ K, ghost m K c) ∗ creds c ∗ levAts L lv ∗ xWhole m c)

def Φ₀ (c : Dev nD) : sProp 𝕄 := iprop(start m c ∗ scratch c)
/-- After the point: `x` whole and unchanged, the scratch whole, the eight own cells closed at zero. -/
def Φ₁ (c : Dev nD) : sProp 𝕄 := iprop(xWhole m c ∗ scratch c ∗ ownZero c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outV m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-- A staging buffer whole at contents `X`, as the body obligation hands it over. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body obligation's precondition on device `c`, and its postcondition. -/
def bodyPre (c : Dev nD) : sProp 𝕄 :=
  iprop(Φ₀ m c ∗ (dats m ρ 0 c).owesAt () t₀.castSucc ∗ (∃ d, stg c cc0_stg0_0 ((dats m ρ 0 c).before (0 : Fin 1) t₀ d)))
def bodyPost (c : Dev nD) : sProp 𝕄 :=
  iprop(Φ₁ m c ∗ (dats m ρ 0 c).owesAt () t₀.succ ∗ stg c cc0_stg0_0 (outV m c))

end Cert.KernelIdeal.Proto

end
-- ==== Proof.Regions.lean ====
/-
  Cutting the buffers into the pieces the copies move, and putting them back. The block of x is held whole at two
  shares, each load's half carved out of one; the load scratch is cut into its two 512 x 512 slots and the receive
  scratch into its three 1 x 512 slots (with whatever of the buffer lies outside them); the partial sum's row is held at
  three shares, one per copy. A slot written whole holds the copied values whatever it held before, so each landing is
  the named contents; a whole-row store leaves exactly the stored row.
-/
import proofs.«900939_g7700000000000940_dist_mean_ax0_shard0_i_m1024_n512_v7x_i4_f32_1_alg».proof.Proof.Proto

noncomputable section

namespace Cert.KernelIdeal.Regions

open Cert.KernelIdeal Cert.KernelIdeal.Gen Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (c : Dev nD)

/-! ## A slot's element set is its rectangle's; a view written whole forgets what it held -/

/-- Written whole, a view's own elements hold the payload, whatever the buffer held before. -/
theorem write_univ_congr {κ : Kind} {sp : Space} {s : Shape} {e : EltTy} (v : View sig κ sp s e)
    (f f' : v.ty.Contents (Elt F)) (w : s.Idx → Elt F e) :
    ∀ i ∈ v.set, v.write (Elt F) f w Finset.univ i = v.write (Elt F) f' w Finset.univ i := by
  intro i hi
  obtain ⟨y, -, rfl⟩ := Finset.mem_map.mp hi
  rw [View.write_emb_of_mem _ _ (Finset.mem_univ y), View.write_emb_of_mem _ _ (Finset.mem_univ y)]

theorem hz2 : (![0, 0] : Fin 2 → Nat) = fun _ => 0 := by
  funext a; fin_cases a <;> rfl

/-- A slot's elements are its rectangle's. -/
theorem vS0_set : vS0.view.set = (vR 0).set := by
  simp only [Memref.view_squeeze, Memref.view_slice, Memref.view_whole, View.set_reshape, View.set_slice_whole]
theorem vS1_set : vS1.view.set = (vR 1).set := by
  simp only [Memref.view_squeeze, Memref.view_slice, Memref.view_whole, View.set_reshape, View.set_slice_whole]
theorem cS0_set : cS0.view.set = (cR 0).set := by
  simp only [Memref.view_squeeze, Memref.view_slice, Memref.view_whole, View.set_reshape, View.set_slice_whole]
theorem cS1_set : cS1.view.set = (cR 1).set := by
  simp only [Memref.view_squeeze, Memref.view_slice, Memref.view_whole, View.set_reshape, View.set_slice_whole]
theorem cS2_set : cS2.view.set = (cR 2).set := by
  simp only [Memref.view_squeeze, Memref.view_slice, Memref.view_whole, View.set_reshape, View.set_slice_whole]

/-! ## The slots' element sets, by their first coordinate -/

/-- An element of slot 0 of the load scratch has first coordinate 0, -/
theorem vS0_coord {i : (cc0_scratch0 : Ref sig .tc).ty.Idx} (h : i ∈ vS0.view.set) : (i (0 : Fin 3)).val = 0 := by
  have e : vS0.view.set = (vR 0).set := (View.set_reshape _ _).trans (View.set_slice_whole cc0_scratch0 _)
  rw [e] at h
  have a : 0 ≤ (i (0 : Fin 3)).val ∧ (i (0 : Fin 3)).val < 0 + 1 := (Rect.mem_set_unit.mp h) (0 : Fin 3)
  omega

/-- and one of slot 1 has first coordinate 1. -/
theorem vS1_coord {i : (cc0_scratch0 : Ref sig .tc).ty.Idx} (h : i ∈ vS1.view.set) : (i (0 : Fin 3)).val = 1 := by
  have e : vS1.view.set = (vR 1).set := (View.set_reshape _ _).trans (View.set_slice_whole cc0_scratch0 _)
  rw [e] at h
  have a : 1 ≤ (i (0 : Fin 3)).val ∧ (i (0 : Fin 3)).val < 1 + 1 := (Rect.mem_set_unit.mp h) (0 : Fin 3)
  omega

/-- So slot 1 lies in what is left of the load scratch once slot 0 is carved out. -/
theorem vS1_sub : vS1.view.set ⊆ Finset.univ \ vS0.view.set := fun i hi =>
  Finset.mem_sdiff.mpr ⟨Finset.mem_univ _, fun h0 => by have := vS0_coord h0; have := vS1_coord hi; omega⟩

/-- An element of slot `k` of the receive scratch has first coordinate `k`: slot 0, -/
theorem cS0_coord {i : (cc0_scratch2 : Ref sig .tc).ty.Idx} (h : i ∈ cS0.view.set) : (i (0 : Fin 3)).val = 0 := by
  have e : cS0.view.set = (cR 0).set := (View.set_reshape _ _).trans (View.set_slice_whole cc0_scratch2 _)
  rw [e] at h
  have a : 0 ≤ (i (0 : Fin 3)).val ∧ (i (0 : Fin 3)).val < 0 + 1 := (Rect.mem_set_unit.mp h) (0 : Fin 3)
  omega

/-- slot 1, -/
theorem cS1_coord {i : (cc0_scratch2 : Ref sig .tc).ty.Idx} (h : i ∈ cS1.view.set) : (i (0 : Fin 3)).val = 1 := by
  have e : cS1.view.set = (cR 1).set := (View.set_reshape _ _).trans (View.set_slice_whole cc0_scratch2 _)
  rw [e] at h
  have a : 1 ≤ (i (0 : Fin 3)).val ∧ (i (0 : Fin 3)).val < 1 + 1 := (Rect.mem_set_unit.mp h) (0 : Fin 3)
  omega

/-- slot 2. -/
theorem cS2_coord {i : (cc0_scratch2 : Ref sig .tc).ty.Idx} (h : i ∈ cS2.view.set) : (i (0 : Fin 3)).val = 2 := by
  have e : cS2.view.set = (cR 2).set := (View.set_reshape _ _).trans (View.set_slice_whole cc0_scratch2 _)
  rw [e] at h
  have a : 2 ≤ (i (0 : Fin 3)).val ∧ (i (0 : Fin 3)).val < 2 + 1 := (Rect.mem_set_unit.mp h) (0 : Fin 3)
  omega

/-- So slot 1 lies in what is left of the receive scratch once slot 0 is carved out, -/
theorem cS1_sub : cS1.view.set ⊆ Finset.univ \ cS0.view.set := fun i hi =>
  Finset.mem_sdiff.mpr ⟨Finset.mem_univ _, fun h0 => by have := cS0_coord h0; have := cS1_coord hi; omega⟩

/-- and slot 2 in what is left once slots 0 and 1 are. -/
theorem cS2_sub : cS2.view.set ⊆ (Finset.univ \ cS0.view.set) \ cS1.view.set := fun i hi =>
  Finset.mem_sdiff.mpr ⟨Finset.mem_sdiff.mpr ⟨Finset.mem_univ _, fun h0 => by have := cS0_coord h0; have := cS2_coord hi; omega⟩,
    fun h1 => by have := cS1_coord h1; have := cS2_coord hi; omega⟩

/-! ## The block of `x`: two shares, a half carved out of each -/

/-- What is left of share `j` of the block once load `j`'s half is lent. -/
def xRest : Fin 2 → sProp 𝕄
  | 0 => ((c : Thread nD τ).loc main_arg0) ↦[Finset.univ \ xS0.view.set]{qx 0} xA m c
  | 1 => ((c : Thread nD τ).loc main_arg0) ↦[Finset.univ \ xS1.view.set]{qx 1} xA m c

theorem x_split : xWhole m c ⊢ iprop(xPts m c 0 ∗ xRest m c 0 ∗ xPts m c 1 ∗ xRest m c 1) := by
  simp only [xWhole, xPts, xRest, qx]
  iintro H
  ihave H' := (pointsTo_share (PosShare.mem_left_op_right fullShare)).1 $$ H
  icases H' with ⟨Hl, Hr⟩
  ihave Hl' := (pointsTo_split_subset (Finset.subset_univ xS0.view.set)).1 $$ Hl
  icases Hl' with ⟨H0, R0⟩
  ihave Hr' := (pointsTo_split_subset (Finset.subset_univ xS1.view.set)).1 $$ Hr
  icases Hr' with ⟨H1, R1⟩
  isplitl [H0]; · iexact H0
  isplitl [R0]; · iexact R0
  isplitl [H1]; · iexact H1
  iexact R1

theorem x_join : iprop(xPts m c 0 ∗ xRest m c 0 ∗ xPts m c 1 ∗ xRest m c 1) ⊢ xWhole m c := by
  simp only [xWhole, xPts, xRest, qx]
  iintro ⟨H0, R0, H1, R1⟩
  iapply (pointsTo_share (PosShare.mem_left_op_right fullShare)).2
  isplitl [H0 R0]
  · iapply (pointsTo_split_subset (Finset.subset_univ xS0.view.set)).2
    isplitl [H0]; · iexact H0
    iexact R0
  · iapply (pointsTo_split_subset (Finset.subset_univ xS1.view.set)).2
    isplitl [H1]; · iexact H1
    iexact R1

/-! ## The load scratch: two slots and the rest -/

def vRest (f : Buf (Elt F) ((c : Thread nD τ).loc cc0_scratch0)) : sProp 𝕄 :=
  ((c : Thread nD τ).loc cc0_scratch0) ↦[(Finset.univ \ vS0.view.set) \ vS1.view.set]{fullShare} f

theorem v_split (f : Buf (Elt F) ((c : Thread nD τ).loc cc0_scratch0)) :
    (((c : Thread nD τ).loc cc0_scratch0) ↦{fullShare} f : sProp 𝕄) ⊢ iprop(vPts c 0 f ∗ vPts c 1 f ∗ vRest c f) := by
  simp only [vPts, vRest]
  iintro H
  ihave Ha := (pointsTo_split_subset (Finset.subset_univ vS0.view.set)).1 $$ H
  icases Ha with ⟨H0, Hb⟩
  ihave Hc := (pointsTo_split_subset vS1_sub).1 $$ Hb
  icases Hc with ⟨H1, Hd⟩
  isplitl [H0]; · iexact H0
  isplitl [H1]; · iexact H1
  iexact Hd

theorem v_join (f0 f1 f : Buf (Elt F) ((c : Thread nD τ).loc cc0_scratch0)) :
    iprop(vPts c 0 f0 ∗ vPts c 1 f1 ∗ vRest c f)
      ⊢ (iprop(∃ g : Buf (Elt F) ((c : Thread nD τ).loc cc0_scratch0), ((c : Thread nD τ).loc cc0_scratch0) ↦{fullShare} g) : sProp 𝕄) := by
  simp only [vPts, vRest]
  iintro ⟨H0, H1, H⟩
  iexists (vS0.view.set.piecewise f0 (vS1.view.set.piecewise f1 f))
  iapply (pointsTo_join_subset (Finset.subset_univ vS0.view.set))
  isplitl [H0]; · iexact H0
  iapply (pointsTo_join_subset vS1_sub)
  isplitl [H1]; · iexact H1
  iexact H

/-! ## The receive scratch: three slots and the rest -/

def cRest (f : Buf (Elt F) ((c : Thread nD τ).loc cc0_scratch2)) : sProp 𝕄 :=
  ((c : Thread nD τ).loc cc0_scratch2) ↦[((Finset.univ \ cS0.view.set) \ cS1.view.set) \ cS2.view.set]{fullShare} f

theorem c_split (f : Buf (Elt F) ((c : Thread nD τ).loc cc0_scratch2)) :
    (((c : Thread nD τ).loc cc0_scratch2) ↦{fullShare} f : sProp 𝕄) ⊢ iprop(cPts c 0 f ∗ cPts c 1 f ∗ cPts c 2 f ∗ cRest c f) := by
  simp only [cPts, cRest]
  iintro H
  ihave Ha := (pointsTo_split_subset (Finset.subset_univ cS0.view.set)).1 $$ H
  icases Ha with ⟨H0, Hb⟩
  ihave Hc := (pointsTo_split_subset cS1_sub).1 $$ Hb
  icases Hc with ⟨H1, Hd⟩
  ihave He := (pointsTo_split_subset cS2_sub).1 $$ Hd
  icases He with ⟨H2, Hf⟩
  isplitl [H0]; · iexact H0
  isplitl [H1]; · iexact H1
  isplitl [H2]; · iexact H2
  iexact Hf

theorem c_join (f0 f1 f2 f : Buf (Elt F) ((c : Thread nD τ).loc cc0_scratch2)) :
    iprop(cPts c 0 f0 ∗ cPts c 1 f1 ∗ cPts c 2 f2 ∗ cRest c f)
      ⊢ (iprop(∃ g : Buf (Elt F) ((c : Thread nD τ).loc cc0_scratch2), ((c : Thread nD τ).loc cc0_scratch2) ↦{fullShare} g) : sProp 𝕄) := by
  simp only [cPts, cRest]
  iintro ⟨H0, H1, H2, H⟩
  iexists (cS0.view.set.piecewise f0 (cS1.view.set.piecewise f1 (cS2.view.set.piecewise f2 f)))
  iapply (pointsTo_join_subset (Finset.subset_univ cS0.view.set))
  isplitl [H0]; · iexact H0
  iapply (pointsTo_join_subset cS1_sub)
  isplitl [H1]; · iexact H1
  iapply (pointsTo_join_subset cS2_sub)
  isplitl [H2]; · iexact H2
  iexact H

/-! ## The partial sum's row: three shares -/

theorem m_split : (((c : Thread nD τ).loc cc0_scratch1) ↦{fullShare} mineV m c : sProp 𝕄) ⊢ iprop(mPts m c 0 ∗ mPts m c 1 ∗ mPts m c 2) := by
  have hs : mM.view.set = Finset.univ := View.set_whole cc0_scratch1
  unfold mPts
  rw [hs]
  simp only [qm]
  iintro H
  ihave H' := (pointsTo_share (PosShare.mem_left_op_right fullShare)).1 $$ H
  icases H' with ⟨Hl, Hr⟩
  ihave Hr' := (pointsTo_share (PosShare.mem_left_op_right fullShare.right)).1 $$ Hr
  icases Hr' with ⟨Hrl, Hrr⟩
  isplitl [Hl]; · iexact Hl
  isplitl [Hrl]; · iexact Hrl
  iexact Hrr

theorem m_join : iprop(mPts m c 0 ∗ mPts m c 1 ∗ mPts m c 2) ⊢ (((c : Thread nD τ).loc cc0_scratch1) ↦{fullShare} mineV m c : sProp 𝕄) := by
  have hs : mM.view.set = Finset.univ := View.set_whole cc0_scratch1
  unfold mPts
  rw [hs]
  simp only [qm]
  iintro ⟨Hl, Hrl, Hrr⟩
  iapply (pointsTo_share (PosShare.mem_left_op_right fullShare)).2
  isplitl [Hl]; · iexact Hl
  iapply (pointsTo_share (PosShare.mem_left_op_right fullShare.right)).2
  isplitl [Hrl]; · iexact Hrl
  iexact Hrr

/-! ## The loads' rectangles lie in the slots they read -/

theorem vload_sub0 : vM.view.setOn (vR 0).toLoadRect.set ⊆ vS0.view.set := by
  rw [vS0_set]; exact subset_of_eq Finset.map_refl
theorem vload_sub1 : vM.view.setOn (vR 1).toLoadRect.set ⊆ vS1.view.set := by
  rw [vS1_set]; exact subset_of_eq Finset.map_refl
theorem cload_sub0 : cM.view.setOn (cR 0).toLoadRect.set ⊆ cS0.view.set := by
  rw [cS0_set]; exact subset_of_eq Finset.map_refl
theorem cload_sub1 : cM.view.setOn (cR 1).toLoadRect.set ⊆ cS1.view.set := by
  rw [cS1_set]; exact subset_of_eq Finset.map_refl
theorem cload_sub2 : cM.view.setOn (cR 2).toLoadRect.set ⊆ cS2.view.set := by
  rw [cS2_set]; exact subset_of_eq Finset.map_refl

/-! ## Landings are the named contents, whatever the slot held -/

theorem ld_hpay0 (fd : Buf (Elt F) (vS0.view.loc (c : Thread nD τ))) :
    iprop((vS0.view.loc (c : Thread nD τ) ↦[vS0.view.set]{fullShare} (vS0.view.write (Elt F) fd (xS0.view.read (Elt F) (xA m c)) Finset.univ))
        ∗ (xS0.view.loc (c : Thread nD τ) ↦[xS0.view.set]{qx 0} xA m c))
      ⊢ ldPay m c 0 := by
  rw [pointsTo_congr (write_univ_congr vS0.view fd (m ((c : Thread nD τ).loc cc0_scratch0)) (xS0.view.read (Elt F) (xA m c)))]
  exact Entails.rfl
theorem ld_hpay1 (fd : Buf (Elt F) (vS1.view.loc (c : Thread nD τ))) :
    iprop((vS1.view.loc (c : Thread nD τ) ↦[vS1.view.set]{fullShare} (vS1.view.write (Elt F) fd (xS1.view.read (Elt F) (xA m c)) Finset.univ))
        ∗ (xS1.view.loc (c : Thread nD τ) ↦[xS1.view.set]{qx 1} xA m c))
      ⊢ ldPay m c 1 := by
  rw [pointsTo_congr (write_univ_congr vS1.view fd (m ((c : Thread nD τ).loc cc0_scratch0)) (xS1.view.read (Elt F) (xA m c)))]
  exact Entails.rfl
/-- Copy `k` of device `c` lands in slot `k` of the device `k + 1` ahead, whose slot `k` is fed by the device `k + 1` behind IT: `c`. -/
theorem rcv_hpay0 (fd : Buf (Elt F) (cS0.view.loc (pk c 0 : Thread nD τ))) :
    (cS0.view.loc (pk c 0 : Thread nD τ) ↦[cS0.view.set]{fullShare} (cS0.view.write (Elt F) fd (mM.view.read (Elt F) (mineV m c)) Finset.univ) : sProp 𝕄)
      ⊢ rcvPay m (pk c 0) 0 := by
  rw [pointsTo_congr (write_univ_congr cS0.view fd (m ((pk c 0 : Thread nD τ).loc cc0_scratch2)) (mM.view.read (Elt F) (mineV m c)))]
  unfold rcvPay cPts landv
  rw [bk_pk]
theorem rcv_hpay1 (fd : Buf (Elt F) (cS1.view.loc (pk c 1 : Thread nD τ))) :
    (cS1.view.loc (pk c 1 : Thread nD τ) ↦[cS1.view.set]{fullShare} (cS1.view.write (Elt F) fd (mM.view.read (Elt F) (mineV m c)) Finset.univ) : sProp 𝕄)
      ⊢ rcvPay m (pk c 1) 1 := by
  rw [pointsTo_congr (write_univ_congr cS1.view fd (m ((pk c 1 : Thread nD τ).loc cc0_scratch2)) (mM.view.read (Elt F) (mineV m c)))]
  unfold rcvPay cPts landv
  rw [bk_pk]
theorem rcv_hpay2 (fd : Buf (Elt F) (cS2.view.loc (pk c 2 : Thread nD τ))) :
    (cS2.view.loc (pk c 2 : Thread nD τ) ↦[cS2.view.set]{fullShare} (cS2.view.write (Elt F) fd (mM.view.read (Elt F) (mineV m c)) Finset.univ) : sProp 𝕄)
      ⊢ rcvPay m (pk c 2) 2 := by
  rw [pointsTo_congr (write_univ_congr cS2.view fd (m ((pk c 2 : Thread nD τ).loc cc0_scratch2)) (mM.view.read (Elt F) (mineV m c)))]
  unfold rcvPay cPts landv
  rw [bk_pk]

/-! ## Whole-row stores -/

theorem write_m (f w : (cc0_scratch1 : Ref sig .tc).ty.Contents (Elt F)) :
    ((mM.access mR : View sig .tc _ _ _).write (Elt F) f w Finset.univ) = w := Memref.write_access_unit_zero_univ (Elt F) cc0_scratch1 hz2 _ f w
theorem write_o (f w : (cc0_stg0_0 : Ref sig .tc).ty.Contents (Elt F)) :
    ((oM.access mR : View sig .tc _ _ _).write (Elt F) f w Finset.univ) = w := Memref.write_access_unit_zero_univ (Elt F) cc0_stg0_0 hz2 _ f w

/-- info: 'Cert.KernelIdeal.Regions.rcv_hpay2' depends on axioms: [propext, Classical.choice, Quot.sound] -/
#guard_msgs in #print axioms rcv_hpay2
/-- info: 'Cert.KernelIdeal.Regions.c_join' depends on axioms: [propext, Classical.choice, Quot.sound] -/
#guard_msgs in #print axioms c_join
/-- info: 'Cert.KernelIdeal.Regions.x_join' depends on axioms: [propext, Classical.choice, Quot.sound] -/
#guard_msgs in #print axioms x_join

end Cert.KernelIdeal.Regions

end
-- ==== Proof.Mid.lean ====
/-
  One device's body, cut at its barrier wait. Before the cut: the three signals, the two loads and their waits, the
  two column sums stored as the partial sum, the wait for the three units. After it: the three copies, the waits for
  the three landings and for the three sends, the four partial sums added and scaled into the result's staging row.
  What the device holds at the cut is stated once, so that the two halves are proved apart.
-/
import proofs.«900939_g7700000000000940_dist_mean_ax0_shard0_i_m1024_n512_v7x_i4_f32_1_alg».proof.Proof.Proto
import proofs.«900939_g7700000000000940_dist_mean_ax0_shard0_i_m1024_n512_v7x_i4_f32_1_alg».proof.Proof.Regions

noncomputable section

namespace Cert.KernelIdeal.Mid

open Cert.KernelIdeal Cert.KernelIdeal.Gen Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.KernelIdeal.Regions

/-- The precondition with the names `K` of the cells' invariants fixed. -/
def bodyPreK (K : Dev nD × Fin 9 → ℕ) (c : Dev nD) : sProp 𝕄 :=
  iprop(ghost m K c ∗ creds c ∗ levAts L lv ∗ xWhole m c ∗ scratch c
    ∗ (dats m ρ 0 c).owesAt () t₀.castSucc ∗ (∃ d, stg c cc0_stg0_0 ((dats m ρ 0 c).before (0 : Fin 1) t₀ d)))

/-- What device `c` holds once its barrier wait has returned: every invariant and mark; its positions on its send and
    receive cells; the tokens of the six duties its copies pay; the credit of its three receive cells; the three receive
    credits still owed; the two load cells closed; `x` whole again; the load scratch whole; the partial sum's row holding
    the partial sum; of its receive scratch only what lies outside the three slots (the slots are with the devices that
    copy into them); the slot it copies into on each device ahead, with that slot's receive cell known to be at round 0;
    and the result's staging row, untouched. -/
def mid (K : Dev nD × Fin 9 → ℕ) (c : Dev nD) : sProp 𝕄 :=
  iprop(invs m K c ∗ marks c ∗ levAts L lv
    ∗ (atPos ER (sndCell c 0) 0 ∅ 0 ∗ atPos ER (sndCell c 1) 0 ∅ 0 ∗ atPos ER (sndCell c 2) 0 ∅ 0
        ∗ atPos ER (rcvCell c 0) 0 ∅ 0 ∗ atPos ER (rcvCell c 1) 0 ∅ 0 ∗ atPos ER (rcvCell c 2) 0 ∅ 0)
    ∗ (dutyTok ER (sndCell c 0) 0 0 ∗ dutyTok ER (sndCell c 1) 0 0 ∗ dutyTok ER (sndCell c 2) 0 0
        ∗ dutyTok ER (rcvCell (pk c 0) 0) 0 0 ∗ dutyTok ER (rcvCell (pk c 1) 1) 0 0 ∗ dutyTok ER (rcvCell (pk c 2) 2) 0 0)
    ∗ (cred (tallyAt (rcvCell c 0) () N) ∗ cred (tallyAt (rcvCell c 1) () N) ∗ cred (tallyAt (rcvCell c 2) () N))
    ∗ (∃ W : Waits sig Unit, owes (c : Thread nD τ) (OR c) W)
    ∗ (semVal (ldCell c 0) 0 ∗ semVal (ldCell c 1) 0)
    ∗ xWhole m c
    ∗ (∃ g : Buf (Elt F) ((c : Thread nD τ).loc cc0_scratch0), ((c : Thread nD τ).loc cc0_scratch0) ↦{fullShare} g)
    ∗ (((c : Thread nD τ).loc cc0_scratch1) ↦{fullShare} mineV m c)
    ∗ (∃ f, cRest c f)
    ∗ ((∃ f, cPts (F := F) (pk c 0) 0 f) ∗ (∃ f, cPts (F := F) (pk c 1) 1 f) ∗ (∃ f, cPts (F := F) (pk c 2) 2 f))
    ∗ (reached ER (rcvCell (pk c 0) 0) 0 ∗ reached ER (rcvCell (pk c 1) 1) 0 ∗ reached ER (rcvCell (pk c 2) 2) 0)
    ∗ (∃ d, stg c cc0_stg0_0 ((dats m ρ 0 c).before (0 : Fin 1) t₀ d)))

/-- The rest of the body after its first two parts, as the printed function sequences it. -/
def restProg (d0 : Dev nD) (v2 v49 v50 : BitVec 32) : Prog (TpuEff nD τ sig (Elt F) Λ₀ .tc) PUnit := do
  let ⟨v59, v69⟩ : Σ' (v59 : BitVec 32), BitVec 32 ← k0_part3 (F := F) xM (Memref.isWhole_whole _) oM (hstage0_0 0) vM (Memref.isWhole_whole _) mM (Memref.isWhole_whole _) cM (Memref.isWhole_whole _) cc0_scratch3 cc0_scratch4 cc0_scratch5 d0 v2 v49 v50
  k0_part4 (F := F) xM (Memref.isWhole_whole _) oM (hstage0_0 0) vM (Memref.isWhole_whole _) mM (Memref.isWhole_whole _) cM (Memref.isWhole_whole _) cc0_scratch3 cc0_scratch4 cc0_scratch5 v59 v69
  let v104 : DmaSems sig S1 := cc0_scratch4.slice (Rect.unit (s := S3) ![2] S1.size inb_S3_S1_2)
  let v105 : DmaSems sig S_ := v104.squeeze S_ squeezes_S1_S_
  let v106 : Memref sig .tc .vmem S1x1x512 .f32 := cM.slice (Rect.unit (s := S3x1x512) ![2, 0, 0] S1x1x512.size inb_S3x1x512_S1x1x512_2_0_0) (fun _ => rfl)
  let v107 : Memref sig .tc .vmem S1x512 .f32 := v106.squeeze S1x512 squeezes_S1x1x512_S1x512
  Prog.lift (.waitDma2 v105.sem v107 mM ((View.wordExact_bits rfl).reshape _ _) (Memref.isWhole_whole _).wordExact)
  let v108 : Vec F S1x512 .f32 ← Prog.lift (.load mM (Rect.unit (s := S1x512) ![0, 0] S1x512.size inb_S1x512_S1x512_0_0).toLoadRect (View.loadsAt_vmem h_S1x512))
  let v109 : Vec F S1x1x512 .f32 ← Prog.lift (.load cM (Rect.unit (s := S3x1x512) ![0, 0, 0] S1x1x512.size inb_S3x1x512_S1x1x512_0_0_0).toLoadRect (View.loadsAt_vmem h_S1x1x512))
  let v112 : Vec F S1x1x512 .f32 ← Prog.lift (.load cM (Rect.unit (s := S3x1x512) ![1, 0, 0] S1x1x512.size inb_S3x1x512_S1x1x512_1_0_0).toLoadRect (View.loadsAt_vmem h_S1x1x512))
  let v115 : Vec F S1x1x512 .f32 ← Prog.lift (.load cM (Rect.unit (s := S3x1x512) ![2, 0, 0] S1x1x512.size inb_S3x1x512_S1x1x512_2_0_0).toLoadRect (View.loadsAt_vmem h_S1x1x512))
  let v120 : Vec F S1x512 .f32 ← Prog.lift (.load oM (Rect.unit (s := S1x512) ![0, 0] S1x512.size inb_S1x512_S1x512_0_0).toLoadRect (View.loadsAt_vmem h_S1x512))
  Prog.lift (.store oM (Rect.unit (s := S1x512) ![0, 0] S1x512.size inb_S1x512_S1x512_0_0) (k0_pay1 v108 v109 v112 v115) Finset.univ (View.stores_vmem_bits_univ h_S1x512 rfl) (.inl rfl))
  pure ⟨⟩

/-- The printed body is its first two parts followed by the rest. -/
theorem body_split :
    cc0_body (F := F) xM (Memref.isWhole_whole _) oM (hstage0_0 0) vM (Memref.isWhole_whole _) mM (Memref.isWhole_whole _) cM (Memref.isWhole_whole _) cc0_scratch3 cc0_scratch4 cc0_scratch5
      = (k0_part1 (F := F) xM (Memref.isWhole_whole _) oM (hstage0_0 0) vM (Memref.isWhole_whole _) mM (Memref.isWhole_whole _) cM (Memref.isWhole_whole _) cc0_scratch3 cc0_scratch4 cc0_scratch5 >>= fun r1 =>
          k0_part2 (F := F) xM (Memref.isWhole_whole _) oM (hstage0_0 0) vM (Memref.isWhole_whole _) mM (Memref.isWhole_whole _) cM (Memref.isWhole_whole _) cc0_scratch3 cc0_scratch4 cc0_scratch5 r1.2.1 r1.2.2 >>= fun r2 =>
            restProg (F := F) r1.1 r1.2.1 r2.1 r2.2) := by
  rw [cc0_body_eq_skeleton]; rfl

end Cert.KernelIdeal.Mid

end
-- ==== Proof.Tables.lean ====
/-
  The schedule's tables, cell by cell: which duties round 0 has, what each contributes and hands over, what a wait
  for the whole round expects and brings back; no round after round 0 has a duty. And the order of the waits: a
  device waits on a staging, load or barrier cell owing only units on cells of a strictly higher level.
-/
import proofs.«900939_g7700000000000940_dist_mean_ax0_shard0_i_m1024_n512_v7x_i4_f32_1_alg».proof.Proof.Proto

noncomputable section

namespace Cert.KernelIdeal.Tables

open Cert.KernelIdeal Cert.KernelIdeal.Gen Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### Every payload can be stored in a cell's invariant -/
instance vPts_storable (c : Dev nD) (j : Fin 2) (f : Buf (Elt F) ((c : Thread nD τ).loc cc0_scratch0)) :
    BI.Storable (upEmb : UEmb _ 𝕄) (vPts (F := F) c j f) := by
  match j with
  | 0 => unfold vPts; infer_instance
  | 1 => unfold vPts; infer_instance
instance cPts_storable (c : Dev nD) (k : Fin 3) (f : Buf (Elt F) ((c : Thread nD τ).loc cc0_scratch2)) :
    BI.Storable (upEmb : UEmb _ 𝕄) (cPts (F := F) c k f) := by
  match k with
  | 0 => unfold cPts; infer_instance
  | 1 => unfold cPts; infer_instance
  | 2 => unfold cPts; infer_instance
instance xPts_storable (c : Dev nD) (j : Fin 2) : BI.Storable (upEmb : UEmb _ 𝕄) (xPts (F := F) m c j) := by
  match j with
  | 0 => unfold xPts; infer_instance
  | 1 => unfold xPts; infer_instance
instance mPts_storable (c : Dev nD) (k : Fin 3) : BI.Storable (upEmb : UEmb _ 𝕄) (mPts (F := F) m c k) := by
  unfold mPts; infer_instance
instance barPay_storable (c : Dev nD) (d : Fin 3) : BI.Storable (upEmb : UEmb _ 𝕄) (barPay (F := F) c d) := by
  match d with
  | 0 => unfold barPay; infer_instance
  | 1 => unfold barPay; infer_instance
  | 2 => unfold barPay; infer_instance
instance ldPay_storable (c : Dev nD) (j : Fin 2) : BI.Storable (upEmb : UEmb _ 𝕄) (ldPay (F := F) m c j) := by
  unfold ldPay; infer_instance
instance rcvPay_storable (c : Dev nD) (k : Fin 3) : BI.Storable (upEmb : UEmb _ 𝕄) (rcvPay (F := F) m c k) := by
  unfold rcvPay; infer_instance

instance sched_payload_storable (g : GSem nD τ sig) (r : ℕ) (d : Fin 3) :
    BI.Storable (upEmb : UEmb _ 𝕄) ((sched (F := F) m).payload g r d) := by
  dsimp only [sched]
  (repeat' split) <;> infer_instance

section Sched
variable (c : Dev nD)

/-! ### The nine semaphores are pairwise distinct -/
theorem ld_ne_bar (j : Fin 2) : (ldL j : SemLoc sig) ≠ barL := fun h => by cases h
theorem snd_ne_bar (k : Fin 3) : (sndL k : SemLoc sig) ≠ barL := fun h => by cases h
theorem rcv_ne_bar (k : Fin 3) : (rcvL k : SemLoc sig) ≠ barL := fun h => by cases h
theorem osem_injective : Function.Injective (osem : Fin 8 → SemLoc sig) := by decide
theorem csem_injective : Function.Injective (csem : Fin 9 → SemLoc sig) := by decide
theorem ld1_ne_ld0 : (ldL 1 : SemLoc sig) ≠ ldL 0 := by decide
theorem snd_ne_ld (k : Fin 3) (j : Fin 2) : (sndL k : SemLoc sig) ≠ ldL j := by revert k j; decide
theorem rcv_ne_ld (k : Fin 3) (j : Fin 2) : (rcvL k : SemLoc sig) ≠ ldL j := by revert k j; decide
theorem ld_ne_rcv (j : Fin 2) (k : Fin 3) : (ldL j : SemLoc sig) ≠ rcvL k := by revert j k; decide
theorem rcv_ne_snd (k k' : Fin 3) : (rcvL k : SemLoc sig) ≠ sndL k' := by revert k k'; decide
theorem sndL_injective : Function.Injective (sndL : Fin 3 → SemLoc sig) := by decide
theorem rcvL_injective : Function.Injective (rcvL : Fin 3 → SemLoc sig) := by decide
/-- Each load, send and receive semaphore is one of the eight own semaphores. -/
theorem own_ld (j : Fin 2) : IsOwn (ldL j) := match j with | 0 => ⟨0, rfl⟩ | 1 => ⟨1, rfl⟩
theorem own_snd (k : Fin 3) : IsOwn (sndL k) := match k with | 0 => ⟨2, rfl⟩ | 1 => ⟨3, rfl⟩ | 2 => ⟨4, rfl⟩
theorem own_rcv (k : Fin 3) : IsOwn (rcvL k) := match k with | 0 => ⟨5, rfl⟩ | 1 => ⟨6, rfl⟩ | 2 => ⟨7, rfl⟩
theorem ld_is_ld (j : Fin 2) : (ldL j : SemLoc sig) = ldL 0 ∨ (ldL j : SemLoc sig) = ldL 1 :=
  match j with | 0 => .inl rfl | 1 => .inr rfl
theorem rcv_is_rcv (k : Fin 3) : (rcvL k : SemLoc sig) = rcvL 0 ∨ (rcvL k : SemLoc sig) = rcvL 1 ∨ (rcvL k : SemLoc sig) = rcvL 2 :=
  match k with | 0 => .inl rfl | 1 => .inr (.inl rfl) | 2 => .inr (.inr rfl)

/-! ### Duties -/
theorem duties_bar : (sched (F := F) m).duties (barCell c) 0 = Finset.univ := by
  dsimp only [sched]; rw [if_pos ⟨rfl, rfl⟩, if_pos rfl]
theorem duties_ld (j : Fin 2) : (sched (F := F) m).duties (ldCell c j) 0 = {0} := by
  dsimp only [sched]; rw [if_pos ⟨rfl, rfl⟩, if_neg (ld_ne_bar j), if_pos (own_ld j)]
theorem duties_snd (k : Fin 3) : (sched (F := F) m).duties (sndCell c k) 0 = {0} := by
  dsimp only [sched]; rw [if_pos ⟨rfl, rfl⟩, if_neg (snd_ne_bar k), if_pos (own_snd k)]
theorem duties_rcv (k : Fin 3) : (sched (F := F) m).duties (rcvCell c k) 0 = {0} := by
  dsimp only [sched]; rw [if_pos ⟨rfl, rfl⟩, if_neg (rcv_ne_bar k), if_pos (own_rcv k)]
theorem duties_later (g : GSem nD τ sig) : ∀ r, 1 ≤ r → (sched (F := F) m).duties g r = ∅ :=
  fun r hr => by dsimp only [sched]; rw [if_neg fun h => by have := h.1; omega]

/-! ### Amounts and what a whole round expects -/
theorem amount_bar (d : Fin 3) : (sched (F := F) m).amount (barCell c) 0 d = 1 := by dsimp only [sched]; exact if_pos rfl
theorem amount_ld (j : Fin 2) (d : Fin 3) : (sched (F := F) m).amount (ldCell c j) 0 d = NL := by
  dsimp only [sched]; rw [if_neg (ld_ne_bar j), if_pos (ld_is_ld j)]
theorem amount_snd (k : Fin 3) (d : Fin 3) : (sched (F := F) m).amount (sndCell c k) 0 d = N := by
  dsimp only [sched]; rw [if_neg (snd_ne_bar k), if_neg (not_or.mpr ⟨snd_ne_ld k 0, snd_ne_ld k 1⟩)]
theorem amount_rcv (k : Fin 3) (d : Fin 3) : (sched (F := F) m).amount (rcvCell c k) 0 d = N := by
  dsimp only [sched]; rw [if_neg (rcv_ne_bar k), if_neg (not_or.mpr ⟨rcv_ne_ld k 0, rcv_ne_ld k 1⟩)]
theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_ld (j : Fin 2) : (sched (F := F) m).expect (ldCell c j) 0 = NL := by
  unfold Schedule.expect Schedule.amountOf; rw [duties_ld, Finset.sum_singleton, amount_ld]
theorem expect_snd (k : Fin 3) : (sched (F := F) m).expect (sndCell c k) 0 = N := by
  unfold Schedule.expect Schedule.amountOf; rw [duties_snd, Finset.sum_singleton, amount_snd]
theorem expect_rcv (k : Fin 3) : (sched (F := F) m).expect (rcvCell c k) 0 = N := by
  unfold Schedule.expect Schedule.amountOf; rw [duties_rcv, Finset.sum_singleton, amount_rcv]

/-! ### Payloads -/
theorem payload_bar (d : Fin 3) : (sched (F := F) m).payload (barCell c) 0 d = barPay c d := by dsimp only [sched]; exact if_pos rfl
theorem payload_ld (j : Fin 2) (d : Fin 3) : (sched (F := F) m).payload (ldCell c j) 0 d = ldPay m c j := by
  match j with
  | 0 => dsimp only [sched]; rw [if_neg (ld_ne_bar 0), if_pos rfl]
  | 1 => dsimp only [sched]; rw [if_neg (ld_ne_bar 1), if_neg ld1_ne_ld0, if_pos rfl]
theorem payload_snd (k : Fin 3) (d : Fin 3) : (sched (F := F) m).payload (sndCell c k) 0 d = mPts m c k := by
  match k with
  | 0 => dsimp only [sched]; rw [if_neg (snd_ne_bar 0), if_neg (snd_ne_ld 0 0), if_neg (snd_ne_ld 0 1), if_pos rfl]
  | 1 =>
    dsimp only [sched]
    rw [if_neg (snd_ne_bar 1), if_neg (snd_ne_ld 1 0), if_neg (snd_ne_ld 1 1), if_neg (sndL_injective.ne (by decide)), if_pos rfl]
  | 2 =>
    dsimp only [sched]
    rw [if_neg (snd_ne_bar 2), if_neg (snd_ne_ld 2 0), if_neg (snd_ne_ld 2 1), if_neg (sndL_injective.ne (by decide)),
      if_neg (sndL_injective.ne (by decide)), if_pos rfl]
theorem payload_rcv (k : Fin 3) (d : Fin 3) : (sched (F := F) m).payload (rcvCell c k) 0 d = rcvPay m c k := by
  match k with
  | 0 =>
    dsimp only [sched]
    rw [if_neg (rcv_ne_bar 0), if_neg (rcv_ne_ld 0 0), if_neg (rcv_ne_ld 0 1), if_neg (rcv_ne_snd 0 0), if_neg (rcv_ne_snd 0 1),
      if_neg (rcv_ne_snd 0 2), if_pos rfl]
  | 1 =>
    dsimp only [sched]
    rw [if_neg (rcv_ne_bar 1), if_neg (rcv_ne_ld 1 0), if_neg (rcv_ne_ld 1 1), if_neg (rcv_ne_snd 1 0), if_neg (rcv_ne_snd 1 1),
      if_neg (rcv_ne_snd 1 2), if_neg (rcvL_injective.ne (by decide)), if_pos rfl]
  | 2 =>
    dsimp only [sched]
    rw [if_neg (rcv_ne_bar 2), if_neg (rcv_ne_ld 2 0), if_neg (rcv_ne_ld 2 1), if_neg (rcv_ne_snd 2 0), if_neg (rcv_ne_snd 2 1),
      if_neg (rcv_ne_snd 2 2), if_neg (rcvL_injective.ne (by decide)), if_neg (rcvL_injective.ne (by decide)), if_pos rfl]

/-! ### The rest of a round of which no duty has been taken -/
theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
theorem rest_ld (j : Fin 2) : bigSep ((sched (F := F) m).duties (ldCell c j) 0 \ ∅) (fun d => (sched (F := F) m).payload (ldCell c j) 0 d)
    = ldPay m c j := by
  rw [Finset.sdiff_empty, duties_ld, bigSep_singleton, payload_ld]
theorem rest_snd (k : Fin 3) : bigSep ((sched (F := F) m).duties (sndCell c k) 0 \ ∅) (fun d => (sched (F := F) m).payload (sndCell c k) 0 d)
    = mPts m c k := by
  rw [Finset.sdiff_empty, duties_snd, bigSep_singleton, payload_snd]
theorem rest_rcv (k : Fin 3) : bigSep ((sched (F := F) m).duties (rcvCell c k) 0 \ ∅) (fun d => (sched (F := F) m).payload (rcvCell c k) 0 d)
    = rcvPay m c k := by
  rw [Finset.sdiff_empty, duties_rcv, bigSep_singleton, payload_rcv]

end Sched

/-! ## Where the owed tallies sit -/

theorem OR_pos {c : Dev nD} {g : GSem nD τ sig} {u : Unit} (h : 0 < OR c g u) :
    g = rcvCell (pk c 2) 2 ∨ g = rcvCell (pk c 1) 1 ∨ g = rcvCell (pk c 0) 0 := by
  unfold OR at h
  rw [Pi.add_apply, Finsupp.add_apply, Pi.add_apply, Finsupp.add_apply, tallyAt_apply, tallyAt_apply, tallyAt_apply] at h
  by_contra hn
  have h2 : g ≠ rcvCell (pk c 2) 2 := fun e => hn (.inl e)
  have h1 : g ≠ rcvCell (pk c 1) 1 := fun e => hn (.inr (.inl e))
  have h0 : g ≠ rcvCell (pk c 0) 0 := fun e => hn (.inr (.inr e))
  rw [if_neg (fun h' => h2 h'.1), if_neg (fun h' => h1 h'.1), if_neg (fun h' => h0 h'.1)] at h
  exact Nat.lt_irrefl 0 h
theorem O₀_pos {c : Dev nD} {g : GSem nD τ sig} {u : Unit} (h : 0 < O₀ c g u) :
    (g = rcvCell (pk c 2) 2 ∨ g = rcvCell (pk c 1) 1 ∨ g = rcvCell (pk c 0) 0)
      ∨ g = barCell (pk c 2) ∨ g = barCell (pk c 1) ∨ g = barCell (pk c 0) := by
  unfold O₀ O₁ O₂ at h
  rw [Pi.add_apply, Finsupp.add_apply, Pi.add_apply, Finsupp.add_apply, Pi.add_apply, Finsupp.add_apply, tallyAt_apply, tallyAt_apply,
    tallyAt_apply] at h
  by_contra hn
  have hR : OR c g u = 0 := Nat.eq_zero_of_not_pos fun hp => hn (.inl (OR_pos hp))
  have h2 : g ≠ barCell (pk c 2) := fun e => hn (.inr (.inl e))
  have h1 : g ≠ barCell (pk c 1) := fun e => hn (.inr (.inr (.inl e)))
  have h0 : g ≠ barCell (pk c 0) := fun e => hn (.inr (.inr (.inr e)))
  rw [hR, if_neg (fun h' => h2 h'.1), if_neg (fun h' => h1 h'.1), if_neg (fun h' => h0 h'.1)] at h
  exact Nat.lt_irrefl 0 h

/-! ## The waits' level evidence -/

/-- The pipeline's waits on a staging semaphore (no protocol cell: level 0), owing everything or nothing. -/
theorem mayWait_stage (c : Dev nD) (q : DmaSem sig) (hq : (SemLoc.dma q : SemLoc sig) ≠ rcvL 0 ∧ (SemLoc.dma q : SemLoc sig) ≠ rcvL 1 ∧ (SemLoc.dma q : SemLoc sig) ≠ rcvL 2)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with (rfl | rfl | rfl) | rfl | rfl | rfl <;> exact Finset.mem_singleton_self _)
      (fun p hp => by
        rw [Finset.mem_singleton.mp hp]; dsimp only [lv]
        rw [if_neg (fun h => by cases h), if_neg (not_or.mpr ⟨hq.1, not_or.mpr ⟨hq.2.1, hq.2.2⟩⟩)])
      (fun g u hg => by
        rcases O₀_pos hg with (rfl | rfl | rfl) | rfl | rfl | rfl
        · dsimp only [lv]; rw [if_neg (rcv_ne_bar 2), if_pos (rcv_is_rcv 2)]; decide
        · dsimp only [lv]; rw [if_neg (rcv_ne_bar 1), if_pos (rcv_is_rcv 1)]; decide
        · dsimp only [lv]; rw [if_neg (rcv_ne_bar 0), if_pos (rcv_is_rcv 0)]; decide
        · dsimp only [lv]; rw [if_pos rfl]; decide
        · dsimp only [lv]; rw [if_pos rfl]; decide
        · dsimp only [lv]; rw [if_pos rfl]; decide)
  · rw [MayWait_zero]; iintro -; iempintro
/-- A load wait (level 0), the three receive credits still owed. -/
theorem mayWait_ld (c : Dev nD) (j : Fin 2) :
    (levAts L lv : sProp 𝕄) ⊢ MayWait (c : Thread nD τ) (ldL j) () (OR c) :=
  MayOwe.of_cut (L := L) (lev := lv) 0 (fun p hp => by rw [Finset.mem_singleton.mp hp, L_tc]; exact Finset.mem_singleton_self _)
    (fun g u hg => by rcases OR_pos hg with rfl | rfl | rfl <;> exact Finset.mem_singleton_self _)
    (fun p hp => by
      rw [Finset.mem_singleton.mp hp]; dsimp only [lv]
      rw [if_neg (ld_ne_bar j), if_neg (not_or.mpr ⟨ld_ne_rcv j 0, not_or.mpr ⟨ld_ne_rcv j 1, ld_ne_rcv j 2⟩⟩)])
    (fun g u hg => by
      rcases OR_pos hg with rfl | rfl | rfl
      · dsimp only [lv]; rw [if_neg (rcv_ne_bar 2), if_pos (rcv_is_rcv 2)]; decide
      · dsimp only [lv]; rw [if_neg (rcv_ne_bar 1), if_pos (rcv_is_rcv 1)]; decide
      · dsimp only [lv]; rw [if_neg (rcv_ne_bar 0), if_pos (rcv_is_rcv 0)]; decide)
/-- The barrier wait (level 1), the three receive credits (level 2) still owed. -/
theorem mayWait_bar (c : Dev nD) :
    (levAts L lv : sProp 𝕄) ⊢ MayWait (c : Thread nD τ) barL () (OR c) :=
  MayOwe.of_cut (L := L) (lev := lv) 1 (fun p hp => by rw [Finset.mem_singleton.mp hp, L_tc]; exact Finset.mem_singleton_self _)
    (fun g u hg => by rcases OR_pos hg with rfl | rfl | rfl <;> exact Finset.mem_singleton_self _)
    (fun p hp => by rw [Finset.mem_singleton.mp hp]; dsimp only [lv]; rw [if_pos rfl])
    (fun g u hg => by
      rcases OR_pos hg with rfl | rfl | rfl
      · dsimp only [lv]; rw [if_neg (rcv_ne_bar 2), if_pos (rcv_is_rcv 2)]; decide
      · dsimp only [lv]; rw [if_neg (rcv_ne_bar 1), if_pos (rcv_is_rcv 1)]; decide
      · dsimp only [lv]; rw [if_neg (rcv_ne_bar 0), if_pos (rcv_is_rcv 0)]; decide)

/-- info: 'Cert.KernelIdeal.Tables.sched_payload_storable' depends on axioms: [propext, Classical.choice, Quot.sound] -/
#guard_msgs in #print axioms sched_payload_storable

/-- info: 'Cert.KernelIdeal.Tables.rest_bar' depends on axioms: [propext, Classical.choice, Quot.sound] -/
#guard_msgs in #print axioms rest_bar

/-- info: 'Cert.KernelIdeal.Tables.mayWait_stage' depends on axioms: [propext, Classical.choice, Quot.sound] -/
#guard_msgs in #print axioms mayWait_stage

/-- info: 'Cert.KernelIdeal.Tables.mayWait_ld' depends on axioms: [propext, Classical.choice, Quot.sound] -/
#guard_msgs in #print axioms mayWait_ld

/-- info: 'Cert.KernelIdeal.Tables.mayWait_bar' depends on axioms: [propext, Classical.choice, Quot.sound] -/
#guard_msgs in #print axioms mayWait_bar

end Cert.KernelIdeal.Tables

end
-- ==== Proof.BodyA.lean ====
/-
  The first half of one device's body: its three signals, each handing the signalled device the slot it will copy
  into; the two loads of the halves of its block, waited for in turn; the two column sums added into the partial
  sum's row; the wait for the three units of its own barrier cell, which bring the three slots it copies into.
-/
import proofs.«900939_g7700000000000940_dist_mean_ax0_shard0_i_m1024_n512_v7x_i4_f32_1_alg».proof.Proof.Proto
import proofs.«900939_g7700000000000940_dist_mean_ax0_shard0_i_m1024_n512_v7x_i4_f32_1_alg».proof.Proof.Tables
import proofs.«900939_g7700000000000940_dist_mean_ax0_shard0_i_m1024_n512_v7x_i4_f32_1_alg».proof.Proof.Regions
import proofs.«900939_g7700000000000940_dist_mean_ax0_shard0_i_m1024_n512_v7x_i4_f32_1_alg».proof.Proof.Mid

noncomputable section

namespace Cert.KernelIdeal.BodyA

open Cert.KernelIdeal Cert.KernelIdeal.Gen Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.KernelIdeal.Regions Cert.KernelIdeal.Tables Cert.KernelIdeal.Mid

variable (K : Dev nD × Fin 9 → ℕ) (c : Dev nD)

open Idealize.ShloMosaic.Tactic

/-- The unit a device sends the barrier cell `k + 1` places ahead hands over its own slot `2 - k`. -/
theorem barPay_pk0 : barPay (F := F) (pk c 0) 0 = iprop((∃ f, cPts (F := F) c 2 f) ∗ reached ER (rcvCell c 2) 0) := by
  show iprop((∃ f, cPts (F := F) (pk (pk c 0) 2) 2 f) ∗ reached ER (rcvCell (pk (pk c 0) 2) 2) 0) = _
  rw [show pk (pk c 0) 2 = c from pk_pk_rev c 0]
theorem barPay_pk1 : barPay (F := F) (pk c 1) 1 = iprop((∃ f, cPts (F := F) c 1 f) ∗ reached ER (rcvCell c 1) 0) := by
  show iprop((∃ f, cPts (F := F) (pk (pk c 1) 1) 1 f) ∗ reached ER (rcvCell (pk (pk c 1) 1) 1) 0) = _
  rw [show pk (pk c 1) 1 = c from pk_pk_rev c 1]
theorem barPay_pk2 : barPay (F := F) (pk c 2) 2 = iprop((∃ f, cPts (F := F) c 0 f) ∗ reached ER (rcvCell c 0) 0) := by
  show iprop((∃ f, cPts (F := F) (pk (pk c 2) 0) 0 f) ∗ reached ER (rcvCell (pk (pk c 2) 0) 0) 0) = _
  rw [show pk (pk c 2) 0 = c from pk_pk_rev c 2]

theorem payload_bar_pk0 : (sched (F := F) m).payload (barCell (pk c 0)) 0 0
    = iprop((∃ f, cS2.view.loc (c : Thread nD τ) ↦[cS2.view.set]{fullShare} f) ∗ reached ER (rcvCell c 2) 0) := by
  rw [payload_bar, barPay_pk0]; rfl
theorem payload_bar_pk1 : (sched (F := F) m).payload (barCell (pk c 1)) 0 1
    = iprop((∃ f, cS1.view.loc (c : Thread nD τ) ↦[cS1.view.set]{fullShare} f) ∗ reached ER (rcvCell c 1) 0) := by
  rw [payload_bar, barPay_pk1]; rfl
theorem payload_bar_pk2 : (sched (F := F) m).payload (barCell (pk c 2)) 0 2
    = iprop((∃ f, cS0.view.loc (c : Thread nD τ) ↦[cS0.view.set]{fullShare} f) ∗ reached ER (rcvCell c 0) 0) := by
  rw [payload_bar, barPay_pk2]; rfl

attribute [local sl_rounds] duties_bar amount_bar payload_bar_pk0 payload_bar_pk1 payload_bar_pk2 expect_bar duties_ld amount_ld expect_ld payload_ld
attribute [local sl_canon] dev1_eq dev2_eq dev3_eq

/-- The receive scratch cut into its slots, named as the signals hand them over: slot 2 first. -/
theorem c_split' (f : Buf (Elt F) ((c : Thread nD τ).loc cc0_scratch2)) :
    (((c : Thread nD τ).loc cc0_scratch2) ↦{fullShare} f : sProp 𝕄)
      ⊢ iprop((cS2.view.loc (c : Thread nD τ) ↦[cS2.view.set]{fullShare} f) ∗ (cS1.view.loc (c : Thread nD τ) ↦[cS1.view.set]{fullShare} f)
          ∗ (cS0.view.loc (c : Thread nD τ) ↦[cS0.view.set]{fullShare} f) ∗ cRest c f) := by
  refine (c_split c f).trans ?_
  show iprop((cS0.view.loc (c : Thread nD τ) ↦[cS0.view.set]{fullShare} f) ∗ (cS1.view.loc (c : Thread nD τ) ↦[cS1.view.set]{fullShare} f)
          ∗ (cS2.view.loc (c : Thread nD τ) ↦[cS2.view.set]{fullShare} f) ∗ cRest c f) ⊢ _
  iintro ⟨H0, H1, H2, HR⟩
  isplitl [H2]; · iexact H2
  isplitl [H1]; · iexact H1
  isplitl [H0]; · iexact H0
  iexact HR

/-- The block of `x` and the load scratch cut into the halves and slots the two loads move, as points-tos. -/
theorem x_split' : xWhole m c
      ⊢ iprop((xS0.view.loc (c : Thread nD τ) ↦[xS0.view.set]{qx 0} xA m c) ∗ xRest m c 0
          ∗ (xS1.view.loc (c : Thread nD τ) ↦[xS1.view.set]{qx 1} xA m c) ∗ xRest m c 1) := x_split m c
theorem v_split' (f : Buf (Elt F) ((c : Thread nD τ).loc cc0_scratch0)) :
    (((c : Thread nD τ).loc cc0_scratch0) ↦{fullShare} f : sProp 𝕄)
      ⊢ iprop((vS0.view.loc (c : Thread nD τ) ↦[vS0.view.set]{fullShare} f) ∗ (vS1.view.loc (c : Thread nD τ) ↦[vS1.view.set]{fullShare} f)
          ∗ vRest c f) := v_split c f

/-- What the wait for a load's round brings, as points-tos: the slot at the loaded half and the lent share of that half back. -/
theorem rest_ld0' : bigSep ((sched (F := F) m).duties (ldCell c 0) 0) (fun d => (sched (F := F) m).payload (ldCell c 0) 0 d)
    = iprop((vS0.view.loc (c : Thread nD τ) ↦[vS0.view.set]{fullShare} ldv m c 0) ∗ (xS0.view.loc (c : Thread nD τ) ↦[xS0.view.set]{qx 0} xA m c)) := by
  rw [duties_ld, bigSep_singleton, payload_ld]; rfl
theorem rest_ld1' : bigSep ((sched (F := F) m).duties (ldCell c 1) 0) (fun d => (sched (F := F) m).payload (ldCell c 1) 0 d)
    = iprop((vS1.view.loc (c : Thread nD τ) ↦[vS1.view.set]{fullShare} ldv m c 1) ∗ (xS1.view.loc (c : Thread nD τ) ↦[xS1.view.set]{qx 1} xA m c)) := by
  rw [duties_ld, bigSep_singleton, payload_ld]; rfl

/-- The row after the store holds the partial sum as it is named. -/
theorem mine_eq (f : (cc0_scratch1 : Ref sig .tc).ty.Contents (Elt F)) :
    mM.view.writes (Elt F) f [⟨mR, k0_pay2 (vM.view.readAt (Elt F) (vR 0).toLoadRect (ldv m c 0)) (vM.view.readAt (Elt F) (vR 1).toLoadRect (ldv m c 1))⟩]
      = mineV m c := write_m f (mineV m c)

/-- The slots and halves put back, from points-tos. -/
theorem v_join' (f0 f1 f : Buf (Elt F) ((c : Thread nD τ).loc cc0_scratch0)) :
    iprop((vS0.view.loc (c : Thread nD τ) ↦[vS0.view.set]{fullShare} f0) ∗ (vS1.view.loc (c : Thread nD τ) ↦[vS1.view.set]{fullShare} f1) ∗ vRest c f)
      ⊢ (iprop(∃ g : Buf (Elt F) ((c : Thread nD τ).loc cc0_scratch0), ((c : Thread nD τ).loc cc0_scratch0) ↦{fullShare} g) : sProp 𝕄) := v_join c f0 f1 f
theorem x_join' : iprop((xS0.view.loc (c : Thread nD τ) ↦[xS0.view.set]{qx 0} xA m c) ∗ xRest m c 0
          ∗ (xS1.view.loc (c : Thread nD τ) ↦[xS1.view.set]{qx 1} xA m c) ∗ xRest m c 1) ⊢ xWhole m c := x_join m c

/-- What the wait for the three units brings: the slot to copy into on each device ahead, its receive cell at round 0. -/
theorem rest_bar' : bigSep (Finset.univ : Finset (Fin 3)) (fun d => (sched (F := F) m).payload (barCell c) 0 d)
    = iprop(((∃ f, cPts (F := F) (pk c 2) 2 f) ∗ reached ER (rcvCell (pk c 2) 2) 0)
        ∗ ((∃ f, cPts (F := F) (pk c 1) 1 f) ∗ reached ER (rcvCell (pk c 1) 1) 0)
        ∗ ((∃ f, cPts (F := F) (pk c 0) 0 f) ∗ reached ER (rcvCell (pk c 0) 0) 0)) := by
  have h := rest_bar (F := F) m c
  rw [Finset.sdiff_empty, duties_bar] at h
  rw [h]; rfl

/-- The first half: the body's first two parts, run from `bodyPreK`, reach `mid` with the device id read as `c`. -/
theorem bodyA {α : Type} (k : Dev nD → BitVec 32 → BitVec 32 → BitVec 32 → Prog (TpuEff nD τ sig (Elt F) Λ₀ .tc) α) (Q : α → sProp 𝕄)
    (hk : ∀ v2 v49 v50 : BitVec 32, mid m ρ K c ⊢ wp frame (wpE (defs₀ (F := F)) 𝒱₀ c none) Set.univ (k c v2 v49 v50) Q) :
    bodyPreK m ρ K c
      ⊢ wp frame (wpE (defs₀ (F := F)) 𝒱₀ c none) Set.univ
          (k0_part1 (F := F) xM (Memref.isWhole_whole _) oM (hstage0_0 0) vM (Memref.isWhole_whole _) mM (Memref.isWhole_whole _) cM (Memref.isWhole_whole _) cc0_scratch3 cc0_scratch4 cc0_scratch5 >>= fun r1 =>
            k0_part2 (F := F) xM (Memref.isWhole_whole _) oM (hstage0_0 0) vM (Memref.isWhole_whole _) mM (Memref.isWhole_whole _) cM (Memref.isWhole_whole _) cc0_scratch3 cc0_scratch4 cc0_scratch5 r1.2.1 r1.2.2 >>= fun r2 =>
              k r1.1 r1.2.1 r2.1 r2.2) Q := by
  rw [k0_part1_eq_skeleton, k0_part2_eq_skeleton]
  unfold k0_part1_skel k0_part2_skel
  simp only [semSignalWord, semWaitWord, Prog.lift, Prog.bind_op, Prog.bind_ret, Prog.pure_eq_ret, wp_deviceId]
  unfold bodyPreK ghost Proto.invs posns marks payToks creds scratch
  iintro ⟨⟨⟨#HIbar, #HIld0, #HIld1, #HIsnd0, #HIsnd1, #HIsnd2, #HIrcv0, #HIrcv1, #HIrcv2, #HIbarP0, #HIbarP1, #HIbarP2, #HIrcvP0, #HIrcvP1, #HIrcvP2⟩,
      ⟨HatB, HatL0, HatL1, HatS0, HatS1, HatS2, HatR0, HatR1, HatR2⟩,
      ⟨#HrBP0, #HrBP1, #HrBP2, #HrL0, #HrL1, #HrS0, #HrS1, #HrS2, #HrR0, #HrR1, #HrR2⟩,
      ⟨HtBP0, HtBP1, HtBP2, HtL0, HtL1, HtS0, HtS1, HtS2, HtRP0, HtRP1, HtRP2⟩⟩,
    ⟨HcB, HcR0, HcR1, HcR2⟩, #Hlev, Hx, ⟨⟨%fv, Hv⟩, ⟨%fm, Hm⟩, ⟨%fc, Hc⟩⟩, Ho, Hstg⟩
  unfold Dat.owesAt Pipeline.owesWithin
  icases Ho with ⟨%W, %hW, HO⟩
  rw [show (dats m ρ 0 c).owed t₀.castSucc = O₀ c from rfl]
  unfold O₀ O₁ O₂
  ihave Hc := (c_split' c fc) $$ Hc
  icases Hc with ⟨Hc2, Hc1, Hc0, HcRest⟩
  simp only [dev1_eq c, dev2_eq c, dev3_eq c, show (1#32).toNat = 1 from rfl, show (3#32).toNat = 3 from rfl]
  -- the three signals: each hands the signalled device the slot it will copy into
  set_option sl_exec.maxSteps 3 in sl_exec
  -- the two halves of the block and the two slots they are loaded into
  ihave Hx := (x_split' m c) $$ Hx
  icases Hx with ⟨Hx0, HxR0, Hx1, HxR1⟩
  ihave Hv := (v_split' c fv) $$ Hv
  icases Hv with ⟨Hv0, Hv1, HvRest⟩
  -- load 0: rows 0..511 into slot 0, on load cell 0
  iapply (Rounds.wp_copy_pointsTo 𝒱₀ ER (sched m) (c : Thread nD τ) none (src := xS0) (dst := vS0) (sem := ldL 0) (q := qx 0)
      (fs := xA m c) (fd := fv) (r := 0) (d := 0) (κ := K (c, 1))
      (by rw [duties_ld]; exact Finset.mem_singleton_self _) () NL rfl (amount_ld m c 0 0)
      (by rw [payload_ld]; exact ld_hpay0 m c fv)) $$ [Hx0 Hv0 HtL0]
  · isplitr; · iexact HIld0
    isplitl [Hx0]; · iexact Hx0
    isplitl [Hv0]; · iexact Hv0
    isplitl [HtL0]; · iexact HtL0
    iexact HrL0
  iintro HcL0
  -- load 1: rows 512..1023 into slot 1, on load cell 1
  iapply (Rounds.wp_copy_pointsTo 𝒱₀ ER (sched m) (c : Thread nD τ) none (src := xS1) (dst := vS1) (sem := ldL 1) (q := qx 1)
      (fs := xA m c) (fd := fv) (r := 0) (d := 0) (κ := K (c, 2))
      (by rw [duties_ld]; exact Finset.mem_singleton_self _) () NL rfl (amount_ld m c 1 0)
      (by rw [payload_ld]; exact ld_hpay1 m c fv)) $$ [Hx1 Hv1 HtL1]
  · isplitr; · iexact HIld1
    isplitl [Hx1]; · iexact Hx1
    isplitl [Hv1]; · iexact Hv1
    isplitl [HtL1]; · iexact HtL1
    iexact HrL1
  iintro HcL1
  have hmw0 := mayWait_ld (F := F) c 0
  have hmw1 := mayWait_ld (F := F) c 1
  -- the wait for load 0: slot 0 holds rows 0..511
  set_option sl_exec.maxSteps 1 in sl_exec
  ihave Hp := (Entails.of_eq (rest_ld0' m c)) $$ HatL0_pay1
  icases Hp with ⟨Hv0, Hx0⟩
  iapply (wp_load 𝒱₀ (c : Thread nD τ) none Set.univ (m := vM) (r := (vR 0).toLoadRect) (S := vS0.view.set) (q := fullShare)
      (f := ldv m c 0) vload_sub0) $$ Hv0
  iintro Hv0
  -- the wait for load 1: slot 1 holds rows 512..1023
  set_option sl_exec.maxSteps 1 in sl_exec
  ihave Hp := (Entails.of_eq (rest_ld1' m c)) $$ HatL1_pay1
  icases Hp with ⟨Hv1, Hx1⟩
  iapply (wp_load 𝒱₀ (c : Thread nD τ) none Set.univ (m := vM) (r := (vR 1).toLoadRect) (S := vS1.view.set) (q := fullShare)
      (f := ldv m c 1) vload_sub1) $$ Hv1
  iintro Hv1
  -- the partial sum's row: read (unused) and then overwritten with the two column sums added
  ihave Hm : (mM.view.loc (c : Thread nD τ) ↦[Finset.univ]{fullShare} fm) $$ [Hm]
  · iexact Hm
  set_option sl_exec.maxSteps 2 in sl_exec
  rw [mine_eq]
  -- the two load cells are done with: closed, their counters at zero
  imod (Rounds.cell_close ER (sched m) (Set.mem_univ (K (c, 1))) (fun h => h) (R := 1) (duties_later m (ldCell c 0))) $$ [HatL0] with HzL0
  · isplitr; · iexact HIld0
    iexact HatL0
  imod (Rounds.cell_close ER (sched m) (Set.mem_univ (K (c, 2))) (fun h => h) (R := 1) (duties_later m (ldCell c 1))) $$ [HatL1] with HzL1
  · isplitr; · iexact HIld1
    iexact HatL1
  -- the load scratch and the block of x whole again
  ihave Hv := (v_join' c (ldv m c 0) (ldv m c 1) fv) $$ [Hv0 Hv1 HvRest]
  · isplitl [Hv0]; · iexact Hv0
    isplitl [Hv1]; · iexact Hv1
    iexact HvRest
  ihave Hx := (x_join' m c) $$ [Hx0 HxR0 Hx1 HxR1]
  · isplitl [Hx0]; · iexact Hx0
    isplitl [HxR0]; · iexact HxR0
    isplitl [Hx1]; · iexact Hx1
    iexact HxR1
  -- the wait for the three units of the own barrier cell
  have hmwB := mayWait_bar (F := F) c
  set_option sl_exec.maxSteps 1 in sl_exec
  ihave Hp := (Entails.of_eq (rest_bar' m c)) $$ HatB_pay1
  icases Hp with ⟨⟨Hs2, #HrP2⟩, ⟨Hs1, #HrP1⟩, ⟨Hs0, #HrP0⟩⟩
  -- what is held at the cut
  iapply (hk _ _ _)
  unfold mid Proto.invs marks
  isplitr
  · isplitr; · iexact HIbar
    isplitr; · iexact HIld0
    isplitr; · iexact HIld1
    isplitr; · iexact HIsnd0
    isplitr; · iexact HIsnd1
    isplitr; · iexact HIsnd2
    isplitr; · iexact HIrcv0
    isplitr; · iexact HIrcv1
    isplitr; · iexact HIrcv2
    isplitr; · iexact HIbarP0
    isplitr; · iexact HIbarP1
    isplitr; · iexact HIbarP2
    isplitr; · iexact HIrcvP0
    isplitr; · iexact HIrcvP1
    iexact HIrcvP2
  isplitr
  · isplitr; · iexact HrBP0
    isplitr; · iexact HrBP1
    isplitr; · iexact HrBP2
    isplitr; · iexact HrL0
    isplitr; · iexact HrL1
    isplitr; · iexact HrS0
    isplitr; · iexact HrS1
    isplitr; · iexact HrS2
    isplitr; · iexact HrR0
    isplitr; · iexact HrR1
    iexact HrR2
  isplitr; · iexact Hlev
  isplitl [HatS0 HatS1 HatS2 HatR0 HatR1 HatR2]
  · isplitl [HatS0]; · iexact HatS0
    isplitl [HatS1]; · iexact HatS1
    isplitl [HatS2]; · iexact HatS2
    isplitl [HatR0]; · iexact HatR0
    isplitl [HatR1]; · iexact HatR1
    iexact HatR2
  isplitl [HtS0 HtS1 HtS2 HtRP0 HtRP1 HtRP2]
  · isplitl [HtS0]; · iexact HtS0
    isplitl [HtS1]; · iexact HtS1
    isplitl [HtS2]; · iexact HtS2
    isplitl [HtRP0]; · iexact HtRP0
    isplitl [HtRP1]; · iexact HtRP1
    iexact HtRP2
  isplitl [HcR0 HcR1 HcR2]
  · isplitl [HcR0]; · iexact HcR0
    isplitl [HcR1]; · iexact HcR1
    iexact HcR2
  isplitl [HO]; · iexists _; iexact HO
  isplitl [HzL0 HzL1]
  · isplitl [HzL0]; · iexact HzL0
    iexact HzL1
  isplitl [Hx]; · iexact Hx
  isplitl [Hv]; · iexact Hv
  isplitl [Hm]; · iexact Hm
  isplitl [HcRest]; · iexists fc; iexact HcRest
  isplitl [Hs0 Hs1 Hs2]
  · isplitl [Hs0]; · iexact Hs0
    isplitl [Hs1]; · iexact Hs1
    iexact Hs2
  isplitr
  · isplitr; · iexact HrP0
    isplitr; · iexact HrP1
    iexact HrP2
  iexact Hstg

/-- info: 'Cert.KernelIdeal.BodyA.bodyA' depends on axioms: [propext, Classical.choice, Quot.sound] -/
#guard_msgs in #print axioms bodyA

end Cert.KernelIdeal.BodyA

end
-- ==== Proof.BodyB.lean ====
/-
  The second half of one device's body: the three copies of its partial sum, one into a slot of each device ahead;
  the waits for the three partial sums landing in its own slots and for its three copies to have been read; its six
  send and receive cells closed; the four partial sums added and scaled into the result's staging row.
-/
import proofs.«900939_g7700000000000940_dist_mean_ax0_shard0_i_m1024_n512_v7x_i4_f32_1_alg».proof.Proof.Proto
import proofs.«900939_g7700000000000940_dist_mean_ax0_shard0_i_m1024_n512_v7x_i4_f32_1_alg».proof.Proof.Tables
import proofs.«900939_g7700000000000940_dist_mean_ax0_shard0_i_m1024_n512_v7x_i4_f32_1_alg».proof.Proof.Regions
import proofs.«900939_g7700000000000940_dist_mean_ax0_shard0_i_m1024_n512_v7x_i4_f32_1_alg».proof.Proof.Mid

noncomputable section

namespace Cert.KernelIdeal.BodyB

open Cert.KernelIdeal Cert.KernelIdeal.Gen Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.KernelIdeal.Regions Cert.KernelIdeal.Tables Cert.KernelIdeal.Mid

variable (K : Dev nD × Fin 9 → ℕ) (c : Dev nD)

/-! ## The slots and the landed contents, spelt as points-to assertions -/

theorem cPts0_def (c : Dev nD) (f : Buf (Elt F) ((c : Thread nD τ).loc cc0_scratch2)) :
    cPts c 0 f = (cS0.view.loc (c : Thread nD τ) ↦[cS0.view.set]{fullShare} f : sProp 𝕄) := rfl
theorem cPts1_def (c : Dev nD) (f : Buf (Elt F) ((c : Thread nD τ).loc cc0_scratch2)) :
    cPts c 1 f = (cS1.view.loc (c : Thread nD τ) ↦[cS1.view.set]{fullShare} f : sProp 𝕄) := rfl
theorem cPts2_def (c : Dev nD) (f : Buf (Elt F) ((c : Thread nD τ).loc cc0_scratch2)) :
    cPts c 2 f = (cS2.view.loc (c : Thread nD τ) ↦[cS2.view.set]{fullShare} f : sProp 𝕄) := rfl

/-- A slot read through the whole receive scratch is still that slot. -/
theorem cback0 (f : Buf (Elt F) ((c : Thread nD τ).loc cc0_scratch2)) :
    (cM.view.loc (c : Thread nD τ) ↦[cS0.view.set]{fullShare} f : sProp 𝕄) ⊢ cPts c 0 f := Entails.rfl
theorem cback1 (f : Buf (Elt F) ((c : Thread nD τ).loc cc0_scratch2)) :
    (cM.view.loc (c : Thread nD τ) ↦[cS1.view.set]{fullShare} f : sProp 𝕄) ⊢ cPts c 1 f := Entails.rfl
theorem cback2 (f : Buf (Elt F) ((c : Thread nD τ).loc cc0_scratch2)) :
    (cM.view.loc (c : Thread nD τ) ↦[cS2.view.set]{fullShare} f : sProp 𝕄) ⊢ cPts c 2 f := Entails.rfl

/-! ## The three copies of the partial sum -/

/-- Copy 0 of the partial sum: the addressed transfer into slot 0 of the device `n = pk c 0`, paying duty 0 of
    the sender's send cell 0 with its share `qm 0` of the partial sum's row and duty 0 of the target's receive cell 0 with
    the slot at the landed contents. -/
theorem send0 (n : Dev nD) (hn : n = pk c 0)
    {hsc : (cS0 : Memref sig (Dev.tc n : Thread nD τ).2.kind .vmem S1x512 .f32).view.ref.isScScratch = false}
    {hsrc : (mM : Memref sig .tc .vmem S1x512 .f32).view.WordExact} {hdst : (cS0 : Memref sig .tc .vmem S1x512 .f32).view.WordExact}
    {hsem : DmaTarget.Typed .vmem (rcvL 0) (.remote (Dev.tc n : Thread nD τ) (cS0 : Memref sig .tc .vmem S1x512 .f32) (sndL 0) hsc)}
    {α : Type} {Q : α → sProp 𝕄} {k : PUnit → Prog (TpuEff nD τ sig (Elt F) Λ₀ .tc) α}
    (fd : Buf (Elt F) ((cS0 : Memref sig .tc .vmem S1x512 .f32).view.loc (pk c 0 : Thread nD τ)))
    {O₀ : CellTallies nD τ sig Unit} (O : CellTallies nD τ sig Unit) (hO : O₀ = O + tallyAt (rcvCell (pk c 0) 0) () N) (W : Waits sig Unit) :
    iprop(cellInv ER (sched m) (K (c, 3)) (sndCell c 0) ∗ cellInv ER (sched m) (K (pk c 0, 6)) (rcvCell (pk c 0) 0)
        ∗ mPts m c 0 ∗ cPts (pk c 0) 0 fd
        ∗ owes (c : Thread nD τ) O₀ W
        ∗ dutyTok ER (sndCell c 0) 0 0 ∗ reached ER (sndCell c 0) 0
        ∗ dutyTok ER (rcvCell (pk c 0) 0) 0 0 ∗ reached ER (rcvCell (pk c 0) 0) 0)
      ⊢ iprop(((cred (tallyAt (sndCell c 0) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma mM (.remote (Dev.tc n : Thread nD τ) cS0 (sndL 0) hsc) (rcvL 0) hsrc hdst hsem) k) Q) := by
  subst hn
  exact Rounds.wp_send_pointsTo 𝒱₀ ER (sched m) (c : Thread nD τ) none (κ₁ := K (c, 3)) (κ₂ := K (pk c 0, 6))
    (c' := (pk c 0 : Thread nD τ)) (src := mM) (dst := cS0) (q := qm 0) (fs := mineV m c) (fd := fd)
    (r₁ := 0) (r₂ := 0) (d₁ := 0) (d₂ := 0)
    (by rw [duties_snd]; exact Finset.mem_singleton_self _) (by rw [duties_rcv]; exact Finset.mem_singleton_self _)
    () () N rfl (amount_snd m c 0 0) (amount_rcv m (pk c 0) 0 0) O hO (W := W)
    (by rw [payload_snd]; exact BI.Entails.refl _)
    (by rw [payload_rcv]; exact rcv_hpay0 m c fd)

/-- Copy 1 of the partial sum: the addressed transfer into slot 1 of the device `n = pk c 1`, paying duty 0 of
    the sender's send cell 1 with its share `qm 1` of the partial sum's row and duty 0 of the target's receive cell 1 with
    the slot at the landed contents. -/
theorem send1 (n : Dev nD) (hn : n = pk c 1)
    {hsc : (cS1 : Memref sig (Dev.tc n : Thread nD τ).2.kind .vmem S1x512 .f32).view.ref.isScScratch = false}
    {hsrc : (mM : Memref sig .tc .vmem S1x512 .f32).view.WordExact} {hdst : (cS1 : Memref sig .tc .vmem S1x512 .f32).view.WordExact}
    {hsem : DmaTarget.Typed .vmem (rcvL 1) (.remote (Dev.tc n : Thread nD τ) (cS1 : Memref sig .tc .vmem S1x512 .f32) (sndL 1) hsc)}
    {α : Type} {Q : α → sProp 𝕄} {k : PUnit → Prog (TpuEff nD τ sig (Elt F) Λ₀ .tc) α}
    (fd : Buf (Elt F) ((cS1 : Memref sig .tc .vmem S1x512 .f32).view.loc (pk c 1 : Thread nD τ)))
    {O₀ : CellTallies nD τ sig Unit} (O : CellTallies nD τ sig Unit) (hO : O₀ = O + tallyAt (rcvCell (pk c 1) 1) () N) (W : Waits sig Unit) :
    iprop(cellInv ER (sched m) (K (c, 4)) (sndCell c 1) ∗ cellInv ER (sched m) (K (pk c 1, 7)) (rcvCell (pk c 1) 1)
        ∗ mPts m c 1 ∗ cPts (pk c 1) 1 fd
        ∗ owes (c : Thread nD τ) O₀ W
        ∗ dutyTok ER (sndCell c 1) 0 0 ∗ reached ER (sndCell c 1) 0
        ∗ dutyTok ER (rcvCell (pk c 1) 1) 0 0 ∗ reached ER (rcvCell (pk c 1) 1) 0)
      ⊢ iprop(((cred (tallyAt (sndCell c 1) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma mM (.remote (Dev.tc n : Thread nD τ) cS1 (sndL 1) hsc) (rcvL 1) hsrc hdst hsem) k) Q) := by
  subst hn
  exact Rounds.wp_send_pointsTo 𝒱₀ ER (sched m) (c : Thread nD τ) none (κ₁ := K (c, 4)) (κ₂ := K (pk c 1, 7))
    (c' := (pk c 1 : Thread nD τ)) (src := mM) (dst := cS1) (q := qm 1) (fs := mineV m c) (fd := fd)
    (r₁ := 0) (r₂ := 0) (d₁ := 0) (d₂ := 0)
    (by rw [duties_snd]; exact Finset.mem_singleton_self _) (by rw [duties_rcv]; exact Finset.mem_singleton_self _)
    () () N rfl (amount_snd m c 1 0) (amount_rcv m (pk c 1) 1 0) O hO (W := W)
    (by rw [payload_snd]; exact BI.Entails.refl _)
    (by rw [payload_rcv]; exact rcv_hpay1 m c fd)

/-- Copy 2 of the partial sum: the addressed transfer into slot 2 of the device `n = pk c 2`, paying duty 0 of
    the sender's send cell 2 with its share `qm 2` of the partial sum's row and duty 0 of the target's receive cell 2 with
    the slot at the landed contents. -/
theorem send2 (n : Dev nD) (hn : n = pk c 2)
    {hsc : (cS2 : Memref sig (Dev.tc n : Thread nD τ).2.kind .vmem S1x512 .f32).view.ref.isScScratch = false}
    {hsrc : (mM : Memref sig .tc .vmem S1x512 .f32).view.WordExact} {hdst : (cS2 : Memref sig .tc .vmem S1x512 .f32).view.WordExact}
    {hsem : DmaTarget.Typed .vmem (rcvL 2) (.remote (Dev.tc n : Thread nD τ) (cS2 : Memref sig .tc .vmem S1x512 .f32) (sndL 2) hsc)}
    {α : Type} {Q : α → sProp 𝕄} {k : PUnit → Prog (TpuEff nD τ sig (Elt F) Λ₀ .tc) α}
    (fd : Buf (Elt F) ((cS2 : Memref sig .tc .vmem S1x512 .f32).view.loc (pk c 2 : Thread nD τ)))
    {O₀ : CellTallies nD τ sig Unit} (O : CellTallies nD τ sig Unit) (hO : O₀ = O + tallyAt (rcvCell (pk c 2) 2) () N) (W : Waits sig Unit) :
    iprop(cellInv ER (sched m) (K (c, 5)) (sndCell c 2) ∗ cellInv ER (sched m) (K (pk c 2, 8)) (rcvCell (pk c 2) 2)
        ∗ mPts m c 2 ∗ cPts (pk c 2) 2 fd
        ∗ owes (c : Thread nD τ) O₀ W
        ∗ dutyTok ER (sndCell c 2) 0 0 ∗ reached ER (sndCell c 2) 0
        ∗ dutyTok ER (rcvCell (pk c 2) 2) 0 0 ∗ reached ER (rcvCell (pk c 2) 2) 0)
      ⊢ iprop(((cred (tallyAt (sndCell c 2) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma mM (.remote (Dev.tc n : Thread nD τ) cS2 (sndL 2) hsc) (rcvL 2) hsrc hdst hsem) k) Q) := by
  subst hn
  exact Rounds.wp_send_pointsTo 𝒱₀ ER (sched m) (c : Thread nD τ) none (κ₁ := K (c, 5)) (κ₂ := K (pk c 2, 8))
    (c' := (pk c 2 : Thread nD τ)) (src := mM) (dst := cS2) (q := qm 2) (fs := mineV m c) (fd := fd)
    (r₁ := 0) (r₂ := 0) (d₁ := 0) (d₂ := 0)
    (by rw [duties_snd]; exact Finset.mem_singleton_self _) (by rw [duties_rcv]; exact Finset.mem_singleton_self _)
    () () N rfl (amount_snd m c 2 0) (amount_rcv m (pk c 2) 2 0) O hO (W := W)
    (by rw [payload_snd]; exact BI.Entails.refl _)
    (by rw [payload_rcv]; exact rcv_hpay2 m c fd)

set_option maxHeartbeats 1600000 in
/-- The second half: from `mid`, the rest of the body reaches the body obligation's postcondition. -/
theorem bodyB (v2 v49 v50 : BitVec 32) :
    mid m ρ K c
      ⊢ wp frame (wpE (defs₀ (F := F)) 𝒱₀ c none) Set.univ (restProg (F := F) c v2 v49 v50) (fun _ => bodyPost m ρ c) := by
  unfold mid Proto.invs Proto.marks
  iintro ⟨⟨#Ib, #Il0, #Il1, #Is0, #Is1, #Is2, #Ir0, #Ir1, #Ir2, #Ipb0, #Ipb1, #Ipb2, #Ipr0, #Ipr1, #Ipr2⟩, ⟨#Rb0, #Rb1, #Rb2, #Rl0, #Rl1, #Rs0, #Rs1, #Rs2, #Rr0, #Rr1, #Rr2⟩, #Hlev, ⟨As0, As1, As2, Ar0, Ar1, Ar2⟩, ⟨Ts0, Ts1, Ts2, Tr0, Tr1, Tr2⟩, ⟨Cr0, Cr1, Cr2⟩, ⟨%W, HO⟩, ⟨Zl0, Zl1⟩, Hx, ⟨%g, Hv⟩, Hm, ⟨%fr, Hcr⟩, ⟨⟨%f0, Hp0⟩, ⟨%f1, Hp1⟩, ⟨%f2, Hp2⟩⟩, ⟨#Rp0, #Rp1, #Rp2⟩, ⟨%d, %fo, %hfo, Ho⟩⟩
  ihave Hm3 := (m_split m c) $$ Hm
  icases Hm3 with ⟨Hm0, Hm1, Hm2⟩
  unfold restProg
  rw [k0_part3_eq_skeleton, k0_part4_eq_skeleton]; unfold k0_part3_skel k0_part4_skel
  simp only [Prog.lift, Prog.bind_op, Prog.bind_ret, Prog.pure_eq_ret]
  unfold OR
  -- copy 0
  iapply (send0 m K c _ (dev4_eq c) f0 _ rfl W) $$ [Hm0 Hp0 HO Ts0 Tr0]
  · isplitr; · iexact Is0
    isplitr; · iexact Ipr0
    isplitl [Hm0]; · iexact Hm0
    isplitl [Hp0]; · iexact Hp0
    isplitl [HO]; · iexact HO
    isplitl [Ts0]; · iexact Ts0
    isplitr; · iexact Rs0
    isplitl [Tr0]; · iexact Tr0
    iexact Rp0
  iintro ⟨Cs0, HO⟩
  -- copy 1
  iapply (send1 m K c _ (dev5_eq c) f1 _ rfl W) $$ [Hm1 Hp1 HO Ts1 Tr1]
  · isplitr; · iexact Is1
    isplitr; · iexact Ipr1
    isplitl [Hm1]; · iexact Hm1
    isplitl [Hp1]; · iexact Hp1
    isplitl [HO]; · iexact HO
    isplitl [Ts1]; · iexact Ts1
    isplitr; · iexact Rs1
    isplitl [Tr1]; · iexact Tr1
    iexact Rp1
  iintro ⟨Cs1, HO⟩
  -- copy 2
  iapply (send2 m K c _ (dev6_eq c) f2 _ (zero_add _).symm W) $$ [Hm2 Hp2 HO Ts2 Tr2]
  · isplitr; · iexact Is2
    isplitr; · iexact Ipr2
    isplitl [Hm2]; · iexact Hm2
    isplitl [Hp2]; · iexact Hp2
    isplitl [HO]; · iexact HO
    isplitl [Ts2]; · iexact Ts2
    isplitr; · iexact Rs2
    isplitl [Tr2]; · iexact Tr2
    iexact Rp2
  iintro ⟨Cs2, HO⟩
  -- the wait for the landing in slot 0
  iapply (Rounds.wp_wait_rest_token 𝒱₀ ER (sched m) (c : Thread nD τ) none (κ := K (c, 6)) (sm := rcvL 0) (k' := N)
      (w := .waitDma2 (rcvA 0).sem mM cS0 _ _)
      (fun _ => rfl) (Set.mem_univ _) () (O := 0) (W := W) (R := 0) (m := 0) (T := ∅)
      (by rw [expect_rcv, Nat.zero_add])) $$ [Cr0 HO Ar0]
  · isplitr; · iexact Ir0
    isplitl [Cr0]; · iexact Cr0
    isplitl [HO]; · iexact HO
    isplitr; · rw [MayWait_zero]; iempintro
    iexact Ar0
  iintro ⟨HO, Ar0, -, Hpay⟩
  ihave Hc0 := (Entails.of_eq ((rest_rcv m c 0).trans (cPts0_def c (landv m c 0)))) $$ Hpay
  -- the wait for the landing in slot 1
  iapply (Rounds.wp_wait_rest_token 𝒱₀ ER (sched m) (c : Thread nD τ) none (κ := K (c, 7)) (sm := rcvL 1) (k' := N)
      (w := .waitDma2 (rcvA 1).sem mM cS1 _ _)
      (fun _ => rfl) (Set.mem_univ _) () (O := 0) (W := insert (rcvL 0, ()) (W)) (R := 0) (m := 0) (T := ∅)
      (by rw [expect_rcv, Nat.zero_add])) $$ [Cr1 HO Ar1]
  · isplitr; · iexact Ir1
    isplitl [Cr1]; · iexact Cr1
    isplitl [HO]; · iexact HO
    isplitr; · rw [MayWait_zero]; iempintro
    iexact Ar1
  iintro ⟨HO, Ar1, -, Hpay⟩
  ihave Hc1 := (Entails.of_eq ((rest_rcv m c 1).trans (cPts1_def c (landv m c 1)))) $$ Hpay
  -- the wait for the landing in slot 2
  iapply (Rounds.wp_wait_rest_token 𝒱₀ ER (sched m) (c : Thread nD τ) none (κ := K (c, 8)) (sm := rcvL 2) (k' := N)
      (w := .waitDma2 (rcvA 2).sem mM cS2 _ _)
      (fun _ => rfl) (Set.mem_univ _) () (O := 0) (W := insert (rcvL 1, ()) (insert (rcvL 0, ()) (W))) (R := 0) (m := 0) (T := ∅)
      (by rw [expect_rcv, Nat.zero_add])) $$ [Cr2 HO Ar2]
  · isplitr; · iexact Ir2
    isplitl [Cr2]; · iexact Cr2
    isplitl [HO]; · iexact HO
    isplitr; · rw [MayWait_zero]; iempintro
    iexact Ar2
  iintro ⟨HO, Ar2, -, Hpay⟩
  ihave Hc2 := (Entails.of_eq ((rest_rcv m c 2).trans (cPts2_def c (landv m c 2)))) $$ Hpay
  -- the wait for copy 0 to have been read
  iapply (Rounds.wp_wait_rest_token 𝒱₀ ER (sched m) (c : Thread nD τ) none (κ := K (c, 3)) (sm := sndL 0) (k' := N)
      (w := .waitDma2 (sndA 0).sem cS0 mM _ _)
      (fun _ => rfl) (Set.mem_univ _) () (O := 0) (W := insert (rcvL 2, ()) (insert (rcvL 1, ()) (insert (rcvL 0, ()) (W)))) (R := 0) (m := 0) (T := ∅)
      (by rw [expect_snd, Nat.zero_add])) $$ [Cs0 HO As0]
  · isplitr; · iexact Is0
    isplitl [Cs0]; · iexact Cs0
    isplitl [HO]; · iexact HO
    isplitr; · rw [MayWait_zero]; iempintro
    iexact As0
  iintro ⟨HO, As0, -, Hpay⟩
  ihave Hm0 := (Entails.of_eq (rest_snd m c 0)) $$ Hpay
  -- the wait for copy 1 to have been read
  iapply (Rounds.wp_wait_rest_token 𝒱₀ ER (sched m) (c : Thread nD τ) none (κ := K (c, 4)) (sm := sndL 1) (k' := N)
      (w := .waitDma2 (sndA 1).sem cS1 mM _ _)
      (fun _ => rfl) (Set.mem_univ _) () (O := 0) (W := insert (sndL 0, ()) (insert (rcvL 2, ()) (insert (rcvL 1, ()) (insert (rcvL 0, ()) (W))))) (R := 0) (m := 0) (T := ∅)
      (by rw [expect_snd, Nat.zero_add])) $$ [Cs1 HO As1]
  · isplitr; · iexact Is1
    isplitl [Cs1]; · iexact Cs1
    isplitl [HO]; · iexact HO
    isplitr; · rw [MayWait_zero]; iempintro
    iexact As1
  iintro ⟨HO, As1, -, Hpay⟩
  ihave Hm1 := (Entails.of_eq (rest_snd m c 1)) $$ Hpay
  -- the wait for copy 2 to have been read
  iapply (Rounds.wp_wait_rest_token 𝒱₀ ER (sched m) (c : Thread nD τ) none (κ := K (c, 5)) (sm := sndL 2) (k' := N)
      (w := .waitDma2 (sndA 2).sem cS2 mM _ _)
      (fun _ => rfl) (Set.mem_univ _) () (O := 0) (W := insert (sndL 1, ()) (insert (sndL 0, ()) (insert (rcvL 2, ()) (insert (rcvL 1, ()) (insert (rcvL 0, ()) (W)))))) (R := 0) (m := 0) (T := ∅)
      (by rw [expect_snd, Nat.zero_add])) $$ [Cs2 HO As2]
  · isplitr; · iexact Is2
    isplitl [Cs2]; · iexact Cs2
    isplitl [HO]; · iexact HO
    isplitr; · rw [MayWait_zero]; iempintro
    iexact As2
  iintro ⟨HO, As2, -, Hpay⟩
  ihave Hm2 := (Entails.of_eq (rest_snd m c 2)) $$ Hpay
  -- the partial sum's row whole again
  ihave Hm := (m_join m c) $$ [Hm0 Hm1 Hm2]
  · isplitl [Hm0]; · iexact Hm0
    isplitl [Hm1]; · iexact Hm1
    iexact Hm2
  -- the six send and receive cells close
  imod (Rounds.cell_close ER (sched m) (Set.mem_univ (K (c, 3))) (fun h => h) (R := 0 + 1) (duties_later m (sndCell c 0))) $$ [As0] with Zs0
  · isplitr; · iexact Is0
    iexact As0
  imod (Rounds.cell_close ER (sched m) (Set.mem_univ (K (c, 4))) (fun h => h) (R := 0 + 1) (duties_later m (sndCell c 1))) $$ [As1] with Zs1
  · isplitr; · iexact Is1
    iexact As1
  imod (Rounds.cell_close ER (sched m) (Set.mem_univ (K (c, 5))) (fun h => h) (R := 0 + 1) (duties_later m (sndCell c 2))) $$ [As2] with Zs2
  · isplitr; · iexact Is2
    iexact As2
  imod (Rounds.cell_close ER (sched m) (Set.mem_univ (K (c, 6))) (fun h => h) (R := 0 + 1) (duties_later m (rcvCell c 0))) $$ [Ar0] with Zr0
  · isplitr; · iexact Ir0
    iexact Ar0
  imod (Rounds.cell_close ER (sched m) (Set.mem_univ (K (c, 7))) (fun h => h) (R := 0 + 1) (duties_later m (rcvCell c 1))) $$ [Ar1] with Zr1
  · isplitr; · iexact Ir1
    iexact Ar1
  imod (Rounds.cell_close ER (sched m) (Set.mem_univ (K (c, 8))) (fun h => h) (R := 0 + 1) (duties_later m (rcvCell c 2))) $$ [Ar2] with Zr2
  · isplitr; · iexact Ir2
    iexact Ar2
  -- the four partial sums are read, added and scaled into the result's row
  iapply (wp_load 𝒱₀ (c : Thread nD τ) none Set.univ (m := mM) (Finset.subset_univ _)) $$ Hm; iintro Hm
  iapply (wp_load 𝒱₀ (c : Thread nD τ) none Set.univ (m := cM) (cload_sub0)) $$ Hc0; iintro Hc0
  iapply (wp_load 𝒱₀ (c : Thread nD τ) none Set.univ (m := cM) (cload_sub1)) $$ Hc1; iintro Hc1
  iapply (wp_load 𝒱₀ (c : Thread nD τ) none Set.univ (m := cM) (cload_sub2)) $$ Hc2; iintro Hc2
  iapply (wp_load 𝒱₀ (c : Thread nD τ) none Set.univ (m := oM) (Finset.subset_univ _)) $$ Ho; iintro Ho
  iapply (wp_store 𝒱₀ (c : Thread nD τ) none Set.univ (m := oM) (r := mR) (Mk := Finset.univ) (Finset.subset_univ _)) $$ Ho; iintro Ho
  rw [write_o, wp_ret]; imodintro
  -- the receive scratch whole again
  ihave Hk0 := (cback0 c (landv m c 0)) $$ Hc0
  ihave Hk1 := (cback1 c (landv m c 1)) $$ Hc1
  ihave Hk2 := (cback2 c (landv m c 2)) $$ Hc2
  ihave Hc := (c_join c (landv m c 0) (landv m c 1) (landv m c 2) fr) $$ [Hk0 Hk1 Hk2 Hcr]
  · isplitl [Hk0]; · iexact Hk0
    isplitl [Hk1]; · iexact Hk1
    isplitl [Hk2]; · iexact Hk2
    iexact Hcr
  unfold bodyPost Φ₁ scratch ownZero
  isplitl [Hx Hv Hm Hc Zl0 Zl1 Zs0 Zs1 Zs2 Zr0 Zr1 Zr2]
  · isplitl [Hx]; · iexact Hx
    isplitl [Hv Hm Hc]
    · isplitl [Hv]; · iexists g; iexact Hv
      isplitl [Hm]; · iexists _; iexact Hm
      iexact Hc
    isplitl [Zl0]; · iexact Zl0
    isplitl [Zl1]; · iexact Zl1
    isplitl [Zs0]; · iexact Zs0
    isplitl [Zs1]; · iexact Zs1
    isplitl [Zs2]; · iexact Zs2
    isplitl [Zr0]; · iexact Zr0
    isplitl [Zr1]; · iexact Zr1
    iexact Zr2
  isplitl [HO]
  · iexists (insert (sndL 2, ()) (insert (sndL 1, ()) (insert (sndL 0, ()) (insert (rcvL 2, ()) (insert (rcvL 1, ()) (insert (rcvL 0, ()) (W)))))))
    isplitr; · ipureintro; exact fun _ _ => Or.inl trivial
    iexact HO
  iexists _
  isplitr; · ipureintro; rfl
  iexact Ho

/-- info: 'Cert.KernelIdeal.BodyB.bodyB' depends on axioms: [propext, Classical.choice, Quot.sound] -/
#guard_msgs in #print axioms bodyB

end Cert.KernelIdeal.BodyB

end
-- ==== Proof.Body.lean ====
/-
  One device's whole body from the two halves, and the pipeline library's body obligation for it.
-/
import proofs.«900939_g7700000000000940_dist_mean_ax0_shard0_i_m1024_n512_v7x_i4_f32_1_alg».proof.Proof.Proto
import proofs.«900939_g7700000000000940_dist_mean_ax0_shard0_i_m1024_n512_v7x_i4_f32_1_alg».proof.Proof.Mid
import proofs.«900939_g7700000000000940_dist_mean_ax0_shard0_i_m1024_n512_v7x_i4_f32_1_alg».proof.Proof.BodyA
import proofs.«900939_g7700000000000940_dist_mean_ax0_shard0_i_m1024_n512_v7x_i4_f32_1_alg».proof.Proof.BodyB

noncomputable section

namespace Cert.KernelIdeal.Body

open Cert.KernelIdeal Cert.KernelIdeal.Gen Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.KernelIdeal.Regions Cert.KernelIdeal.Tables Cert.KernelIdeal.Mid

/-- The whole body on device `c`, the names fixed: the two halves in sequence. -/
theorem sound_body (K : Dev nD × Fin 9 → ℕ) (c : Dev nD) :
    bodyPreK m ρ K c
      ⊢ wp frame (wpE (defs₀ (F := F)) 𝒱₀ c none) Set.univ
          (cc0_body (F := F) xM (Memref.isWhole_whole _) oM (hstage0_0 0) vM (Memref.isWhole_whole _) mM (Memref.isWhole_whole _) cM (Memref.isWhole_whole _) cc0_scratch3 cc0_scratch4 cc0_scratch5)
          (fun _ => bodyPost m ρ c) := by
  rw [body_split]
  exact BodyA.bodyA m ρ K c (fun d0 v2 v49 v50 => restProg (F := F) d0 v2 v49 v50) _ (fun v2 v49 v50 => BodyB.bodyB m ρ K c v2 v49 v50)

theorem bigSep_W (Φ : Fin cfg0.W → sProp 𝕄) : bigSep Finset.univ Φ = iprop(Φ (0 : Fin 1)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (F := F) xM (Memref.isWhole_whole _) oM (hstage0_0 0) vM (Memref.isWhole_whole _) mM (Memref.isWhole_whole _) cM (Memref.isWhole_whole _) cc0_scratch3 cc0_scratch4 cc0_scratch5)
    (fun _ => bodyPost m ρ c)
  unfold bodyPre Φ₀ start
  iintro ⟨⟨⟨⟨%K, Hg⟩, Hcr, Hlev, Hx⟩, Hscr⟩, Ho, Hout⟩
  iapply (sound_body m ρ K c)
  unfold bodyPreK
  isplitl [Hg]; · iexact Hg
  isplitl [Hcr]; · iexact Hcr
  isplitl [Hlev]; · iexact Hlev
  isplitl [Hx]; · iexact Hx
  isplitl [Hscr]; · iexact Hscr
  isplitl [Ho]; · iexact Ho
  iexact Hout

/-- info: 'Cert.KernelIdeal.Body.body_obligation' depends on axioms: [propext, Classical.choice, Quot.sound] -/
#guard_msgs in #print axioms body_obligation

end Cert.KernelIdeal.Body

end
-- ==== Proof.Launch.lean ====
/-
  The launch of the four-device mean. The protocol's ghost state is funded for every cell of every device at once and the
  duty tokens are dealt around the ring to the devices that pay them; every cell's invariant is allocated under one update,
  the barrier cell's beside the own cells'; each device collects the credit the other three owe its barrier cell and its
  three receive cells; and the run of the whole program follows from the proof of one device's body, with each device's
  result read off as the named contents and its block of the argument unchanged.
-/
import proofs.«900939_g7700000000000940_dist_mean_ax0_shard0_i_m1024_n512_v7x_i4_f32_1_alg».proof.Proof.Proto
import proofs.«900939_g7700000000000940_dist_mean_ax0_shard0_i_m1024_n512_v7x_i4_f32_1_alg».proof.Proof.Tables
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Launch

open Cert.KernelIdeal Cert.KernelIdeal.Gen Cert.KernelIdeal.Proto Cert.KernelIdeal.Tables

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the minted tokens -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 9 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
/-- Every device's nine cells. -/
def cellSet : Finset (GSem nD τ sig) := Finset.univ.map ⟨kcell, kcell_injective⟩

/-- A device's own cells' duties as minted: its barrier's three, then duty 0 of each load, send and receive cell. -/
abbrev tokSem : Fin 11 → SemLoc sig × Fin 3
  | 0 => (barL, 0) | 1 => (barL, 1) | 2 => (barL, 2)
  | 3 => (ldL 0, 0) | 4 => (ldL 1, 0)
  | 5 => (sndL 0, 0) | 6 => (sndL 1, 0) | 7 => (sndL 2, 0)
  | 8 => (rcvL 0, 0) | 9 => (rcvL 1, 0) | 10 => (rcvL 2, 0)
theorem tokSem_injective : Function.Injective (tokSem : Fin 11 → SemLoc sig × Fin 3) := by decide
abbrev tokOf (cj : Dev nD × Fin 11) : GSem nD τ sig × ℕ × Fin 3 := (((cj.1 : Thread nD τ), (tokSem cj.2).1), 0, (tokSem cj.2).2)
theorem tokOf_injective : Function.Injective (tokOf : Dev nD × Fin 11 → GSem nD τ sig × ℕ × Fin 3) := by
  rintro ⟨c, j⟩ ⟨c', j'⟩ h
  have h1 : c = c' := by have := congrArg (fun x : GSem nD τ sig × ℕ × Fin 3 => x.1.1.1) h; exact this
  subst h1
  have h2 : tokSem j = tokSem j' :=
    Prod.ext (congrArg (fun x : GSem nD τ sig × ℕ × Fin 3 => x.1.2) h) (congrArg (fun x : GSem nD τ sig × ℕ × Fin 3 => x.2.2) h)
  have : j = j' := tokSem_injective h2
  subst this; rfl
def tokSet : Finset (GSem nD τ sig × ℕ × Fin 3) := Finset.univ.map ⟨tokOf, tokOf_injective⟩

/-- The launch element: the pipeline's copy, and the protocol's cells and tokens. -/
def u₀ : UU :=
  (initOf (Pipeline.cells cfgs cellOf_inj) (Pipeline.launchToks cfgs cellOf_inj), initOf cellSet tokSet)

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (ldCell c 0) 0 0 ∗ dutyTok ER (ldCell c 1) 0 0
    ∗ dutyTok ER (sndCell c 0) 0 0 ∗ dutyTok ER (sndCell c 1) 0 0 ∗ dutyTok ER (sndCell c 2) 0 0
    ∗ dutyTok ER (rcvCell c 0) 0 0 ∗ dutyTok ER (rcvCell c 1) 0 0 ∗ dutyTok ER (rcvCell c 2) 0 0)

/-- What the launch element deals device `c`: its nine cells' round states, positions and reached-marks, its cells' tokens. -/
def G (c : Dev nD) : sProp 𝕄 :=
  iprop((bigSep Finset.univ fun k : Fin 9 => roundState ER (sched m) (kcell (c, k)) 0)
    ∗ (bigSep Finset.univ fun k : Fin 9 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
theorem bigSep_fin11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

/-- Funding: the protocol's launch element is every device's share. -/
theorem fund_cells : BI.own (ER (initOf cellSet tokSet)) ⊢ (|==> bigSep Finset.univ (G m) : sProp 𝕄) := by
  have hX (Φ : GSem nD τ sig → sProp 𝕄) : bigSep cellSet Φ = bigSep Finset.univ fun c : Dev nD => bigSep Finset.univ fun k : Fin 9 => Φ (kcell (c, k)) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet; rw [bigSep_map, bigSep_univ_prod]
    exact bigSep_congr fun c _ => by unfold toks; rw [bigSep_fin11]; rfl
  iintro HX
  imod (Rounds.fund ER (sched m) cellSet tokSet) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero, and the cells' invariants allocated -/

/-- The kernel's own eight semaphores, in the launch's order; -/
theorem ownSems0_eq (c : Dev nD) : (Pipeline.ownSems0 (Ix := Unit) (Name := ℕ) (U := UU) (Lvl := ℕ) (Val := Elt F) (τ := τ) osem c : sProp 𝕄)
    = ownZero c := by
  rw [Pipeline.ownSems0_eq_of_list c osem [0, 1, 2, 3, 4, 5, 6, 7] (by decide) (by decide)]; rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, bigSep_fin9]
  unfold ownZero
  iintro ⟨⟨H1, H2, H3, H4, H5, H6, H7, H8⟩, HB⟩
  isplitl [HB]; · iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The ghost state of every device, from the cells' -/

/-- Every cell's invariant under its name, and that round 0 of every cell is reached: what all devices share. -/
def records (K : Dev nD × Fin 9 → ℕ) : sProp 𝕄 :=
  iprop((bigSep Finset.univ fun ck : Dev nD × Fin 9 => cellInv ER (sched m) (K ck) (kcell ck))
    ∗ bigSep Finset.univ fun ck : Dev nD × Fin 9 => reached ER (kcell ck) 0)

instance records_persistent (K : Dev nD × Fin 9 → ℕ) : BI.Persistent (records m K) := by unfold records; infer_instance

theorem inv_at (K : Dev nD × Fin 9 → ℕ) (ck : Dev nD × Fin 9) :
    (bigSep Finset.univ fun ck : Dev nD × Fin 9 => (cellInv ER (sched m) (K ck) (kcell ck) : sProp 𝕄)) ⊢ cellInv ER (sched m) (K ck) (kcell ck) :=
  bigSep_elim (Finset.mem_univ ck)
theorem reached_at (ck : Dev nD × Fin 9) :
    (bigSep Finset.univ fun ck : Dev nD × Fin 9 => (reached ER (kcell ck) 0 : sProp 𝕄)) ⊢ reached ER (kcell ck) 0 :=
  bigSep_elim (Finset.mem_univ ck)

/-- What stays with device `c` alone: its positions, and the tokens of the duties it pays. -/
def linear (c : Dev nD) : sProp 𝕄 := iprop(posns c ∗ payToks c)

theorem ghost_intro (K : Dev nD × Fin 9 → ℕ) (c : Dev nD) : iprop(records m K ∗ linear c) ⊢ G' m c := by
  unfold records linear G' ghost Proto.invs marks
  iintro ⟨⟨#HI, #HR⟩, Hpos, Htok⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (c, 6)); iexact HI
    isplitr; · iapply (inv_at m K (c, 7)); iexact HI
    isplitr; · iapply (inv_at m K (c, 8)); iexact HI
    isplitr; · iapply (inv_at m K (pk c 0, 0)); iexact HI
    isplitr; · iapply (inv_at m K (pk c 1, 0)); iexact HI
    isplitr; · iapply (inv_at m K (pk c 2, 0)); iexact HI
    isplitr; · iapply (inv_at m K (pk c 0, 6)); iexact HI
    isplitr; · iapply (inv_at m K (pk c 1, 7)); iexact HI
    iapply (inv_at m K (pk c 2, 8)); iexact HI
  isplitl [Hpos]; · iexact Hpos
  isplitr
  · isplitr; · iapply (reached_at (F := F) (pk c 0, 0)); iexact HR
    isplitr; · iapply (reached_at (F := F) (pk c 1, 0)); iexact HR
    isplitr; · iapply (reached_at (F := F) (pk c 2, 0)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    isplitr; · iapply (reached_at (F := F) (c, 6)); iexact HR
    isplitr; · iapply (reached_at (F := F) (c, 7)); iexact HR
    iapply (reached_at (F := F) (c, 8)); iexact HR
  iexact Htok

/-- The tokens dealt around the ring: duty `k` of a barrier cell and the duty of receive cell `k` go to the device `k + 1`
    places behind their owner, which pays them; the load and send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv (ring 0) (fun c : Dev nD => (dutyTok ER (barCell c) 0 0 : sProp 𝕄)),
    bigSep_univ_equiv (ring 1) (fun c : Dev nD => (dutyTok ER (barCell c) 0 1 : sProp 𝕄)),
    bigSep_univ_equiv (ring 2) (fun c : Dev nD => (dutyTok ER (barCell c) 0 2 : sProp 𝕄)),
    bigSep_univ_equiv (ring 0) (fun c : Dev nD => (dutyTok ER (rcvCell c 0) 0 0 : sProp 𝕄)),
    bigSep_univ_equiv (ring 1) (fun c : Dev nD => (dutyTok ER (rcvCell c 1) 0 0 : sProp 𝕄)),
    bigSep_univ_equiv (ring 2) (fun c : Dev nD => (dutyTok ER (rcvCell c 2) 0 0 : sProp 𝕄))]
  exact .rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 9 => iprop(∃ κ : ℕ, cellInv ER (sched m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 9 => (atPos ER (kcell (c, k)) 0 ∅ 0 : sProp 𝕄)) payToks).symm).trans
      (bigSep_mono fun c _ => show _ ⊢ linear c from Entails.of_eq (by unfold linear posns; rw [bigSep_fin9])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem cred3 (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by rw [tallyAt_add, tallyAt_add]]
  exact (sep_mono_right (cred_add _ _).2).trans (cred_add _ _).2

/-- What the others owe device `c`: each of the three devices behind it one unit on its barrier cell, and the device
    `k + 1` places behind it one copy's credit on its receive cell `k`. -/
theorem launch_creds (c : Dev nD) : (Pipeline.launchCred O₀ c : sProp 𝕄) ⊢ creds c := by
  have e : (O₀ : Dev nD → CellTallies nD τ sig Unit) = fun d =>
      (((tallyAt (rcvCell (pk d 2) 2) () N + tallyAt (rcvCell (pk d 1) 1) () N + tallyAt (rcvCell (pk d 0) 0) () N)
        + tallyAt (barCell (pk d 2)) () 1) + tallyAt (barCell (pk d 1)) () 1) + tallyAt (barCell (pk d 0)) () 1 := rfl
  rw [e, Pipeline.launchCred_add, Pipeline.launchCred_add, Pipeline.launchCred_add, Pipeline.launchCred_add, Pipeline.launchCred_add]
  unfold creds
  iintro ⟨⟨⟨⟨⟨HR2, HR1⟩, HR0⟩, HB2⟩, HB1⟩, HB0⟩
  ihave H0 := (Pipeline.launchCred_tallyAt barL (fun d => pk d 0) (fun d => bk d 0) (fun c => pk_bk c 0) (fun d => bk_pk d 0) () 1 c) $$ HB0
  ihave H1 := (Pipeline.launchCred_tallyAt barL (fun d => pk d 1) (fun d => bk d 1) (fun c => pk_bk c 1) (fun d => bk_pk d 1) () 1 c) $$ HB1
  ihave H2 := (Pipeline.launchCred_tallyAt barL (fun d => pk d 2) (fun d => bk d 2) (fun c => pk_bk c 2) (fun d => bk_pk d 2) () 1 c) $$ HB2
  ihave G0 := (Pipeline.launchCred_tallyAt (rcvL 0) (fun d => pk d 0) (fun d => bk d 0) (fun c => pk_bk c 0) (fun d => bk_pk d 0) () N c) $$ HR0
  ihave G1 := (Pipeline.launchCred_tallyAt (rcvL 1) (fun d => pk d 1) (fun d => bk d 1) (fun c => pk_bk c 1) (fun d => bk_pk d 1) () N c) $$ HR1
  ihave G2 := (Pipeline.launchCred_tallyAt (rcvL 2) (fun d => pk d 2) (fun d => bk d 2) (fun c => pk_bk c 2) (fun d => bk_pk d 2) () N c) $$ HR2
  isplitl [H0 H1 H2]
  · iapply (cred3 (F := F) (barCell c))
    isplitl [H0]; · iexact H0
    isplitl [H1] <;> iassumption
  isplitl [G0]; · iexact G0
  isplitl [G1] <;> iassumption

/-! ## The launch theorem's side conditions -/

/-- What a device starts from: the argument's block, which no window stages, arrives as the unscoped rest. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hx, Hlev, Hcr, -, HG⟩
  ihave Hc := (launch_creds (F := F) c) $$ Hcr
  imodintro
  unfold start G' xWhole xA
  isplitl
  · isplitl [HG]; · iexact HG
    isplitl [Hc]; · iexact Hc
    isplitl [Hlev]; · iexact Hlev
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(xWhole m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ scratch
  iintro ⟨Hx, Hr, Hz⟩
  isplitl [Hx]; · iexact Hx
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The result array after the one point: the whole array written with what the body left. -/
theorem arrAt_out (c : Dev nD) : (dats m ρ 0 c).arrAt (0 : Fin cfg0.W) cfg0.N = outV m c := by
  show (dats m ρ 0 c).arrAt (0 : Fin cfg0.W) ((t₀ : Fin cfg0.N).val + 1) = outV m c
  rw [Dat.arrAt_succ, if_pos (flush0_0 t₀)]
  exact Memref.write_access_unit_zero_univ (Elt F) main_v1 (off := fun a => (cfg0.win 0).index t₀ a * (cfg0.win 0).size a)
    (funext fun a => by fin_cases a <;> rfl) _ _ _

set_option maxRecDepth 8000 in
/-- At the compiled mesh of four devices, for any float values, from any memory with zero counters: every weakly fair
    execution of the program terminates, and every final state has each device's result array at the named contents
    and its block of the argument unchanged, given the proof of one device's body. -/
theorem run_out (hbody : ∀ c, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outV m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := xWhole m) (Z := fun _ => iprop(emp))
    (hX := start_intro m ρ) (hin := phi0_intro m ρ) (hout := phi1_exit m ρ)
    (QY := fun c s => s.mem ((c : Thread nD τ).loc main_arg0) = m ((c : Thread nD τ).loc main_arg0))
    (hY := fun c s' => by
      unfold xWhole xA
      iintro ⟨Hx, -, HSI⟩
      icombine HSI Hx gives %hx
      imodintro
      isplitr; · ipureintro; exact Buf.eq_of_forall_mem_univ hx
      iexact HSI)
    (hQ := fun s h c => ⟨((h c).1 0).trans (arrAt_out m ρ c), (h c).2.2⟩)

/-- info: 'Cert.KernelIdeal.Launch.run_out' depends on axioms: [propext, Classical.choice, Quot.sound] -/
#guard_msgs in #print axioms run_out

end Cert.KernelIdeal.Launch

end
-- ==== Proof.Spec.lean ====
/-
  The mathematics both programs compute, over the extended reals: the mean of each of the 512 columns over the 4096
  rows, the rows taken as four blocks of 1024 — the sum over the blocks of each block's column sum, times 1/4096.
-/
import Idealize.ShloMosaic.Lib.ValueIdx
import Idealize.ShloMosaic.PureOps.Ideal

noncomputable section

open scoped BigOperators

namespace Cert.Spec

open Idealize.ShloMosaic Idealize.ShloMosaic.ValueIdx

/-- The sum of column `j` of one 1024 x 512 block. -/
def colsum (Y : (⟨2, ![1024, 512]⟩ : Shape).Idx → EReal) (j : Fin 512) : EReal := ∑ r : Fin 1024, Y (ix2 r j)

/-- The mean of column `j` over four such blocks: the four column sums added, times 1/4096. -/
def mean (Ys : Fin 4 → (⟨2, ![1024, 512]⟩ : Shape).Idx → EReal) (j : Fin 512) : EReal :=
  (∑ d : Fin 4, colsum (Ys d) j) * (((1 : ℝ) / 4096 : ℝ) : EReal)

end Cert.Spec

end
-- ==== Proof.KValue.lean ====
/-
  The value the four devices compute, at the ideal instance: every device ends with the mean of each of the 512
  columns over the 4096 rows of the four blocks.

  A device's partial sum is, column by column, the sum of the 512 rows of the first half of its block plus the sum
  of the 512 rows of the second half: each half is copied whole into its slot of the load scratch and read back
  through the same rectangle, so what is summed is the block itself. The three slots of the receive scratch hold,
  read back the same way, the partial sums of the devices one, two and three places behind on the ring; with the
  device's own these are the partial sums of all four devices, in some order. Addition of extended reals is
  commutative and associative, so their sum is the sum over the four blocks of each block's column sum (a sum over
  1024 rows being the sum over its two halves), and the constant the result is scaled by is exactly 1/4096.
-/
import proofs.«900939_g7700000000000940_dist_mean_ax0_shard0_i_m1024_n512_v7x_i4_f32_1_alg».proof.Proof.Proto
import proofs.«900939_g7700000000000940_dist_mean_ax0_shard0_i_m1024_n512_v7x_i4_f32_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KValue

open Cert.KernelIdeal Cert.KernelIdeal.Gen Cert.KernelIdeal.Proto
open Idealize.ShloMosaic Idealize.ShloMosaic.TcCoe Idealize.ShloMosaic.ValueIdx Idealize.SL.Sem

/-! ## A slot written whole and read back through its rectangle -/

/-- A buffer written on every index through the squeeze of a slice and then loaded through the slice's rectangle:
    the load, shape-cast to the squeezed shape, is what was written. -/
theorem shapeCast_readAt_write {sig : RefSig} {κ : Kind} {cs : Space} {s s' : Shape} {e : EltTy} {Val : EltTy → Type}
    (M : Memref sig κ cs s e) (r : Rect s) (hr : ∀ a, r.stride a = 1) (hq : r.shape.Squeezes s') (hc : r.shape.ShapeCasts s')
    (f : M.view.ty.Contents Val) (w : s'.Idx → Val e) :
    shapeCast s' (M.view.readAt Val r.toLoadRect (((M.slice r hr).squeeze s' hq).view.write Val f w Finset.univ)) hc = w :=
  (Memref.read_squeeze_slice M r hr hq hc _).symm.trans (View.read_write_univ _ _)

/-- Device `d`'s block of the argument as launched, its elements read as extended reals. -/
abbrev blk (m : (ℓ : Loc nD τ sig) → Buf (Elt Ideal) ℓ) (d : Dev nD) : (⟨2, ![1024, 512]⟩ : Shape).Idx → EReal :=
  m (((d : Dev nD) : Thread nD τ).loc main_arg0)

/-! ## The two loaded halves -/

/-- Half 0 as loaded, its leading unit axis dropped, is the first half of the block read through its slice. -/
theorem load0 {F : FTy → Type} [FloatOps F] (m : (ℓ : Loc nD τ sig) → Buf (Elt F) ℓ) (c : Dev nD) :
    shapeCast S512x512 (vM.view.readAt (Elt F) (vR 0).toLoadRect (ldv m c 0)) shapeCasts_S1x512x512_S512x512
      = xS0.view.read (Elt F) (xA m c) :=
  shapeCast_readAt_write vM _ (fun _ => rfl) squeezes_S1x512x512_S512x512 shapeCasts_S1x512x512_S512x512 _ _

/-- Half 1 likewise. -/
theorem load1 {F : FTy → Type} [FloatOps F] (m : (ℓ : Loc nD τ sig) → Buf (Elt F) ℓ) (c : Dev nD) :
    shapeCast S512x512 (vM.view.readAt (Elt F) (vR 1).toLoadRect (ldv m c 1)) shapeCasts_S1x512x512_S512x512
      = xS1.view.read (Elt F) (xA m c) :=
  shapeCast_readAt_write vM _ (fun _ => rfl) squeezes_S1x512x512_S512x512 shapeCasts_S1x512x512_S512x512 _ _

/-- The first half of a block read through its slice: row `k` of the half is row `k` of the block. -/
theorem xS0_read {F : FTy → Type} [FloatOps F] (f : xS0.view.ty.Contents (Elt F)) (k col : Fin 512) :
    xS0.view.read (Elt F) f (ix2 k col) = f (ix2 (⟨k.val, by omega⟩ : Fin 1024) col) := by
  show f _ = f _
  refine congrArg f (funext fun a => Fin.ext ?_)
  match a with
  | ⟨0, _⟩ => show 0 + 1 * k.val = k.val; omega
  | ⟨1, _⟩ => show 0 + 1 * col.val = col.val; omega

/-- The second half: row `k` of the half is row `512 + k` of the block. -/
theorem xS1_read {F : FTy → Type} [FloatOps F] (f : xS1.view.ty.Contents (Elt F)) (k col : Fin 512) :
    xS1.view.read (Elt F) f (ix2 k col) = f (ix2 (⟨512 + k.val, by omega⟩ : Fin 1024) col) := by
  show f _ = f _
  refine congrArg f (funext fun a => Fin.ext ?_)
  match a with
  | ⟨0, _⟩ => show 512 + 1 * k.val = 512 + k.val; omega
  | ⟨1, _⟩ => show 0 + 1 * col.val = col.val; omega

/-! ## A column sum of a 512 x 512 half -/

/-- The lane sum over the rows of a 512 x 512 vector, at column `col`, is the sum of that column. -/
theorem colred (src : FVec Ideal S512x512 .f32) (hφ : FKind.Formats .f32)
    (hacc : (0x00000000#32 : BitVec 32) = 0x00000000#32) (col : Fin 512) :
    multiReduction (F := Ideal) .add [0] S512 src 0x00000000#32 reduces_S512x512_S512 hφ hacc (ix1 col)
      = ∑ k : Fin 512, src (ix2 k col) := by
  refine (Ideal.multiReduction_add_single src 0x00000000#32 reduces_S512x512_S512 hφ hacc (ix1 col)).trans ?_
  refine Finset.sum_congr rfl fun k _ => congrArg src (funext fun a => Fin.ext ?_)
  match a with
  | ⟨0, _⟩ => rfl
  | ⟨1, _⟩ => rfl

/-! ## A device's partial sum at an index -/

/-- The partial sum of device `c` at column `col`: the column's sum over the first 512 rows of its block plus
    its sum over the last 512. -/
theorem mineV_apply (m : (ℓ : Loc nD τ sig) → Buf (Elt Ideal) ℓ) (c : Dev nD) (u : Fin 1) (col : Fin 512) :
    mineV (F := Ideal) m c (ix2 u col)
      = (∑ k : Fin 512, blk m c (ix2 (⟨k.val, by omega⟩ : Fin 1024) col))
        + ∑ k : Fin 512, blk m c (ix2 (⟨512 + k.val, by omega⟩ : Fin 1024) col) := by
  unfold mineV k0_pay2
  simp only [shapeCast_self]
  rw [load0 m c, load1 m c, addf_apply, shapeCast_a_1a_apply, shapeCast_a_1a_apply]
  refine (congrArg₂ (· + ·) (colred _ _ _ col) (colred _ _ _ col)).trans ?_
  exact congrArg₂ (· + ·) (Finset.sum_congr rfl fun k _ => xS0_read (F := Ideal) (xA m c) k col)
    (Finset.sum_congr rfl fun k _ => xS1_read (F := Ideal) (xA m c) k col)

/-! ## The three landed partial sums, and the device's own read back -/

/-- Slot 0 of the receive scratch as loaded, its leading unit axis dropped, is the partial sum of the device one
    place behind. -/
theorem land0 {F : FTy → Type} [FloatOps F] (m : (ℓ : Loc nD τ sig) → Buf (Elt F) ℓ) (c : Dev nD) :
    shapeCast S1x512 (cM.view.readAt (Elt F) (cR 0).toLoadRect (landv m c 0)) shapeCasts_S1x1x512_S1x512
      = mineV m (bk c 0) :=
  shapeCast_readAt_write cM _ (fun _ => rfl) squeezes_S1x1x512_S1x512 shapeCasts_S1x1x512_S1x512 _ _

/-- Slot 1: two places behind. -/
theorem land1 {F : FTy → Type} [FloatOps F] (m : (ℓ : Loc nD τ sig) → Buf (Elt F) ℓ) (c : Dev nD) :
    shapeCast S1x512 (cM.view.readAt (Elt F) (cR 1).toLoadRect (landv m c 1)) shapeCasts_S1x1x512_S1x512
      = mineV m (bk c 1) :=
  shapeCast_readAt_write cM _ (fun _ => rfl) squeezes_S1x1x512_S1x512 shapeCasts_S1x1x512_S1x512 _ _

/-- Slot 2: three places behind. -/
theorem land2 {F : FTy → Type} [FloatOps F] (m : (ℓ : Loc nD τ sig) → Buf (Elt F) ℓ) (c : Dev nD) :
    shapeCast S1x512 (cM.view.readAt (Elt F) (cR 2).toLoadRect (landv m c 2)) shapeCasts_S1x1x512_S1x512
      = mineV m (bk c 2) :=
  shapeCast_readAt_write cM _ (fun _ => rfl) squeezes_S1x1x512_S1x512 shapeCasts_S1x1x512_S1x512 _ _

/-- The device's own partial sum, loaded whole, is itself. -/
theorem mine_read {F : FTy → Type} [FloatOps F] (m : (ℓ : Loc nD τ sig) → Buf (Elt F) ℓ) (c : Dev nD) :
    mM.view.readAt (Elt F) mR.toLoadRect (mineV m c) = mineV m c :=
  Memref.readAt_unit_zero (Elt F) cc0_scratch1
    (funext fun a => by match a with | ⟨0, _⟩ => rfl | ⟨1, _⟩ => rfl) _ _

/-! ## The scaling constant -/

/-- The word `0x39800000` denotes `2^-12 = 1/4096`. -/
theorem ofBits_inv4096 : Ideal.ofBits .f32 0x39800000#32 = (((1 : ℝ) / 4096 : ℝ) : EReal) := by
  simp [Ideal.ofBits, Ideal.ieee, -EReal.coe_mul]; norm_num

/-! ## The result at an index -/

/-- Device `d`'s partial sum, its elements read as extended reals. -/
abbrev part (m : (ℓ : Loc nD τ sig) → Buf (Elt Ideal) ℓ) (d : Dev nD) : (⟨2, ![1, 512]⟩ : Shape).Idx → EReal :=
  mineV (F := Ideal) m d

/-- The result of device `c` at column `col`: its partial sum plus those of the devices one, two and three places
    behind, times the constant. -/
theorem outV_apply (m : (ℓ : Loc nD τ sig) → Buf (Elt Ideal) ℓ) (c : Dev nD) (u : Fin 1) (col : Fin 512) :
    outV (F := Ideal) m c (ix2 u col)
      = (part m c (ix2 u col) + part m (bk c 0) (ix2 u col) + part m (bk c 1) (ix2 u col) + part m (bk c 2) (ix2 u col))
        * Ideal.ofBits .f32 0x39800000#32 := by
  unfold outV k0_pay1
  rw [land0 m c, land1 m c, land2 m c, mine_read m c]
  rfl

/-! ## Regrouping: two halves make a block, four ring neighbours make the mesh -/

/-- A sum over 1024 rows is the sum over the first 512 plus the sum over the last 512. -/
theorem sum_halves (f : Fin 1024 → EReal) :
    ∑ r : Fin 1024, f r = (∑ k : Fin 512, f ⟨k.val, by omega⟩) + ∑ k : Fin 512, f ⟨512 + k.val, by omega⟩ :=
  Fin.sum_univ_add (a := 512) (b := 512) f

/-- So a device's partial sum at a column is its block's column sum. -/
theorem part_apply (m : (ℓ : Loc nD τ sig) → Buf (Elt Ideal) ℓ) (d : Dev nD) (u : Fin 1) (col : Fin 512) :
    part m d (ix2 u col) = Cert.Spec.colsum (blk m d) col :=
  (mineV_apply m d u col).trans (sum_halves fun r => blk m d (ix2 r col)).symm

/-- A device and the three devices one, two and three places behind it are the four devices: a sum over them,
    in that order, is the sum over the mesh. -/
theorem sum_ring (g : Dev nD → EReal) (c : Dev nD) :
    g c + g (bk c 0) + g (bk c 1) + g (bk c 2) = ∑ d : Fin 4, g d := by
  rw [Fin.sum_univ_four]
  have key : ∀ c : Dev nD,
      (c = 0 ∧ bk c 0 = 3 ∧ bk c 1 = 2 ∧ bk c 2 = 1) ∨ (c = 1 ∧ bk c 0 = 0 ∧ bk c 1 = 3 ∧ bk c 2 = 2)
        ∨ (c = 2 ∧ bk c 0 = 1 ∧ bk c 1 = 0 ∧ bk c 2 = 3) ∨ (c = 3 ∧ bk c 0 = 2 ∧ bk c 1 = 1 ∧ bk c 2 = 0) := by
    decide
  rcases key c with ⟨h, h0, h1, h2⟩ | ⟨h, h0, h1, h2⟩ | ⟨h, h0, h1, h2⟩ | ⟨h, h0, h1, h2⟩ <;>
    rw [h0, h1, h2, h] <;> ac_rfl

/-! ## The main statement -/

/-- The kernel's result on every device is the mean of each column over the rows of the four devices' blocks. -/
theorem outV_eq (m : (ℓ : Loc nD τ sig) → Buf (Elt Ideal) ℓ) (c : Dev nD) :
    outV (F := Ideal) m c
      = fun i => Cert.Spec.mean (fun d : Fin 4 => m (((d : Dev nD) : Thread nD τ).loc main_arg0)) (i 1) := by
  funext i
  obtain ⟨u, col, rfl⟩ : ∃ (u : Fin 1) (col : Fin 512), i = ix2 u col := ⟨i 0, i 1, eq_ix2 i⟩
  rw [outV_apply, part_apply, part_apply, part_apply, part_apply, ofBits_inv4096]
  exact congrArg (· * _) (sum_ring (fun d => Cert.Spec.colsum (blk m d) col) c)

/-- info: 'Cert.KernelIdeal.KValue.outV_eq' depends on axioms: [propext, Classical.choice, Quot.sound] -/
#guard_msgs in #print axioms outV_eq

end Cert.KernelIdeal.KValue

end
-- ==== Proof.RefValue.lean ====
/-
  The reference at the ideal instance, read index by index: the mean over the 4096 rows of the whole array,
  column by column, as the row sum times nothing but a division by 4096 — and that sum taken block by block:
  the 4096 rows are four blocks of 1024, so the reference's result is the mean of the four blocks' column sums.
-/
import proofs.«900939_g7700000000000940_dist_mean_ax0_shard0_i_m1024_n512_v7x_i4_f32_1_alg».proof.Defs
import proofs.«900939_g7700000000000940_dist_mean_ax0_shard0_i_m1024_n512_v7x_i4_f32_1_alg».proof.Proof.Gen.ReferenceIdeal
import proofs.«900939_g7700000000000940_dist_mean_ax0_shard0_i_m1024_n512_v7x_i4_f32_1_alg».proof.Proof.Gen.ReferenceIdeal.Run
import proofs.«900939_g7700000000000940_dist_mean_ax0_shard0_i_m1024_n512_v7x_i4_f32_1_alg».proof.Proof.Gen.ReferenceIdeal.Read
import proofs.«900939_g7700000000000940_dist_mean_ax0_shard0_i_m1024_n512_v7x_i4_f32_1_alg».proof.Proof.Gen.Pre_finite_inputs_ReferenceIdeal
import proofs.«900939_g7700000000000940_dist_mean_ax0_shard0_i_m1024_n512_v7x_i4_f32_1_alg».proof.Proof.Spec
import Idealize.ShloMosaic.Lib.Layout
import Idealize.ShloMosaic.Lib.ValueIdx
import Idealize.ShloMosaic.PureOps.Ideal.Laws

noncomputable section

open scoped BigOperators

namespace Cert.RefValue

open Idealize.ShloMosaic Idealize.SL.Sem Idealize.ShloMosaic.ValueIdx
open Cert.ReferenceIdeal Cert.ReferenceIdeal.Gen

/-! ## The two literals -/

/-- The divisor `4096.0` denotes the real `4096`. -/
theorem ofBits_4096 : Ideal.ofBits .f32 0x45800000#32 = ((4096 : ℝ) : EReal) := by
  simp [Ideal.ofBits, Ideal.ieee, -EReal.coe_mul]; norm_num

/-! ## A sum over 4096 rows is the sum over four blocks of 1024 rows -/

/-- Row `r` of block `d` is row `1024 d + r` of the whole. -/
abbrev row (d : Fin 4) (r : Fin 1024) : Fin 4096 := ⟨d.val * 1024 + r.val, by omega⟩

theorem sum_rows (f : Fin 4096 → EReal) : ∑ k : Fin 4096, f k = ∑ d : Fin 4, ∑ r : Fin 1024, f (row d r) := by
  rw [← Fintype.sum_prod_type (f := fun p : Fin 4 × Fin 1024 => f (row p.1 p.2))]
  refine (Fintype.sum_equiv ((finProdFinEquiv (m := 4) (n := 1024)).trans (finCongr (by norm_num))) _ _ fun p => ?_).symm
  refine congrArg f (Fin.ext ?_)
  simp only [row, Equiv.trans_apply, finProdFinEquiv_apply_val, finCongr_apply, Fin.coe_cast]
  omega

/-! ## The reference at an index -/

/-- The reference's result at an index: the column's sum over all 4096 rows, times 1/4096. -/
theorem ref_apply (X : (⟨S4096x512, .f32⟩ : BufTy).Contents (Elt Ideal)) (i : S1x512.Idx) :
    Read.val_main_v3 (F := Ideal) X i = (∑ k : Fin 4096, (X (ix2 k (i 1)) : EReal)) * (((1 : ℝ) / 4096 : ℝ) : EReal) := by
  have hidx : ∀ k : Fin 4096, Read.idx_main_v0 (Read.idx_main_v1 i) k = ix2 k (i 1) := fun k =>
    funext fun a => Fin.ext (by match a with | ⟨0, _⟩ => rfl | ⟨1, _⟩ => rfl)
  rw [Read.val_main_v3_apply, Read.val_main_v2_apply, Read.val_main_cst_0_apply, Read.val_main_v1_apply,
    Read.val_main_v0_apply, Read.val_main_cst_apply]
  simp only [hidx, Ideal.hostDivf_def, Ideal.ofBits_def, Ideal.ofBits_zero_f32, ofBits_4096, zero_add,
    Ideal.div_coe (by norm_num : (4096 : ℝ) ≠ 0)]
  rfl

/-- The reference's result is the mean of the four row blocks of the whole array, column by column. -/
theorem ref_eq (X : (⟨S4096x512, .f32⟩ : BufTy).Contents (Elt Ideal)) :
    Read.val_main_v3 (F := Ideal) X
      = fun i => Cert.Spec.mean (fun d => Layout.block ⟨2, ![1024, 512]⟩ ⟨2, ![4096, 512]⟩ 0 4 d X) (i 1) := by
  funext i
  rw [ref_apply, sum_rows]
  unfold Cert.Spec.mean Cert.Spec.colsum
  refine congrArg (· * _) (Finset.sum_congr rfl fun d _ => Finset.sum_congr rfl fun r _ => ?_)
  exact congrArg X (funext fun a => Fin.ext (by match a with | ⟨0, _⟩ => rfl | ⟨1, _⟩ => rfl))

/-! ## The reference's run and frame -/

/-- The reference's run, its result named as the stage `val_main_v3` of the argument: every weakly fair
    execution terminates with the result there and the argument unchanged. -/
theorem ref_run (m' : (ℓ : Loc nD τ sig) → Buf (Elt Ideal) ℓ) (ρ' : Dev nD → PrngReg) :
    θ_run (Cert.ReferenceIdeal.defs (F := Ideal)) (onTc (τ := τ) (Cert.ReferenceIdeal.main (F := Ideal))) ⟨m', fun _ => 0, ρ'⟩
      (fun r => ∀ c : Dev nD,
        r.2.mem ((c.tc : Thread nD τ).loc main_v3) = Read.val_main_v3 (F := Ideal) (m' ((c.tc : Thread nD τ).loc main_arg0))
        ∧ r.2.mem ((c.tc : Thread nD τ).loc main_arg0) = m' ((c.tc : Thread nD τ).loc main_arg0)) :=
  (θ_run Cert.ReferenceIdeal.defs _ _).mono
    (fun _ h c => ⟨(h c).1.trans (Read.val_main_v3_eq (F := Ideal) _), (h c).2⟩)
    (Cert.ReferenceIdeal.Value.run (F := Ideal) m' ρ')

/-- The same run with the result read as the mean of the four row blocks of the whole argument array: the
    form the comparison with the four devices' results takes. -/
theorem ref_run_mean (m' : (ℓ : Loc nD τ sig) → Buf (Elt Ideal) ℓ) (ρ' : Dev nD → PrngReg) :
    θ_run (Cert.ReferenceIdeal.defs (F := Ideal)) (onTc (τ := τ) (Cert.ReferenceIdeal.main (F := Ideal))) ⟨m', fun _ => 0, ρ'⟩
      (fun r => ∀ c : Dev nD,
        r.2.mem ((c.tc : Thread nD τ).loc main_v3)
          = (fun i => Cert.Spec.mean (fun d => Layout.block ⟨2, ![1024, 512]⟩ ⟨2, ![4096, 512]⟩ 0 4 d
              (m' ((c.tc : Thread nD τ).loc main_arg0))) (i 1))
        ∧ r.2.mem ((c.tc : Thread nD τ).loc main_arg0) = m' ((c.tc : Thread nD τ).loc main_arg0)) :=
  (θ_run Cert.ReferenceIdeal.defs _ _).mono
    (fun _ h c => ⟨(h c).1.trans (ref_eq _), (h c).2⟩) (ref_run m' ρ')

/-- The reference runs and leaves its argument unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- info: 'Cert.RefValue.ref_eq' depends on axioms: [propext, Classical.choice, Quot.sound] -/
#guard_msgs in #print axioms ref_eq
/-- info: 'Cert.RefValue.ref_run_mean' depends on axioms: [propext, Classical.choice, Quot.sound] -/
#guard_msgs in #print axioms ref_run_mean
/-- info: 'Cert.RefValue.frame_ri' depends on axioms: [propext, Classical.choice, Quot.sound] -/
#guard_msgs in #print axioms frame_ri

end Cert.RefValue

end
-- ==== Proof.W.Proto.lean ====
/-
  The protocol of the four-device mean, fixed once for both float instances.

  Every device sums the two halves of its 1024 x 512 block column by column into a 1 x 512 row (its partial sum),
  tells each of the three other devices, by one unit on that device's barrier semaphore, that it is inside the kernel,
  waits for its own three units, copies its partial sum into slot k of the device k + 1 places ahead of it on the ring
  (k = 0, 1, 2), waits for the three copies that land in its own three slots and for its own three copies to have been
  read, adds the four partial sums and scales by 2^-12.

  Semaphores, as cells of the rounds discipline with one round each: a device's barrier cell has three duties of one unit,
  duty k paid by the device k + 1 places behind it, whose unit hands over that device's slot 2 - k and the fact that the
  slot's receive cell has reached its round; each load cell, send cell and receive cell has one duty of the copy's credit,
  handing over the destination at the copied contents (load, receive) or the source share back (load, send).
-/
import proofs.«900939_g7700000000000940_dist_mean_ax0_shard0_i_m1024_n512_v7x_i4_f32_1_alg».proof.Proof.Gen.Kernel
import proofs.«900939_g7700000000000940_dist_mean_ax0_shard0_i_m1024_n512_v7x_i4_f32_1_alg».proof.Proof.Gen.Kernel.Skeleton
import proofs.«900939_g7700000000000940_dist_mean_ax0_shard0_i_m1024_n512_v7x_i4_f32_1_alg».proof.Proof.Gen.Kernel.Launch
import proofs.«900939_g7700000000000940_dist_mean_ax0_shard0_i_m1024_n512_v7x_i4_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The ring: the device k + 1 places ahead, and the one k + 1 places behind -/

def pk (c : Dev nD) (k : Fin 3) : Dev nD := ⟨(c.val + k.val + 1) % 4, Nat.mod_lt _ (by decide)⟩
def bk (c : Dev nD) (k : Fin 3) : Dev nD := ⟨(c.val + 3 - k.val) % 4, Nat.mod_lt _ (by decide)⟩

theorem bk_pk (c : Dev nD) (k : Fin 3) : bk (pk c k) k = c := by revert c k; decide
theorem pk_bk (c : Dev nD) (k : Fin 3) : pk (bk c k) k = c := by revert c k; decide
/-- Going k + 1 ahead and then 3 - k ahead is once round the ring. -/
theorem pk_pk_rev (c : Dev nD) (k : Fin 3) : pk (pk c k) k.rev = c := by revert c k; decide
theorem pk_rev_pk (c : Dev nD) (k : Fin 3) : pk (pk c k.rev) k = c := by revert c k; decide
theorem bk_rev (c : Dev nD) (k : Fin 3) : bk c k.rev = pk c k := by revert c k; decide
theorem pk_ne (c : Dev nD) (k : Fin 3) : pk c k ≠ c := by revert c k; decide
theorem pk_inj (c : Dev nD) : Function.Injective (pk c) := by revert c; decide

def ring (k : Fin 3) : Dev nD ≃ Dev nD := ⟨fun c => pk c k, fun c => bk c k, fun c => bk_pk c k, fun c => pk_bk c k⟩

/-- The printed device chains: signals 1, 2, 3 and copies 4, 5, 6 name the devices 1, 2, 3 places ahead. -/
theorem dev1_eq (c : Dev nD) : (⟨k0_dev1 c, k0_dev1_lt c⟩ : Dev nD) = pk c 0 := Fin.ext (k0_dev1_eq c)
theorem dev2_eq (c : Dev nD) : (⟨k0_dev2 c, k0_dev2_lt c⟩ : Dev nD) = pk c 1 := Fin.ext (k0_dev2_eq c)
theorem dev3_eq (c : Dev nD) : (⟨k0_dev3 c, k0_dev3_lt c⟩ : Dev nD) = pk c 2 := Fin.ext (k0_dev3_eq c)
theorem dev4_eq (c : Dev nD) : (⟨k0_dev4 c, k0_dev4_lt c⟩ : Dev nD) = pk c 0 := Fin.ext (k0_dev4_eq c)
theorem dev5_eq (c : Dev nD) : (⟨k0_dev5 c, k0_dev5_lt c⟩ : Dev nD) = pk c 1 := Fin.ext (k0_dev5_eq c)
theorem dev6_eq (c : Dev nD) : (⟨k0_dev6 c, k0_dev6_lt c⟩ : Dev nD) = pk c 2 := Fin.ext (k0_dev6_eq c)

/-! ## The buffers, as the body names them -/

abbrev xM : Memref sig .tc .hbm S1024x512 .f32 := Memref.whole main_arg0
abbrev oM : Memref sig .tc .vmem S1x512 .f32 := Memref.whole cc0_stg0_0
abbrev vM : Memref sig .tc .vmem S2x512x512 .f32 := Memref.whole cc0_scratch0
abbrev mM : Memref sig .tc .vmem S1x512 .f32 := Memref.whole cc0_scratch1
abbrev cM : Memref sig .tc .vmem S3x1x512 .f32 := Memref.whole cc0_scratch2

/-- The two halves of the device's block of `x` (rows 0..511, rows 512..1023), -/
abbrev xR : Fin 2 → Rect S1024x512
  | 0 => Rect.unit (s := S1024x512) ![0, 0] S512x512.size inb_S1024x512_S512x512_0_0
  | 1 => Rect.unit (s := S1024x512) ![512, 0] S512x512.size inb_S1024x512_S512x512_512_0
abbrev xS0 : Memref sig .tc .hbm S512x512 .f32 := xM.slice (Rect.unit (s := S1024x512) ![0, 0] S512x512.size inb_S1024x512_S512x512_0_0) (fun _ => rfl)
abbrev xS1 : Memref sig .tc .hbm S512x512 .f32 := xM.slice (Rect.unit (s := S1024x512) ![512, 0] S512x512.size inb_S1024x512_S512x512_512_0) (fun _ => rfl)
/-- the two 512 x 512 slots they are loaded into, -/
abbrev vR : Fin 2 → Rect S2x512x512
  | 0 => Rect.unit (s := S2x512x512) ![0, 0, 0] S1x512x512.size inb_S2x512x512_S1x512x512_0_0_0
  | 1 => Rect.unit (s := S2x512x512) ![1, 0, 0] S1x512x512.size inb_S2x512x512_S1x512x512_1_0_0
abbrev vS0 : Memref sig .tc .vmem S512x512 .f32 :=
  (vM.slice (Rect.unit (s := S2x512x512) ![0, 0, 0] S1x512x512.size inb_S2x512x512_S1x512x512_0_0_0) (fun _ => rfl)).squeeze S512x512 squeezes_S1x512x512_S512x512
abbrev vS1 : Memref sig .tc .vmem S512x512 .f32 :=
  (vM.slice (Rect.unit (s := S2x512x512) ![1, 0, 0] S1x512x512.size inb_S2x512x512_S1x512x512_1_0_0) (fun _ => rfl)).squeeze S512x512 squeezes_S1x512x512_S512x512
/-- the row of the partial sum and of the result, -/
abbrev mR : Rect S1x512 := Rect.unit (s := S1x512) ![0, 0] S1x512.size inb_S1x512_S1x512_0_0
/-- and the three 1 x 512 slots the other devices' partial sums land in. -/
abbrev cR : Fin 3 → Rect S3x1x512
  | 0 => Rect.unit (s := S3x1x512) ![0, 0, 0] S1x1x512.size inb_S3x1x512_S1x1x512_0_0_0
  | 1 => Rect.unit (s := S3x1x512) ![1, 0, 0] S1x1x512.size inb_S3x1x512_S1x1x512_1_0_0
  | 2 => Rect.unit (s := S3x1x512) ![2, 0, 0] S1x1x512.size inb_S3x1x512_S1x1x512_2_0_0
abbrev cS0 : Memref sig .tc .vmem S1x512 .f32 :=
  (cM.slice (Rect.unit (s := S3x1x512) ![0, 0, 0] S1x1x512.size inb_S3x1x512_S1x1x512_0_0_0) (fun _ => rfl)).squeeze S1x512 squeezes_S1x1x512_S1x512
abbrev cS1 : Memref sig .tc .vmem S1x512 .f32 :=
  (cM.slice (Rect.unit (s := S3x1x512) ![1, 0, 0] S1x1x512.size inb_S3x1x512_S1x1x512_1_0_0) (fun _ => rfl)).squeeze S1x512 squeezes_S1x1x512_S1x512
abbrev cS2 : Memref sig .tc .vmem S1x512 .f32 :=
  (cM.slice (Rect.unit (s := S3x1x512) ![2, 0, 0] S1x1x512.size inb_S3x1x512_S1x1x512_2_0_0) (fun _ => rfl)).squeeze S1x512 squeezes_S1x1x512_S1x512

/-! ## The semaphores and their cells -/

/-- The runtime's barrier semaphore of collective id 0 (not scoped to the launch). -/
abbrev barS : Sem sig := (SemArray.scalar (sig.barrier 0 rfl) : Sems sig S_).sem
abbrev ldA : Fin 2 → DmaSems sig S_
  | 0 => (cc0_scratch3.slice (Rect.unit (s := S2) ![0] S1.size inb_S2_S1_0)).squeeze S_ squeezes_S1_S_
  | 1 => (cc0_scratch3.slice (Rect.unit (s := S2) ![1] S1.size inb_S2_S1_1)).squeeze S_ squeezes_S1_S_
abbrev sndA : Fin 3 → DmaSems sig S_
  | 0 => (cc0_scratch4.slice (Rect.unit (s := S3) ![0] S1.size inb_S3_S1_0)).squeeze S_ squeezes_S1_S_
  | 1 => (cc0_scratch4.slice (Rect.unit (s := S3) ![1] S1.size inb_S3_S1_1)).squeeze S_ squeezes_S1_S_
  | 2 => (cc0_scratch4.slice (Rect.unit (s := S3) ![2] S1.size inb_S3_S1_2)).squeeze S_ squeezes_S1_S_
abbrev rcvA : Fin 3 → DmaSems sig S_
  | 0 => (cc0_scratch5.slice (Rect.unit (s := S3) ![0] S1.size inb_S3_S1_0)).squeeze S_ squeezes_S1_S_
  | 1 => (cc0_scratch5.slice (Rect.unit (s := S3) ![1] S1.size inb_S3_S1_1)).squeeze S_ squeezes_S1_S_
  | 2 => (cc0_scratch5.slice (Rect.unit (s := S3) ![2] S1.size inb_S3_S1_2)).squeeze S_ squeezes_S1_S_

abbrev barL : SemLoc sig := .reg barS
abbrev ldL (j : Fin 2) : SemLoc sig := .dma (ldA j).sem
abbrev sndL (k : Fin 3) : SemLoc sig := .dma (sndA k).sem
abbrev rcvL (k : Fin 3) : SemLoc sig := .dma (rcvA k).sem

abbrev barCell (c : Dev nD) : GSem nD τ sig := ((c : Thread nD τ), barL)
abbrev ldCell (c : Dev nD) (j : Fin 2) : GSem nD τ sig := ((c : Thread nD τ), ldL j)
abbrev sndCell (c : Dev nD) (k : Fin 3) : GSem nD τ sig := ((c : Thread nD τ), sndL k)
abbrev rcvCell (c : Dev nD) (k : Fin 3) : GSem nD τ sig := ((c : Thread nD τ), rcvL k)

/-- The kernel's own (scoped) semaphores as the launch indexes them: the two loads', the three sends', the three receives'; -/
abbrev osem : Fin 8 → SemLoc sig
  | 0 => ldL 0 | 1 => ldL 1 | 2 => sndL 0 | 3 => sndL 1 | 4 => sndL 2 | 5 => rcvL 0 | 6 => rcvL 1 | 7 => rcvL 2
/-- all nine cells of a device: the barrier first. -/
abbrev csem : Fin 9 → SemLoc sig
  | 0 => barL | 1 => ldL 0 | 2 => ldL 1 | 3 => sndL 0 | 4 => sndL 1 | 5 => sndL 2 | 6 => rcvL 0 | 7 => rcvL 1 | 8 => rcvL 2
abbrev kcell (ck : Dev nD × Fin 9) : GSem nD τ sig := ((ck.1 : Thread nD τ), csem ck.2)

/-- The credit of one half-block load, and of one partial-sum copy. -/
abbrev NL : ℕ := vS0.view.dmaCredit
abbrev N : ℕ := cS0.view.dmaCredit
theorem NL_pos : 0 < NL := View.dmaCredit_pos _ (by decide)
theorem N_pos : 0 < N := View.dmaCredit_pos _ (by decide)

/-! ## Contents, named as the run produces them -/

/-- Device `c`'s block of `x` as launched. -/
def xA (c : Dev nD) : Buf (Elt F) ((c : Thread nD τ).loc main_arg0) := m ((c : Thread nD τ).loc main_arg0)

/-- The load scratch with half `j` of the block copied into slot `j` (elsewhere the launch contents: never read there). -/
def ldv (c : Dev nD) : Fin 2 → Buf (Elt F) ((c : Thread nD τ).loc cc0_scratch0)
  | 0 => vS0.view.write (Elt F) (m ((c : Thread nD τ).loc cc0_scratch0)) (xS0.view.read (Elt F) (xA m c)) Finset.univ
  | 1 => vS1.view.write (Elt F) (m ((c : Thread nD τ).loc cc0_scratch0)) (xS1.view.read (Elt F) (xA m c)) Finset.univ

/-- Device `c`'s partial sum: the column sums of its two halves, added. -/
def mineV (c : Dev nD) : (cc0_scratch1 : Ref sig .tc).ty.Contents (Elt F) :=
  k0_pay2 (vM.view.readAt (Elt F) (vR 0).toLoadRect (ldv m c 0)) (vM.view.readAt (Elt F) (vR 1).toLoadRect (ldv m c 1))

/-- The receive scratch with the partial sum of the device `k + 1` places behind copied into slot `k`. -/
def landv (c : Dev nD) : Fin 3 → Buf (Elt F) ((c : Thread nD τ).loc cc0_scratch2)
  | 0 => cS0.view.write (Elt F) (m ((c : Thread nD τ).loc cc0_scratch2)) (mM.view.read (Elt F) (mineV m (bk c 0))) Finset.univ
  | 1 => cS1.view.write (Elt F) (m ((c : Thread nD τ).loc cc0_scratch2)) (mM.view.read (Elt F) (mineV m (bk c 1))) Finset.univ
  | 2 => cS2.view.write (Elt F) (m ((c : Thread nD τ).loc cc0_scratch2)) (mM.view.read (Elt F) (mineV m (bk c 2))) Finset.univ

/-- The kernel's result on device `c`: its partial sum plus the three landed ones, scaled. -/
def outV (c : Dev nD) : (cc0_stg0_0 : Ref sig .tc).ty.Contents (Elt F) :=
  k0_pay1 (mM.view.readAt (Elt F) mR.toLoadRect (mineV m c)) (cM.view.readAt (Elt F) (cR 0).toLoadRect (landv m c 0))
    (cM.view.readAt (Elt F) (cR 1).toLoadRect (landv m c 1)) (cM.view.readAt (Elt F) (cR 2).toLoadRect (landv m c 2))

/-! ## Points-to assertions of the slots -/

/-- Slot `j` of the load scratch, owned outright at `f`. -/
def vPts (c : Dev nD) : Fin 2 → Buf (Elt F) ((c : Thread nD τ).loc cc0_scratch0) → sProp 𝕄
  | 0, f => vS0.view.loc (c : Thread nD τ) ↦[vS0.view.set]{fullShare} f
  | 1, f => vS1.view.loc (c : Thread nD τ) ↦[vS1.view.set]{fullShare} f
/-- Slot `k` of the receive scratch, owned outright at `f`. -/
def cPts (c : Dev nD) : Fin 3 → Buf (Elt F) ((c : Thread nD τ).loc cc0_scratch2) → sProp 𝕄
  | 0, f => cS0.view.loc (c : Thread nD τ) ↦[cS0.view.set]{fullShare} f
  | 1, f => cS1.view.loc (c : Thread nD τ) ↦[cS1.view.set]{fullShare} f
  | 2, f => cS2.view.loc (c : Thread nD τ) ↦[cS2.view.set]{fullShare} f
/-- The share of `x` each load borrows (the array is held whole at these two shares, each load's half carved out of one), -/
def qx : Fin 2 → PosShare TreeShare | 0 => fullShare.left | 1 => fullShare.right
def xPts (c : Dev nD) : Fin 2 → sProp 𝕄
  | 0 => xS0.view.loc (c : Thread nD τ) ↦[xS0.view.set]{qx 0} xA m c
  | 1 => xS1.view.loc (c : Thread nD τ) ↦[xS1.view.set]{qx 1} xA m c
/-- and the share of the partial sum each of the three copies borrows. -/
def qm : Fin 3 → PosShare TreeShare | 0 => fullShare.left | 1 => fullShare.right.left | 2 => fullShare.right.right
def mPts (c : Dev nD) (k : Fin 3) : sProp 𝕄 := mM.view.loc (c : Thread nD τ) ↦[mM.view.set]{qm k} mineV m c

/-! ## The schedule -/

/-- What the unit of duty `k` of `c`'s barrier cell hands `c`: paid by the device `k + 1` places behind `c`, which is
    `3 - k` places ahead, it is that device's slot `2 - k` (the slot `c` copies into) and that the slot's receive cell has
    reached round 0. -/
def barPay (c : Dev nD) : Fin 3 → sProp 𝕄
  | 0 => iprop((∃ f, cPts (F := F) (pk c 2) 2 f) ∗ reached ER (rcvCell (pk c 2) 2) 0)
  | 1 => iprop((∃ f, cPts (F := F) (pk c 1) 1 f) ∗ reached ER (rcvCell (pk c 1) 1) 0)
  | 2 => iprop((∃ f, cPts (F := F) (pk c 0) 0 f) ∗ reached ER (rcvCell (pk c 0) 0) 0)
/-- A load's landing: the slot at the copied half, and the borrowed share of that half of `x` back. -/
def ldPay (c : Dev nD) (j : Fin 2) : sProp 𝕄 := iprop(vPts c j (ldv m c j) ∗ xPts m c j)
/-- A receive's landing: the slot at the sender's partial sum. -/
def rcvPay (c : Dev nD) (k : Fin 3) : sProp 𝕄 := cPts c k (landv m c k)

abbrev IsOwn (s : SemLoc sig) : Prop := ∃ i : Fin 8, s = osem i

/-- One round, round 0, on every TensorCore cell: the barrier cell three duties of one unit, each own cell one duty
    (`0`) of its copy's credit. -/
def sched : Rounds.Schedule (GSem nD τ sig) (Fin 3) 𝕄 where
  duties g r := if r = 0 ∧ g.1.2 = .tc then (if g.2 = barL then Finset.univ else if IsOwn g.2 then {0} else ∅) else ∅
  unitless _ := False
  amount g _ _ := if g.2 = barL then 1 else if g.2 = ldL 0 ∨ g.2 = ldL 1 then NL else N
  payload g _ d :=
    if g.2 = barL then barPay g.1.1 d
    else if g.2 = ldL 0 then ldPay m g.1.1 0 else if g.2 = ldL 1 then ldPay m g.1.1 1
    else if g.2 = sndL 0 then mPts m g.1.1 0 else if g.2 = sndL 1 then mPts m g.1.1 1 else if g.2 = sndL 2 then mPts m g.1.1 2
    else if g.2 = rcvL 0 then rcvPay m g.1.1 0 else if g.2 = rcvL 1 then rcvPay m g.1.1 1 else if g.2 = rcvL 2 then rcvPay m g.1.1 2
    else iprop(emp)
  amount_pos g _ _ _ := by
    by_cases h : g.2 = barL
    · rw [if_pos h]; exact Nat.one_pos
    · rw [if_neg h]; split
      · exact NL_pos
      · exact N_pos

/-! ## What each device owes at launch; the levels -/

/-- The three copies' credits on the receive cells ahead, summed so that copy 0 peels the last summand, -/
def OR (c : Dev nD) : CellTallies nD τ sig Unit :=
  tallyAt (rcvCell (pk c 2) 2) () N + tallyAt (rcvCell (pk c 1) 1) () N + tallyAt (rcvCell (pk c 0) 0) () N
/-- and over them the three barrier units, so that signal 0 peels the last, signal 1 the next, signal 2 the third. -/
def O₂ (c : Dev nD) : CellTallies nD τ sig Unit := OR c + tallyAt (barCell (pk c 2)) () 1
def O₁ (c : Dev nD) : CellTallies nD τ sig Unit := O₂ c + tallyAt (barCell (pk c 1)) () 1
def O₀ (c : Dev nD) : CellTallies nD τ sig Unit := O₁ c + tallyAt (barCell (pk c 0)) () 1

def L (g : GSem nD τ sig) : Finset Unit := if g.1.2 = .tc then {()} else ∅
/-- Barrier cells at level 1, receive cells at 2, every other cell (staging, load, send) at 0: a device waits on a load
    cell or its barrier cell owing only receive credits, and on a receive or send cell owing nothing. -/
def lv (g : GSem nD τ sig) (_ : Unit) : ℕ := if g.2 = barL then 1 else if g.2 = rcvL 0 ∨ g.2 = rcvL 1 ∨ g.2 = rcvL 2 then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state and the pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The invariants device `c`'s body opens, under the names `K` the launch allocated them at: its own nine cells', the
    barrier cells' of the three devices it signals, the receive cells' of the three slots it copies into. -/
def invs (K : Dev nD × Fin 9 → ℕ) (c : Dev nD) : sProp 𝕄 :=
  iprop(cellInv ER (sched m) (K (c, 0)) (barCell c)
    ∗ cellInv ER (sched m) (K (c, 1)) (ldCell c 0) ∗ cellInv ER (sched m) (K (c, 2)) (ldCell c 1)
    ∗ cellInv ER (sched m) (K (c, 3)) (sndCell c 0) ∗ cellInv ER (sched m) (K (c, 4)) (sndCell c 1) ∗ cellInv ER (sched m) (K (c, 5)) (sndCell c 2)
    ∗ cellInv ER (sched m) (K (c, 6)) (rcvCell c 0) ∗ cellInv ER (sched m) (K (c, 7)) (rcvCell c 1) ∗ cellInv ER (sched m) (K (c, 8)) (rcvCell c 2)
    ∗ cellInv ER (sched m) (K (pk c 0, 0)) (barCell (pk c 0)) ∗ cellInv ER (sched m) (K (pk c 1, 0)) (barCell (pk c 1)) ∗ cellInv ER (sched m) (K (pk c 2, 0)) (barCell (pk c 2))
    ∗ cellInv ER (sched m) (K (pk c 0, 6)) (rcvCell (pk c 0) 0) ∗ cellInv ER (sched m) (K (pk c 1, 7)) (rcvCell (pk c 1) 1) ∗ cellInv ER (sched m) (K (pk c 2, 8)) (rcvCell (pk c 2) 2))

instance invs_persistent (K : Dev nD × Fin 9 → ℕ) (c : Dev nD) : BI.Persistent (invs m K c) := by unfold invs; infer_instance

/-- Its positions at round 0 of its nine cells. -/
def posns (c : Dev nD) : sProp 𝕄 :=
  iprop(atPos ER (barCell c) 0 ∅ 0 ∗ atPos ER (ldCell c 0) 0 ∅ 0 ∗ atPos ER (ldCell c 1) 0 ∅ 0
    ∗ atPos ER (sndCell c 0) 0 ∅ 0 ∗ atPos ER (sndCell c 1) 0 ∅ 0 ∗ atPos ER (sndCell c 2) 0 ∅ 0
    ∗ atPos ER (rcvCell c 0) 0 ∅ 0 ∗ atPos ER (rcvCell c 1) 0 ∅ 0 ∗ atPos ER (rcvCell c 2) 0 ∅ 0)
/-- That round 0 is reached on the barrier cells it signals and on its own eight cells (its own receive cells' it hands
    on with its signals). -/
def marks (c : Dev nD) : sProp 𝕄 :=
  iprop(reached ER (barCell (pk c 0)) 0 ∗ reached ER (barCell (pk c 1)) 0 ∗ reached ER (barCell (pk c 2)) 0
    ∗ reached ER (ldCell c 0) 0 ∗ reached ER (ldCell c 1) 0
    ∗ reached ER (sndCell c 0) 0 ∗ reached ER (sndCell c 1) 0 ∗ reached ER (sndCell c 2) 0
    ∗ reached ER (rcvCell c 0) 0 ∗ reached ER (rcvCell c 1) 0 ∗ reached ER (rcvCell c 2) 0)
/-- The tokens of the eleven duties it pays: duty `k` of the barrier cell `k + 1` ahead, its two load duties, its three
    send duties, the receive duty of slot `k` on the device `k + 1` ahead. -/
def payToks (c : Dev nD) : sProp 𝕄 :=
  iprop(dutyTok ER (barCell (pk c 0)) 0 0 ∗ dutyTok ER (barCell (pk c 1)) 0 1 ∗ dutyTok ER (barCell (pk c 2)) 0 2
    ∗ dutyTok ER (ldCell c 0) 0 0 ∗ dutyTok ER (ldCell c 1) 0 0
    ∗ dutyTok ER (sndCell c 0) 0 0 ∗ dutyTok ER (sndCell c 1) 0 0 ∗ dutyTok ER (sndCell c 2) 0 0
    ∗ dutyTok ER (rcvCell (pk c 0) 0) 0 0 ∗ dutyTok ER (rcvCell (pk c 1) 1) 0 0 ∗ dutyTok ER (rcvCell (pk c 2) 2) 0 0)

instance marks_persistent (c : Dev nD) : BI.Persistent (marks (F := F) c) := by unfold marks; infer_instance

def ghost (K : Dev nD × Fin 9 → ℕ) (c : Dev nD) : sProp 𝕄 :=
  iprop(invs m K c ∗ posns c ∗ marks c ∗ payToks c)

/-- The credit others pay device `c`: its barrier's three units, its three receive cells' copies. -/
def creds (c : Dev nD) : sProp 𝕄 :=
  iprop(cred (tallyAt (barCell c) () 3) ∗ cred (tallyAt (rcvCell c 0) () N) ∗ cred (tallyAt (rcvCell c 1) () N) ∗ cred (tallyAt (rcvCell c 2) () N))

/-- `x`'s block on device `c`, held whole at the launch contents. -/
def xWhole (c : Dev nD) : sProp 𝕄 := ((c : Thread nD τ).loc main_arg0) ↦{fullShare} xA m c
/-- The three scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- The eight own counters at zero, in the launch's order. -/
def ownZero (c : Dev nD) : sProp 𝕄 :=
  iprop(semVal (ldCell c 0) 0 ∗ semVal (ldCell c 1) 0 ∗ semVal (sndCell c 0) 0 ∗ semVal (sndCell c 1) 0 ∗ semVal (sndCell c 2) 0
    ∗ semVal (rcvCell c 0) 0 ∗ semVal (rcvCell c 1) 0 ∗ semVal (rcvCell c 2) 0)

/-- What device `c`'s body starts from, the scratch apart. -/
def start (c : Dev nD) : sProp 𝕄 :=
  iprop((∃ K, ghost m K c) ∗ creds c ∗ levAts L lv ∗ xWhole m c)

def Φ₀ (c : Dev nD) : sProp 𝕄 := iprop(start m c ∗ scratch c)
/-- After the point: `x` whole and unchanged, the scratch whole, the eight own cells closed at zero. -/
def Φ₁ (c : Dev nD) : sProp 𝕄 := iprop(xWhole m c ∗ scratch c ∗ ownZero c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outV m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-- A staging buffer whole at contents `X`, as the body obligation hands it over. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body obligation's precondition on device `c`, and its postcondition. -/
def bodyPre (c : Dev nD) : sProp 𝕄 :=
  iprop(Φ₀ m c ∗ (dats m ρ 0 c).owesAt () t₀.castSucc ∗ (∃ d, stg c cc0_stg0_0 ((dats m ρ 0 c).before (0 : Fin 1) t₀ d)))
def bodyPost (c : Dev nD) : sProp 𝕄 :=
  iprop(Φ₁ m c ∗ (dats m ρ 0 c).owesAt () t₀.succ ∗ stg c cc0_stg0_0 (outV m c))

end Cert.Kernel.Proto

end
-- ==== Proof.W.Regions.lean ====
/-
  Cutting the buffers into the pieces the copies move, and putting them back. The block of x is held whole at two
  shares, each load's half carved out of one; the load scratch is cut into its two 512 x 512 slots and the receive
  scratch into its three 1 x 512 slots (with whatever of the buffer lies outside them); the partial sum's row is held at
  three shares, one per copy. A slot written whole holds the copied values whatever it held before, so each landing is
  the named contents; a whole-row store leaves exactly the stored row.
-/
import proofs.«900939_g7700000000000940_dist_mean_ax0_shard0_i_m1024_n512_v7x_i4_f32_1_alg».proof.Proof.W.Proto

noncomputable section

namespace Cert.Kernel.Regions

open Cert.Kernel Cert.Kernel.Gen Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (c : Dev nD)

/-! ## A slot's element set is its rectangle's; a view written whole forgets what it held -/

/-- Written whole, a view's own elements hold the payload, whatever the buffer held before. -/
theorem write_univ_congr {κ : Kind} {sp : Space} {s : Shape} {e : EltTy} (v : View sig κ sp s e)
    (f f' : v.ty.Contents (Elt F)) (w : s.Idx → Elt F e) :
    ∀ i ∈ v.set, v.write (Elt F) f w Finset.univ i = v.write (Elt F) f' w Finset.univ i := by
  intro i hi
  obtain ⟨y, -, rfl⟩ := Finset.mem_map.mp hi
  rw [View.write_emb_of_mem _ _ (Finset.mem_univ y), View.write_emb_of_mem _ _ (Finset.mem_univ y)]

theorem hz2 : (![0, 0] : Fin 2 → Nat) = fun _ => 0 := by
  funext a; fin_cases a <;> rfl

/-- A slot's elements are its rectangle's. -/
theorem vS0_set : vS0.view.set = (vR 0).set := by
  simp only [Memref.view_squeeze, Memref.view_slice, Memref.view_whole, View.set_reshape, View.set_slice_whole]
theorem vS1_set : vS1.view.set = (vR 1).set := by
  simp only [Memref.view_squeeze, Memref.view_slice, Memref.view_whole, View.set_reshape, View.set_slice_whole]
theorem cS0_set : cS0.view.set = (cR 0).set := by
  simp only [Memref.view_squeeze, Memref.view_slice, Memref.view_whole, View.set_reshape, View.set_slice_whole]
theorem cS1_set : cS1.view.set = (cR 1).set := by
  simp only [Memref.view_squeeze, Memref.view_slice, Memref.view_whole, View.set_reshape, View.set_slice_whole]
theorem cS2_set : cS2.view.set = (cR 2).set := by
  simp only [Memref.view_squeeze, Memref.view_slice, Memref.view_whole, View.set_reshape, View.set_slice_whole]

/-! ## The slots' element sets, by their first coordinate -/

/-- An element of slot 0 of the load scratch has first coordinate 0, -/
theorem vS0_coord {i : (cc0_scratch0 : Ref sig .tc).ty.Idx} (h : i ∈ vS0.view.set) : (i (0 : Fin 3)).val = 0 := by
  have e : vS0.view.set = (vR 0).set := (View.set_reshape _ _).trans (View.set_slice_whole cc0_scratch0 _)
  rw [e] at h
  have a : 0 ≤ (i (0 : Fin 3)).val ∧ (i (0 : Fin 3)).val < 0 + 1 := (Rect.mem_set_unit.mp h) (0 : Fin 3)
  omega

/-- and one of slot 1 has first coordinate 1. -/
theorem vS1_coord {i : (cc0_scratch0 : Ref sig .tc).ty.Idx} (h : i ∈ vS1.view.set) : (i (0 : Fin 3)).val = 1 := by
  have e : vS1.view.set = (vR 1).set := (View.set_reshape _ _).trans (View.set_slice_whole cc0_scratch0 _)
  rw [e] at h
  have a : 1 ≤ (i (0 : Fin 3)).val ∧ (i (0 : Fin 3)).val < 1 + 1 := (Rect.mem_set_unit.mp h) (0 : Fin 3)
  omega

/-- So slot 1 lies in what is left of the load scratch once slot 0 is carved out. -/
theorem vS1_sub : vS1.view.set ⊆ Finset.univ \ vS0.view.set := fun i hi =>
  Finset.mem_sdiff.mpr ⟨Finset.mem_univ _, fun h0 => by have := vS0_coord h0; have := vS1_coord hi; omega⟩

/-- An element of slot `k` of the receive scratch has first coordinate `k`: slot 0, -/
theorem cS0_coord {i : (cc0_scratch2 : Ref sig .tc).ty.Idx} (h : i ∈ cS0.view.set) : (i (0 : Fin 3)).val = 0 := by
  have e : cS0.view.set = (cR 0).set := (View.set_reshape _ _).trans (View.set_slice_whole cc0_scratch2 _)
  rw [e] at h
  have a : 0 ≤ (i (0 : Fin 3)).val ∧ (i (0 : Fin 3)).val < 0 + 1 := (Rect.mem_set_unit.mp h) (0 : Fin 3)
  omega

/-- slot 1, -/
theorem cS1_coord {i : (cc0_scratch2 : Ref sig .tc).ty.Idx} (h : i ∈ cS1.view.set) : (i (0 : Fin 3)).val = 1 := by
  have e : cS1.view.set = (cR 1).set := (View.set_reshape _ _).trans (View.set_slice_whole cc0_scratch2 _)
  rw [e] at h
  have a : 1 ≤ (i (0 : Fin 3)).val ∧ (i (0 : Fin 3)).val < 1 + 1 := (Rect.mem_set_unit.mp h) (0 : Fin 3)
  omega

/-- slot 2. -/
theorem cS2_coord {i : (cc0_scratch2 : Ref sig .tc).ty.Idx} (h : i ∈ cS2.view.set) : (i (0 : Fin 3)).val = 2 := by
  have e : cS2.view.set = (cR 2).set := (View.set_reshape _ _).trans (View.set_slice_whole cc0_scratch2 _)
  rw [e] at h
  have a : 2 ≤ (i (0 : Fin 3)).val ∧ (i (0 : Fin 3)).val < 2 + 1 := (Rect.mem_set_unit.mp h) (0 : Fin 3)
  omega

/-- So slot 1 lies in what is left of the receive scratch once slot 0 is carved out, -/
theorem cS1_sub : cS1.view.set ⊆ Finset.univ \ cS0.view.set := fun i hi =>
  Finset.mem_sdiff.mpr ⟨Finset.mem_univ _, fun h0 => by have := cS0_coord h0; have := cS1_coord hi; omega⟩

/-- and slot 2 in what is left once slots 0 and 1 are. -/
theorem cS2_sub : cS2.view.set ⊆ (Finset.univ \ cS0.view.set) \ cS1.view.set := fun i hi =>
  Finset.mem_sdiff.mpr ⟨Finset.mem_sdiff.mpr ⟨Finset.mem_univ _, fun h0 => by have := cS0_coord h0; have := cS2_coord hi; omega⟩,
    fun h1 => by have := cS1_coord h1; have := cS2_coord hi; omega⟩

/-! ## The block of `x`: two shares, a half carved out of each -/

/-- What is left of share `j` of the block once load `j`'s half is lent. -/
def xRest : Fin 2 → sProp 𝕄
  | 0 => ((c : Thread nD τ).loc main_arg0) ↦[Finset.univ \ xS0.view.set]{qx 0} xA m c
  | 1 => ((c : Thread nD τ).loc main_arg0) ↦[Finset.univ \ xS1.view.set]{qx 1} xA m c

theorem x_split : xWhole m c ⊢ iprop(xPts m c 0 ∗ xRest m c 0 ∗ xPts m c 1 ∗ xRest m c 1) := by
  simp only [xWhole, xPts, xRest, qx]
  iintro H
  ihave H' := (pointsTo_share (PosShare.mem_left_op_right fullShare)).1 $$ H
  icases H' with ⟨Hl, Hr⟩
  ihave Hl' := (pointsTo_split_subset (Finset.subset_univ xS0.view.set)).1 $$ Hl
  icases Hl' with ⟨H0, R0⟩
  ihave Hr' := (pointsTo_split_subset (Finset.subset_univ xS1.view.set)).1 $$ Hr
  icases Hr' with ⟨H1, R1⟩
  isplitl [H0]; · iexact H0
  isplitl [R0]; · iexact R0
  isplitl [H1]; · iexact H1
  iexact R1

theorem x_join : iprop(xPts m c 0 ∗ xRest m c 0 ∗ xPts m c 1 ∗ xRest m c 1) ⊢ xWhole m c := by
  simp only [xWhole, xPts, xRest, qx]
  iintro ⟨H0, R0, H1, R1⟩
  iapply (pointsTo_share (PosShare.mem_left_op_right fullShare)).2
  isplitl [H0 R0]
  · iapply (pointsTo_split_subset (Finset.subset_univ xS0.view.set)).2
    isplitl [H0]; · iexact H0
    iexact R0
  · iapply (pointsTo_split_subset (Finset.subset_univ xS1.view.set)).2
    isplitl [H1]; · iexact H1
    iexact R1

/-! ## The load scratch: two slots and the rest -/

def vRest (f : Buf (Elt F) ((c : Thread nD τ).loc cc0_scratch0)) : sProp 𝕄 :=
  ((c : Thread nD τ).loc cc0_scratch0) ↦[(Finset.univ \ vS0.view.set) \ vS1.view.set]{fullShare} f

theorem v_split (f : Buf (Elt F) ((c : Thread nD τ).loc cc0_scratch0)) :
    (((c : Thread nD τ).loc cc0_scratch0) ↦{fullShare} f : sProp 𝕄) ⊢ iprop(vPts c 0 f ∗ vPts c 1 f ∗ vRest c f) := by
  simp only [vPts, vRest]
  iintro H
  ihave Ha := (pointsTo_split_subset (Finset.subset_univ vS0.view.set)).1 $$ H
  icases Ha with ⟨H0, Hb⟩
  ihave Hc := (pointsTo_split_subset vS1_sub).1 $$ Hb
  icases Hc with ⟨H1, Hd⟩
  isplitl [H0]; · iexact H0
  isplitl [H1]; · iexact H1
  iexact Hd

theorem v_join (f0 f1 f : Buf (Elt F) ((c : Thread nD τ).loc cc0_scratch0)) :
    iprop(vPts c 0 f0 ∗ vPts c 1 f1 ∗ vRest c f)
      ⊢ (iprop(∃ g : Buf (Elt F) ((c : Thread nD τ).loc cc0_scratch0), ((c : Thread nD τ).loc cc0_scratch0) ↦{fullShare} g) : sProp 𝕄) := by
  simp only [vPts, vRest]
  iintro ⟨H0, H1, H⟩
  iexists (vS0.view.set.piecewise f0 (vS1.view.set.piecewise f1 f))
  iapply (pointsTo_join_subset (Finset.subset_univ vS0.view.set))
  isplitl [H0]; · iexact H0
  iapply (pointsTo_join_subset vS1_sub)
  isplitl [H1]; · iexact H1
  iexact H

/-! ## The receive scratch: three slots and the rest -/

def cRest (f : Buf (Elt F) ((c : Thread nD τ).loc cc0_scratch2)) : sProp 𝕄 :=
  ((c : Thread nD τ).loc cc0_scratch2) ↦[((Finset.univ \ cS0.view.set) \ cS1.view.set) \ cS2.view.set]{fullShare} f

theorem c_split (f : Buf (Elt F) ((c : Thread nD τ).loc cc0_scratch2)) :
    (((c : Thread nD τ).loc cc0_scratch2) ↦{fullShare} f : sProp 𝕄) ⊢ iprop(cPts c 0 f ∗ cPts c 1 f ∗ cPts c 2 f ∗ cRest c f) := by
  simp only [cPts, cRest]
  iintro H
  ihave Ha := (pointsTo_split_subset (Finset.subset_univ cS0.view.set)).1 $$ H
  icases Ha with ⟨H0, Hb⟩
  ihave Hc := (pointsTo_split_subset cS1_sub).1 $$ Hb
  icases Hc with ⟨H1, Hd⟩
  ihave He := (pointsTo_split_subset cS2_sub).1 $$ Hd
  icases He with ⟨H2, Hf⟩
  isplitl [H0]; · iexact H0
  isplitl [H1]; · iexact H1
  isplitl [H2]; · iexact H2
  iexact Hf

theorem c_join (f0 f1 f2 f : Buf (Elt F) ((c : Thread nD τ).loc cc0_scratch2)) :
    iprop(cPts c 0 f0 ∗ cPts c 1 f1 ∗ cPts c 2 f2 ∗ cRest c f)
      ⊢ (iprop(∃ g : Buf (Elt F) ((c : Thread nD τ).loc cc0_scratch2), ((c : Thread nD τ).loc cc0_scratch2) ↦{fullShare} g) : sProp 𝕄) := by
  simp only [cPts, cRest]
  iintro ⟨H0, H1, H2, H⟩
  iexists (cS0.view.set.piecewise f0 (cS1.view.set.piecewise f1 (cS2.view.set.piecewise f2 f)))
  iapply (pointsTo_join_subset (Finset.subset_univ cS0.view.set))
  isplitl [H0]; · iexact H0
  iapply (pointsTo_join_subset cS1_sub)
  isplitl [H1]; · iexact H1
  iapply (pointsTo_join_subset cS2_sub)
  isplitl [H2]; · iexact H2
  iexact H

/-! ## The partial sum's row: three shares -/

theorem m_split : (((c : Thread nD τ).loc cc0_scratch1) ↦{fullShare} mineV m c : sProp 𝕄) ⊢ iprop(mPts m c 0 ∗ mPts m c 1 ∗ mPts m c 2) := by
  have hs : mM.view.set = Finset.univ := View.set_whole cc0_scratch1
  unfold mPts
  rw [hs]
  simp only [qm]
  iintro H
  ihave H' := (pointsTo_share (PosShare.mem_left_op_right fullShare)).1 $$ H
  icases H' with ⟨Hl, Hr⟩
  ihave Hr' := (pointsTo_share (PosShare.mem_left_op_right fullShare.right)).1 $$ Hr
  icases Hr' with ⟨Hrl, Hrr⟩
  isplitl [Hl]; · iexact Hl
  isplitl [Hrl]; · iexact Hrl
  iexact Hrr

theorem m_join : iprop(mPts m c 0 ∗ mPts m c 1 ∗ mPts m c 2) ⊢ (((c : Thread nD τ).loc cc0_scratch1) ↦{fullShare} mineV m c : sProp 𝕄) := by
  have hs : mM.view.set = Finset.univ := View.set_whole cc0_scratch1
  unfold mPts
  rw [hs]
  simp only [qm]
  iintro ⟨Hl, Hrl, Hrr⟩
  iapply (pointsTo_share (PosShare.mem_left_op_right fullShare)).2
  isplitl [Hl]; · iexact Hl
  iapply (pointsTo_share (PosShare.mem_left_op_right fullShare.right)).2
  isplitl [Hrl]; · iexact Hrl
  iexact Hrr

/-! ## The loads' rectangles lie in the slots they read -/

theorem vload_sub0 : vM.view.setOn (vR 0).toLoadRect.set ⊆ vS0.view.set := by
  rw [vS0_set]; exact subset_of_eq Finset.map_refl
theorem vload_sub1 : vM.view.setOn (vR 1).toLoadRect.set ⊆ vS1.view.set := by
  rw [vS1_set]; exact subset_of_eq Finset.map_refl
theorem cload_sub0 : cM.view.setOn (cR 0).toLoadRect.set ⊆ cS0.view.set := by
  rw [cS0_set]; exact subset_of_eq Finset.map_refl
theorem cload_sub1 : cM.view.setOn (cR 1).toLoadRect.set ⊆ cS1.view.set := by
  rw [cS1_set]; exact subset_of_eq Finset.map_refl
theorem cload_sub2 : cM.view.setOn (cR 2).toLoadRect.set ⊆ cS2.view.set := by
  rw [cS2_set]; exact subset_of_eq Finset.map_refl

/-! ## Landings are the named contents, whatever the slot held -/

theorem ld_hpay0 (fd : Buf (Elt F) (vS0.view.loc (c : Thread nD τ))) :
    iprop((vS0.view.loc (c : Thread nD τ) ↦[vS0.view.set]{fullShare} (vS0.view.write (Elt F) fd (xS0.view.read (Elt F) (xA m c)) Finset.univ))
        ∗ (xS0.view.loc (c : Thread nD τ) ↦[xS0.view.set]{qx 0} xA m c))
      ⊢ ldPay m c 0 := by
  rw [pointsTo_congr (write_univ_congr vS0.view fd (m ((c : Thread nD τ).loc cc0_scratch0)) (xS0.view.read (Elt F) (xA m c)))]
  exact Entails.rfl
theorem ld_hpay1 (fd : Buf (Elt F) (vS1.view.loc (c : Thread nD τ))) :
    iprop((vS1.view.loc (c : Thread nD τ) ↦[vS1.view.set]{fullShare} (vS1.view.write (Elt F) fd (xS1.view.read (Elt F) (xA m c)) Finset.univ))
        ∗ (xS1.view.loc (c : Thread nD τ) ↦[xS1.view.set]{qx 1} xA m c))
      ⊢ ldPay m c 1 := by
  rw [pointsTo_congr (write_univ_congr vS1.view fd (m ((c : Thread nD τ).loc cc0_scratch0)) (xS1.view.read (Elt F) (xA m c)))]
  exact Entails.rfl
/-- Copy `k` of device `c` lands in slot `k` of the device `k + 1` ahead, whose slot `k` is fed by the device `k + 1` behind IT: `c`. -/
theorem rcv_hpay0 (fd : Buf (Elt F) (cS0.view.loc (pk c 0 : Thread nD τ))) :
    (cS0.view.loc (pk c 0 : Thread nD τ) ↦[cS0.view.set]{fullShare} (cS0.view.write (Elt F) fd (mM.view.read (Elt F) (mineV m c)) Finset.univ) : sProp 𝕄)
      ⊢ rcvPay m (pk c 0) 0 := by
  rw [pointsTo_congr (write_univ_congr cS0.view fd (m ((pk c 0 : Thread nD τ).loc cc0_scratch2)) (mM.view.read (Elt F) (mineV m c)))]
  unfold rcvPay cPts landv
  rw [bk_pk]
theorem rcv_hpay1 (fd : Buf (Elt F) (cS1.view.loc (pk c 1 : Thread nD τ))) :
    (cS1.view.loc (pk c 1 : Thread nD τ) ↦[cS1.view.set]{fullShare} (cS1.view.write (Elt F) fd (mM.view.read (Elt F) (mineV m c)) Finset.univ) : sProp 𝕄)
      ⊢ rcvPay m (pk c 1) 1 := by
  rw [pointsTo_congr (write_univ_congr cS1.view fd (m ((pk c 1 : Thread nD τ).loc cc0_scratch2)) (mM.view.read (Elt F) (mineV m c)))]
  unfold rcvPay cPts landv
  rw [bk_pk]
theorem rcv_hpay2 (fd : Buf (Elt F) (cS2.view.loc (pk c 2 : Thread nD τ))) :
    (cS2.view.loc (pk c 2 : Thread nD τ) ↦[cS2.view.set]{fullShare} (cS2.view.write (Elt F) fd (mM.view.read (Elt F) (mineV m c)) Finset.univ) : sProp 𝕄)
      ⊢ rcvPay m (pk c 2) 2 := by
  rw [pointsTo_congr (write_univ_congr cS2.view fd (m ((pk c 2 : Thread nD τ).loc cc0_scratch2)) (mM.view.read (Elt F) (mineV m c)))]
  unfold rcvPay cPts landv
  rw [bk_pk]

/-! ## Whole-row stores -/

theorem write_m (f w : (cc0_scratch1 : Ref sig .tc).ty.Contents (Elt F)) :
    ((mM.access mR : View sig .tc _ _ _).write (Elt F) f w Finset.univ) = w := Memref.write_access_unit_zero_univ (Elt F) cc0_scratch1 hz2 _ f w
theorem write_o (f w : (cc0_stg0_0 : Ref sig .tc).ty.Contents (Elt F)) :
    ((oM.access mR : View sig .tc _ _ _).write (Elt F) f w Finset.univ) = w := Memref.write_access_unit_zero_univ (Elt F) cc0_stg0_0 hz2 _ f w

/-- info: 'Cert.Kernel.Regions.rcv_hpay2' depends on axioms: [propext, Classical.choice, Quot.sound] -/
#guard_msgs in #print axioms rcv_hpay2
/-- info: 'Cert.Kernel.Regions.c_join' depends on axioms: [propext, Classical.choice, Quot.sound] -/
#guard_msgs in #print axioms c_join
/-- info: 'Cert.Kernel.Regions.x_join' depends on axioms: [propext, Classical.choice, Quot.sound] -/
#guard_msgs in #print axioms x_join

end Cert.Kernel.Regions

end
-- ==== Proof.W.Mid.lean ====
/-
  One device's body, cut at its barrier wait. Before the cut: the three signals, the two loads and their waits, the
  two column sums stored as the partial sum, the wait for the three units. After it: the three copies, the waits for
  the three landings and for the three sends, the four partial sums added and scaled into the result's staging row.
  What the device holds at the cut is stated once, so that the two halves are proved apart.
-/
import proofs.«900939_g7700000000000940_dist_mean_ax0_shard0_i_m1024_n512_v7x_i4_f32_1_alg».proof.Proof.W.Proto
import proofs.«900939_g7700000000000940_dist_mean_ax0_shard0_i_m1024_n512_v7x_i4_f32_1_alg».proof.Proof.W.Regions

noncomputable section

namespace Cert.Kernel.Mid

open Cert.Kernel Cert.Kernel.Gen Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.Kernel.Regions

/-- The precondition with the names `K` of the cells' invariants fixed. -/
def bodyPreK (K : Dev nD × Fin 9 → ℕ) (c : Dev nD) : sProp 𝕄 :=
  iprop(ghost m K c ∗ creds c ∗ levAts L lv ∗ xWhole m c ∗ scratch c
    ∗ (dats m ρ 0 c).owesAt () t₀.castSucc ∗ (∃ d, stg c cc0_stg0_0 ((dats m ρ 0 c).before (0 : Fin 1) t₀ d)))

/-- What device `c` holds once its barrier wait has returned: every invariant and mark; its positions on its send and
    receive cells; the tokens of the six duties its copies pay; the credit of its three receive cells; the three receive
    credits still owed; the two load cells closed; `x` whole again; the load scratch whole; the partial sum's row holding
    the partial sum; of its receive scratch only what lies outside the three slots (the slots are with the devices that
    copy into them); the slot it copies into on each device ahead, with that slot's receive cell known to be at round 0;
    and the result's staging row, untouched. -/
def mid (K : Dev nD × Fin 9 → ℕ) (c : Dev nD) : sProp 𝕄 :=
  iprop(invs m K c ∗ marks c ∗ levAts L lv
    ∗ (atPos ER (sndCell c 0) 0 ∅ 0 ∗ atPos ER (sndCell c 1) 0 ∅ 0 ∗ atPos ER (sndCell c 2) 0 ∅ 0
        ∗ atPos ER (rcvCell c 0) 0 ∅ 0 ∗ atPos ER (rcvCell c 1) 0 ∅ 0 ∗ atPos ER (rcvCell c 2) 0 ∅ 0)
    ∗ (dutyTok ER (sndCell c 0) 0 0 ∗ dutyTok ER (sndCell c 1) 0 0 ∗ dutyTok ER (sndCell c 2) 0 0
        ∗ dutyTok ER (rcvCell (pk c 0) 0) 0 0 ∗ dutyTok ER (rcvCell (pk c 1) 1) 0 0 ∗ dutyTok ER (rcvCell (pk c 2) 2) 0 0)
    ∗ (cred (tallyAt (rcvCell c 0) () N) ∗ cred (tallyAt (rcvCell c 1) () N) ∗ cred (tallyAt (rcvCell c 2) () N))
    ∗ (∃ W : Waits sig Unit, owes (c : Thread nD τ) (OR c) W)
    ∗ (semVal (ldCell c 0) 0 ∗ semVal (ldCell c 1) 0)
    ∗ xWhole m c
    ∗ (∃ g : Buf (Elt F) ((c : Thread nD τ).loc cc0_scratch0), ((c : Thread nD τ).loc cc0_scratch0) ↦{fullShare} g)
    ∗ (((c : Thread nD τ).loc cc0_scratch1) ↦{fullShare} mineV m c)
    ∗ (∃ f, cRest c f)
    ∗ ((∃ f, cPts (F := F) (pk c 0) 0 f) ∗ (∃ f, cPts (F := F) (pk c 1) 1 f) ∗ (∃ f, cPts (F := F) (pk c 2) 2 f))
    ∗ (reached ER (rcvCell (pk c 0) 0) 0 ∗ reached ER (rcvCell (pk c 1) 1) 0 ∗ reached ER (rcvCell (pk c 2) 2) 0)
    ∗ (∃ d, stg c cc0_stg0_0 ((dats m ρ 0 c).before (0 : Fin 1) t₀ d)))

/-- The rest of the body after its first two parts, as the printed function sequences it. -/
def restProg (d0 : Dev nD) (v2 v49 v50 : BitVec 32) : Prog (TpuEff nD τ sig (Elt F) Λ₀ .tc) PUnit := do
  let ⟨v59, v69⟩ : Σ' (v59 : BitVec 32), BitVec 32 ← k0_part3 (F := F) xM (Memref.isWhole_whole _) oM (hstage0_0 0) vM (Memref.isWhole_whole _) mM (Memref.isWhole_whole _) cM (Memref.isWhole_whole _) cc0_scratch3 cc0_scratch4 cc0_scratch5 d0 v2 v49 v50
  k0_part4 (F := F) xM (Memref.isWhole_whole _) oM (hstage0_0 0) vM (Memref.isWhole_whole _) mM (Memref.isWhole_whole _) cM (Memref.isWhole_whole _) cc0_scratch3 cc0_scratch4 cc0_scratch5 v59 v69
  let v104 : DmaSems sig S1 := cc0_scratch4.slice (Rect.unit (s := S3) ![2] S1.size inb_S3_S1_2)
  let v105 : DmaSems sig S_ := v104.squeeze S_ squeezes_S1_S_
  let v106 : Memref sig .tc .vmem S1x1x512 .f32 := cM.slice (Rect.unit (s := S3x1x512) ![2, 0, 0] S1x1x512.size inb_S3x1x512_S1x1x512_2_0_0) (fun _ => rfl)
  let v107 : Memref sig .tc .vmem S1x512 .f32 := v106.squeeze S1x512 squeezes_S1x1x512_S1x512
  Prog.lift (.waitDma2 v105.sem v107 mM ((View.wordExact_bits rfl).reshape _ _) (Memref.isWhole_whole _).wordExact)
  let v108 : Vec F S1x512 .f32 ← Prog.lift (.load mM (Rect.unit (s := S1x512) ![0, 0] S1x512.size inb_S1x512_S1x512_0_0).toLoadRect (View.loadsAt_vmem h_S1x512))
  let v109 : Vec F S1x1x512 .f32 ← Prog.lift (.load cM (Rect.unit (s := S3x1x512) ![0, 0, 0] S1x1x512.size inb_S3x1x512_S1x1x512_0_0_0).toLoadRect (View.loadsAt_vmem h_S1x1x512))
  let v112 : Vec F S1x1x512 .f32 ← Prog.lift (.load cM (Rect.unit (s := S3x1x512) ![1, 0, 0] S1x1x512.size inb_S3x1x512_S1x1x512_1_0_0).toLoadRect (View.loadsAt_vmem h_S1x1x512))
  let v115 : Vec F S1x1x512 .f32 ← Prog.lift (.load cM (Rect.unit (s := S3x1x512) ![2, 0, 0] S1x1x512.size inb_S3x1x512_S1x1x512_2_0_0).toLoadRect (View.loadsAt_vmem h_S1x1x512))
  let v120 : Vec F S1x512 .f32 ← Prog.lift (.load oM (Rect.unit (s := S1x512) ![0, 0] S1x512.size inb_S1x512_S1x512_0_0).toLoadRect (View.loadsAt_vmem h_S1x512))
  Prog.lift (.store oM (Rect.unit (s := S1x512) ![0, 0] S1x512.size inb_S1x512_S1x512_0_0) (k0_pay1 v108 v109 v112 v115) Finset.univ (View.stores_vmem_bits_univ h_S1x512 rfl) (.inl rfl))
  pure ⟨⟩

/-- The printed body is its first two parts followed by the rest. -/
theorem body_split :
    cc0_body (F := F) xM (Memref.isWhole_whole _) oM (hstage0_0 0) vM (Memref.isWhole_whole _) mM (Memref.isWhole_whole _) cM (Memref.isWhole_whole _) cc0_scratch3 cc0_scratch4 cc0_scratch5
      = (k0_part1 (F := F) xM (Memref.isWhole_whole _) oM (hstage0_0 0) vM (Memref.isWhole_whole _) mM (Memref.isWhole_whole _) cM (Memref.isWhole_whole _) cc0_scratch3 cc0_scratch4 cc0_scratch5 >>= fun r1 =>
          k0_part2 (F := F) xM (Memref.isWhole_whole _) oM (hstage0_0 0) vM (Memref.isWhole_whole _) mM (Memref.isWhole_whole _) cM (Memref.isWhole_whole _) cc0_scratch3 cc0_scratch4 cc0_scratch5 r1.2.1 r1.2.2 >>= fun r2 =>
            restProg (F := F) r1.1 r1.2.1 r2.1 r2.2) := by
  rw [cc0_body_eq_skeleton]; rfl

end Cert.Kernel.Mid

end
-- ==== Proof.W.Tables.lean ====
/-
  The schedule's tables, cell by cell: which duties round 0 has, what each contributes and hands over, what a wait
  for the whole round expects and brings back; no round after round 0 has a duty. And the order of the waits: a
  device waits on a staging, load or barrier cell owing only units on cells of a strictly higher level.
-/
import proofs.«900939_g7700000000000940_dist_mean_ax0_shard0_i_m1024_n512_v7x_i4_f32_1_alg».proof.Proof.W.Proto

noncomputable section

namespace Cert.Kernel.Tables

open Cert.Kernel Cert.Kernel.Gen Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### Every payload can be stored in a cell's invariant -/
instance vPts_storable (c : Dev nD) (j : Fin 2) (f : Buf (Elt F) ((c : Thread nD τ).loc cc0_scratch0)) :
    BI.Storable (upEmb : UEmb _ 𝕄) (vPts (F := F) c j f) := by
  match j with
  | 0 => unfold vPts; infer_instance
  | 1 => unfold vPts; infer_instance
instance cPts_storable (c : Dev nD) (k : Fin 3) (f : Buf (Elt F) ((c : Thread nD τ).loc cc0_scratch2)) :
    BI.Storable (upEmb : UEmb _ 𝕄) (cPts (F := F) c k f) := by
  match k with
  | 0 => unfold cPts; infer_instance
  | 1 => unfold cPts; infer_instance
  | 2 => unfold cPts; infer_instance
instance xPts_storable (c : Dev nD) (j : Fin 2) : BI.Storable (upEmb : UEmb _ 𝕄) (xPts (F := F) m c j) := by
  match j with
  | 0 => unfold xPts; infer_instance
  | 1 => unfold xPts; infer_instance
instance mPts_storable (c : Dev nD) (k : Fin 3) : BI.Storable (upEmb : UEmb _ 𝕄) (mPts (F := F) m c k) := by
  unfold mPts; infer_instance
instance barPay_storable (c : Dev nD) (d : Fin 3) : BI.Storable (upEmb : UEmb _ 𝕄) (barPay (F := F) c d) := by
  match d with
  | 0 => unfold barPay; infer_instance
  | 1 => unfold barPay; infer_instance
  | 2 => unfold barPay; infer_instance
instance ldPay_storable (c : Dev nD) (j : Fin 2) : BI.Storable (upEmb : UEmb _ 𝕄) (ldPay (F := F) m c j) := by
  unfold ldPay; infer_instance
instance rcvPay_storable (c : Dev nD) (k : Fin 3) : BI.Storable (upEmb : UEmb _ 𝕄) (rcvPay (F := F) m c k) := by
  unfold rcvPay; infer_instance

instance sched_payload_storable (g : GSem nD τ sig) (r : ℕ) (d : Fin 3) :
    BI.Storable (upEmb : UEmb _ 𝕄) ((sched (F := F) m).payload g r d) := by
  dsimp only [sched]
  (repeat' split) <;> infer_instance

section Sched
variable (c : Dev nD)

/-! ### The nine semaphores are pairwise distinct -/
theorem ld_ne_bar (j : Fin 2) : (ldL j : SemLoc sig) ≠ barL := fun h => by cases h
theorem snd_ne_bar (k : Fin 3) : (sndL k : SemLoc sig) ≠ barL := fun h => by cases h
theorem rcv_ne_bar (k : Fin 3) : (rcvL k : SemLoc sig) ≠ barL := fun h => by cases h
theorem osem_injective : Function.Injective (osem : Fin 8 → SemLoc sig) := by decide
theorem csem_injective : Function.Injective (csem : Fin 9 → SemLoc sig) := by decide
theorem ld1_ne_ld0 : (ldL 1 : SemLoc sig) ≠ ldL 0 := by decide
theorem snd_ne_ld (k : Fin 3) (j : Fin 2) : (sndL k : SemLoc sig) ≠ ldL j := by revert k j; decide
theorem rcv_ne_ld (k : Fin 3) (j : Fin 2) : (rcvL k : SemLoc sig) ≠ ldL j := by revert k j; decide
theorem ld_ne_rcv (j : Fin 2) (k : Fin 3) : (ldL j : SemLoc sig) ≠ rcvL k := by revert j k; decide
theorem rcv_ne_snd (k k' : Fin 3) : (rcvL k : SemLoc sig) ≠ sndL k' := by revert k k'; decide
theorem sndL_injective : Function.Injective (sndL : Fin 3 → SemLoc sig) := by decide
theorem rcvL_injective : Function.Injective (rcvL : Fin 3 → SemLoc sig) := by decide
/-- Each load, send and receive semaphore is one of the eight own semaphores. -/
theorem own_ld (j : Fin 2) : IsOwn (ldL j) := match j with | 0 => ⟨0, rfl⟩ | 1 => ⟨1, rfl⟩
theorem own_snd (k : Fin 3) : IsOwn (sndL k) := match k with | 0 => ⟨2, rfl⟩ | 1 => ⟨3, rfl⟩ | 2 => ⟨4, rfl⟩
theorem own_rcv (k : Fin 3) : IsOwn (rcvL k) := match k with | 0 => ⟨5, rfl⟩ | 1 => ⟨6, rfl⟩ | 2 => ⟨7, rfl⟩
theorem ld_is_ld (j : Fin 2) : (ldL j : SemLoc sig) = ldL 0 ∨ (ldL j : SemLoc sig) = ldL 1 :=
  match j with | 0 => .inl rfl | 1 => .inr rfl
theorem rcv_is_rcv (k : Fin 3) : (rcvL k : SemLoc sig) = rcvL 0 ∨ (rcvL k : SemLoc sig) = rcvL 1 ∨ (rcvL k : SemLoc sig) = rcvL 2 :=
  match k with | 0 => .inl rfl | 1 => .inr (.inl rfl) | 2 => .inr (.inr rfl)

/-! ### Duties -/
theorem duties_bar : (sched (F := F) m).duties (barCell c) 0 = Finset.univ := by
  dsimp only [sched]; rw [if_pos ⟨rfl, rfl⟩, if_pos rfl]
theorem duties_ld (j : Fin 2) : (sched (F := F) m).duties (ldCell c j) 0 = {0} := by
  dsimp only [sched]; rw [if_pos ⟨rfl, rfl⟩, if_neg (ld_ne_bar j), if_pos (own_ld j)]
theorem duties_snd (k : Fin 3) : (sched (F := F) m).duties (sndCell c k) 0 = {0} := by
  dsimp only [sched]; rw [if_pos ⟨rfl, rfl⟩, if_neg (snd_ne_bar k), if_pos (own_snd k)]
theorem duties_rcv (k : Fin 3) : (sched (F := F) m).duties (rcvCell c k) 0 = {0} := by
  dsimp only [sched]; rw [if_pos ⟨rfl, rfl⟩, if_neg (rcv_ne_bar k), if_pos (own_rcv k)]
theorem duties_later (g : GSem nD τ sig) : ∀ r, 1 ≤ r → (sched (F := F) m).duties g r = ∅ :=
  fun r hr => by dsimp only [sched]; rw [if_neg fun h => by have := h.1; omega]

/-! ### Amounts and what a whole round expects -/
theorem amount_bar (d : Fin 3) : (sched (F := F) m).amount (barCell c) 0 d = 1 := by dsimp only [sched]; exact if_pos rfl
theorem amount_ld (j : Fin 2) (d : Fin 3) : (sched (F := F) m).amount (ldCell c j) 0 d = NL := by
  dsimp only [sched]; rw [if_neg (ld_ne_bar j), if_pos (ld_is_ld j)]
theorem amount_snd (k : Fin 3) (d : Fin 3) : (sched (F := F) m).amount (sndCell c k) 0 d = N := by
  dsimp only [sched]; rw [if_neg (snd_ne_bar k), if_neg (not_or.mpr ⟨snd_ne_ld k 0, snd_ne_ld k 1⟩)]
theorem amount_rcv (k : Fin 3) (d : Fin 3) : (sched (F := F) m).amount (rcvCell c k) 0 d = N := by
  dsimp only [sched]; rw [if_neg (rcv_ne_bar k), if_neg (not_or.mpr ⟨rcv_ne_ld k 0, rcv_ne_ld k 1⟩)]
theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_ld (j : Fin 2) : (sched (F := F) m).expect (ldCell c j) 0 = NL := by
  unfold Schedule.expect Schedule.amountOf; rw [duties_ld, Finset.sum_singleton, amount_ld]
theorem expect_snd (k : Fin 3) : (sched (F := F) m).expect (sndCell c k) 0 = N := by
  unfold Schedule.expect Schedule.amountOf; rw [duties_snd, Finset.sum_singleton, amount_snd]
theorem expect_rcv (k : Fin 3) : (sched (F := F) m).expect (rcvCell c k) 0 = N := by
  unfold Schedule.expect Schedule.amountOf; rw [duties_rcv, Finset.sum_singleton, amount_rcv]

/-! ### Payloads -/
theorem payload_bar (d : Fin 3) : (sched (F := F) m).payload (barCell c) 0 d = barPay c d := by dsimp only [sched]; exact if_pos rfl
theorem payload_ld (j : Fin 2) (d : Fin 3) : (sched (F := F) m).payload (ldCell c j) 0 d = ldPay m c j := by
  match j with
  | 0 => dsimp only [sched]; rw [if_neg (ld_ne_bar 0), if_pos rfl]
  | 1 => dsimp only [sched]; rw [if_neg (ld_ne_bar 1), if_neg ld1_ne_ld0, if_pos rfl]
theorem payload_snd (k : Fin 3) (d : Fin 3) : (sched (F := F) m).payload (sndCell c k) 0 d = mPts m c k := by
  match k with
  | 0 => dsimp only [sched]; rw [if_neg (snd_ne_bar 0), if_neg (snd_ne_ld 0 0), if_neg (snd_ne_ld 0 1), if_pos rfl]
  | 1 =>
    dsimp only [sched]
    rw [if_neg (snd_ne_bar 1), if_neg (snd_ne_ld 1 0), if_neg (snd_ne_ld 1 1), if_neg (sndL_injective.ne (by decide)), if_pos rfl]
  | 2 =>
    dsimp only [sched]
    rw [if_neg (snd_ne_bar 2), if_neg (snd_ne_ld 2 0), if_neg (snd_ne_ld 2 1), if_neg (sndL_injective.ne (by decide)),
      if_neg (sndL_injective.ne (by decide)), if_pos rfl]
theorem payload_rcv (k : Fin 3) (d : Fin 3) : (sched (F := F) m).payload (rcvCell c k) 0 d = rcvPay m c k := by
  match k with
  | 0 =>
    dsimp only [sched]
    rw [if_neg (rcv_ne_bar 0), if_neg (rcv_ne_ld 0 0), if_neg (rcv_ne_ld 0 1), if_neg (rcv_ne_snd 0 0), if_neg (rcv_ne_snd 0 1),
      if_neg (rcv_ne_snd 0 2), if_pos rfl]
  | 1 =>
    dsimp only [sched]
    rw [if_neg (rcv_ne_bar 1), if_neg (rcv_ne_ld 1 0), if_neg (rcv_ne_ld 1 1), if_neg (rcv_ne_snd 1 0), if_neg (rcv_ne_snd 1 1),
      if_neg (rcv_ne_snd 1 2), if_neg (rcvL_injective.ne (by decide)), if_pos rfl]
  | 2 =>
    dsimp only [sched]
    rw [if_neg (rcv_ne_bar 2), if_neg (rcv_ne_ld 2 0), if_neg (rcv_ne_ld 2 1), if_neg (rcv_ne_snd 2 0), if_neg (rcv_ne_snd 2 1),
      if_neg (rcv_ne_snd 2 2), if_neg (rcvL_injective.ne (by decide)), if_neg (rcvL_injective.ne (by decide)), if_pos rfl]

/-! ### The rest of a round of which no duty has been taken -/
theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
theorem rest_ld (j : Fin 2) : bigSep ((sched (F := F) m).duties (ldCell c j) 0 \ ∅) (fun d => (sched (F := F) m).payload (ldCell c j) 0 d)
    = ldPay m c j := by
  rw [Finset.sdiff_empty, duties_ld, bigSep_singleton, payload_ld]
theorem rest_snd (k : Fin 3) : bigSep ((sched (F := F) m).duties (sndCell c k) 0 \ ∅) (fun d => (sched (F := F) m).payload (sndCell c k) 0 d)
    = mPts m c k := by
  rw [Finset.sdiff_empty, duties_snd, bigSep_singleton, payload_snd]
theorem rest_rcv (k : Fin 3) : bigSep ((sched (F := F) m).duties (rcvCell c k) 0 \ ∅) (fun d => (sched (F := F) m).payload (rcvCell c k) 0 d)
    = rcvPay m c k := by
  rw [Finset.sdiff_empty, duties_rcv, bigSep_singleton, payload_rcv]

end Sched

/-! ## Where the owed tallies sit -/

theorem OR_pos {c : Dev nD} {g : GSem nD τ sig} {u : Unit} (h : 0 < OR c g u) :
    g = rcvCell (pk c 2) 2 ∨ g = rcvCell (pk c 1) 1 ∨ g = rcvCell (pk c 0) 0 := by
  unfold OR at h
  rw [Pi.add_apply, Finsupp.add_apply, Pi.add_apply, Finsupp.add_apply, tallyAt_apply, tallyAt_apply, tallyAt_apply] at h
  by_contra hn
  have h2 : g ≠ rcvCell (pk c 2) 2 := fun e => hn (.inl e)
  have h1 : g ≠ rcvCell (pk c 1) 1 := fun e => hn (.inr (.inl e))
  have h0 : g ≠ rcvCell (pk c 0) 0 := fun e => hn (.inr (.inr e))
  rw [if_neg (fun h' => h2 h'.1), if_neg (fun h' => h1 h'.1), if_neg (fun h' => h0 h'.1)] at h
  exact Nat.lt_irrefl 0 h
theorem O₀_pos {c : Dev nD} {g : GSem nD τ sig} {u : Unit} (h : 0 < O₀ c g u) :
    (g = rcvCell (pk c 2) 2 ∨ g = rcvCell (pk c 1) 1 ∨ g = rcvCell (pk c 0) 0)
      ∨ g = barCell (pk c 2) ∨ g = barCell (pk c 1) ∨ g = barCell (pk c 0) := by
  unfold O₀ O₁ O₂ at h
  rw [Pi.add_apply, Finsupp.add_apply, Pi.add_apply, Finsupp.add_apply, Pi.add_apply, Finsupp.add_apply, tallyAt_apply, tallyAt_apply,
    tallyAt_apply] at h
  by_contra hn
  have hR : OR c g u = 0 := Nat.eq_zero_of_not_pos fun hp => hn (.inl (OR_pos hp))
  have h2 : g ≠ barCell (pk c 2) := fun e => hn (.inr (.inl e))
  have h1 : g ≠ barCell (pk c 1) := fun e => hn (.inr (.inr (.inl e)))
  have h0 : g ≠ barCell (pk c 0) := fun e => hn (.inr (.inr (.inr e)))
  rw [hR, if_neg (fun h' => h2 h'.1), if_neg (fun h' => h1 h'.1), if_neg (fun h' => h0 h'.1)] at h
  exact Nat.lt_irrefl 0 h

/-! ## The waits' level evidence -/

/-- The pipeline's waits on a staging semaphore (no protocol cell: level 0), owing everything or nothing. -/
theorem mayWait_stage (c : Dev nD) (q : DmaSem sig) (hq : (SemLoc.dma q : SemLoc sig) ≠ rcvL 0 ∧ (SemLoc.dma q : SemLoc sig) ≠ rcvL 1 ∧ (SemLoc.dma q : SemLoc sig) ≠ rcvL 2)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with (rfl | rfl | rfl) | rfl | rfl | rfl <;> exact Finset.mem_singleton_self _)
      (fun p hp => by
        rw [Finset.mem_singleton.mp hp]; dsimp only [lv]
        rw [if_neg (fun h => by cases h), if_neg (not_or.mpr ⟨hq.1, not_or.mpr ⟨hq.2.1, hq.2.2⟩⟩)])
      (fun g u hg => by
        rcases O₀_pos hg with (rfl | rfl | rfl) | rfl | rfl | rfl
        · dsimp only [lv]; rw [if_neg (rcv_ne_bar 2), if_pos (rcv_is_rcv 2)]; decide
        · dsimp only [lv]; rw [if_neg (rcv_ne_bar 1), if_pos (rcv_is_rcv 1)]; decide
        · dsimp only [lv]; rw [if_neg (rcv_ne_bar 0), if_pos (rcv_is_rcv 0)]; decide
        · dsimp only [lv]; rw [if_pos rfl]; decide
        · dsimp only [lv]; rw [if_pos rfl]; decide
        · dsimp only [lv]; rw [if_pos rfl]; decide)
  · rw [MayWait_zero]; iintro -; iempintro
/-- A load wait (level 0), the three receive credits still owed. -/
theorem mayWait_ld (c : Dev nD) (j : Fin 2) :
    (levAts L lv : sProp 𝕄) ⊢ MayWait (c : Thread nD τ) (ldL j) () (OR c) :=
  MayOwe.of_cut (L := L) (lev := lv) 0 (fun p hp => by rw [Finset.mem_singleton.mp hp, L_tc]; exact Finset.mem_singleton_self _)
    (fun g u hg => by rcases OR_pos hg with rfl | rfl | rfl <;> exact Finset.mem_singleton_self _)
    (fun p hp => by
      rw [Finset.mem_singleton.mp hp]; dsimp only [lv]
      rw [if_neg (ld_ne_bar j), if_neg (not_or.mpr ⟨ld_ne_rcv j 0, not_or.mpr ⟨ld_ne_rcv j 1, ld_ne_rcv j 2⟩⟩)])
    (fun g u hg => by
      rcases OR_pos hg with rfl | rfl | rfl
      · dsimp only [lv]; rw [if_neg (rcv_ne_bar 2), if_pos (rcv_is_rcv 2)]; decide
      · dsimp only [lv]; rw [if_neg (rcv_ne_bar 1), if_pos (rcv_is_rcv 1)]; decide
      · dsimp only [lv]; rw [if_neg (rcv_ne_bar 0), if_pos (rcv_is_rcv 0)]; decide)
/-- The barrier wait (level 1), the three receive credits (level 2) still owed. -/
theorem mayWait_bar (c : Dev nD) :
    (levAts L lv : sProp 𝕄) ⊢ MayWait (c : Thread nD τ) barL () (OR c) :=
  MayOwe.of_cut (L := L) (lev := lv) 1 (fun p hp => by rw [Finset.mem_singleton.mp hp, L_tc]; exact Finset.mem_singleton_self _)
    (fun g u hg => by rcases OR_pos hg with rfl | rfl | rfl <;> exact Finset.mem_singleton_self _)
    (fun p hp => by rw [Finset.mem_singleton.mp hp]; dsimp only [lv]; rw [if_pos rfl])
    (fun g u hg => by
      rcases OR_pos hg with rfl | rfl | rfl
      · dsimp only [lv]; rw [if_neg (rcv_ne_bar 2), if_pos (rcv_is_rcv 2)]; decide
      · dsimp only [lv]; rw [if_neg (rcv_ne_bar 1), if_pos (rcv_is_rcv 1)]; decide
      · dsimp only [lv]; rw [if_neg (rcv_ne_bar 0), if_pos (rcv_is_rcv 0)]; decide)

/-- info: 'Cert.Kernel.Tables.sched_payload_storable' depends on axioms: [propext, Classical.choice, Quot.sound] -/
#guard_msgs in #print axioms sched_payload_storable

/-- info: 'Cert.Kernel.Tables.rest_bar' depends on axioms: [propext, Classical.choice, Quot.sound] -/
#guard_msgs in #print axioms rest_bar

/-- info: 'Cert.Kernel.Tables.mayWait_stage' depends on axioms: [propext, Classical.choice, Quot.sound] -/
#guard_msgs in #print axioms mayWait_stage

/-- info: 'Cert.Kernel.Tables.mayWait_ld' depends on axioms: [propext, Classical.choice, Quot.sound] -/
#guard_msgs in #print axioms mayWait_ld

/-- info: 'Cert.Kernel.Tables.mayWait_bar' depends on axioms: [propext, Classical.choice, Quot.sound] -/
#guard_msgs in #print axioms mayWait_bar

end Cert.Kernel.Tables

end
-- ==== Proof.W.BodyA.lean ====
/-
  The first half of one device's body: its three signals, each handing the signalled device the slot it will copy
  into; the two loads of the halves of its block, waited for in turn; the two column sums added into the partial
  sum's row; the wait for the three units of its own barrier cell, which bring the three slots it copies into.
-/
import proofs.«900939_g7700000000000940_dist_mean_ax0_shard0_i_m1024_n512_v7x_i4_f32_1_alg».proof.Proof.W.Proto
import proofs.«900939_g7700000000000940_dist_mean_ax0_shard0_i_m1024_n512_v7x_i4_f32_1_alg».proof.Proof.W.Tables
import proofs.«900939_g7700000000000940_dist_mean_ax0_shard0_i_m1024_n512_v7x_i4_f32_1_alg».proof.Proof.W.Regions
import proofs.«900939_g7700000000000940_dist_mean_ax0_shard0_i_m1024_n512_v7x_i4_f32_1_alg».proof.Proof.W.Mid

noncomputable section

namespace Cert.Kernel.BodyA

open Cert.Kernel Cert.Kernel.Gen Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.Kernel.Regions Cert.Kernel.Tables Cert.Kernel.Mid

variable (K : Dev nD × Fin 9 → ℕ) (c : Dev nD)

open Idealize.ShloMosaic.Tactic

/-- The unit a device sends the barrier cell `k + 1` places ahead hands over its own slot `2 - k`. -/
theorem barPay_pk0 : barPay (F := F) (pk c 0) 0 = iprop((∃ f, cPts (F := F) c 2 f) ∗ reached ER (rcvCell c 2) 0) := by
  show iprop((∃ f, cPts (F := F) (pk (pk c 0) 2) 2 f) ∗ reached ER (rcvCell (pk (pk c 0) 2) 2) 0) = _
  rw [show pk (pk c 0) 2 = c from pk_pk_rev c 0]
theorem barPay_pk1 : barPay (F := F) (pk c 1) 1 = iprop((∃ f, cPts (F := F) c 1 f) ∗ reached ER (rcvCell c 1) 0) := by
  show iprop((∃ f, cPts (F := F) (pk (pk c 1) 1) 1 f) ∗ reached ER (rcvCell (pk (pk c 1) 1) 1) 0) = _
  rw [show pk (pk c 1) 1 = c from pk_pk_rev c 1]
theorem barPay_pk2 : barPay (F := F) (pk c 2) 2 = iprop((∃ f, cPts (F := F) c 0 f) ∗ reached ER (rcvCell c 0) 0) := by
  show iprop((∃ f, cPts (F := F) (pk (pk c 2) 0) 0 f) ∗ reached ER (rcvCell (pk (pk c 2) 0) 0) 0) = _
  rw [show pk (pk c 2) 0 = c from pk_pk_rev c 2]

theorem payload_bar_pk0 : (sched (F := F) m).payload (barCell (pk c 0)) 0 0
    = iprop((∃ f, cS2.view.loc (c : Thread nD τ) ↦[cS2.view.set]{fullShare} f) ∗ reached ER (rcvCell c 2) 0) := by
  rw [payload_bar, barPay_pk0]; rfl
theorem payload_bar_pk1 : (sched (F := F) m).payload (barCell (pk c 1)) 0 1
    = iprop((∃ f, cS1.view.loc (c : Thread nD τ) ↦[cS1.view.set]{fullShare} f) ∗ reached ER (rcvCell c 1) 0) := by
  rw [payload_bar, barPay_pk1]; rfl
theorem payload_bar_pk2 : (sched (F := F) m).payload (barCell (pk c 2)) 0 2
    = iprop((∃ f, cS0.view.loc (c : Thread nD τ) ↦[cS0.view.set]{fullShare} f) ∗ reached ER (rcvCell c 0) 0) := by
  rw [payload_bar, barPay_pk2]; rfl

attribute [local sl_rounds] duties_bar amount_bar payload_bar_pk0 payload_bar_pk1 payload_bar_pk2 expect_bar duties_ld amount_ld expect_ld payload_ld
attribute [local sl_canon] dev1_eq dev2_eq dev3_eq

/-- The receive scratch cut into its slots, named as the signals hand them over: slot 2 first. -/
theorem c_split' (f : Buf (Elt F) ((c : Thread nD τ).loc cc0_scratch2)) :
    (((c : Thread nD τ).loc cc0_scratch2) ↦{fullShare} f : sProp 𝕄)
      ⊢ iprop((cS2.view.loc (c : Thread nD τ) ↦[cS2.view.set]{fullShare} f) ∗ (cS1.view.loc (c : Thread nD τ) ↦[cS1.view.set]{fullShare} f)
          ∗ (cS0.view.loc (c : Thread nD τ) ↦[cS0.view.set]{fullShare} f) ∗ cRest c f) := by
  refine (c_split c f).trans ?_
  show iprop((cS0.view.loc (c : Thread nD τ) ↦[cS0.view.set]{fullShare} f) ∗ (cS1.view.loc (c : Thread nD τ) ↦[cS1.view.set]{fullShare} f)
          ∗ (cS2.view.loc (c : Thread nD τ) ↦[cS2.view.set]{fullShare} f) ∗ cRest c f) ⊢ _
  iintro ⟨H0, H1, H2, HR⟩
  isplitl [H2]; · iexact H2
  isplitl [H1]; · iexact H1
  isplitl [H0]; · iexact H0
  iexact HR

/-- The block of `x` and the load scratch cut into the halves and slots the two loads move, as points-tos. -/
theorem x_split' : xWhole m c
      ⊢ iprop((xS0.view.loc (c : Thread nD τ) ↦[xS0.view.set]{qx 0} xA m c) ∗ xRest m c 0
          ∗ (xS1.view.loc (c : Thread nD τ) ↦[xS1.view.set]{qx 1} xA m c) ∗ xRest m c 1) := x_split m c
theorem v_split' (f : Buf (Elt F) ((c : Thread nD τ).loc cc0_scratch0)) :
    (((c : Thread nD τ).loc cc0_scratch0) ↦{fullShare} f : sProp 𝕄)
      ⊢ iprop((vS0.view.loc (c : Thread nD τ) ↦[vS0.view.set]{fullShare} f) ∗ (vS1.view.loc (c : Thread nD τ) ↦[vS1.view.set]{fullShare} f)
          ∗ vRest c f) := v_split c f

/-- What the wait for a load's round brings, as points-tos: the slot at the loaded half and the lent share of that half back. -/
theorem rest_ld0' : bigSep ((sched (F := F) m).duties (ldCell c 0) 0) (fun d => (sched (F := F) m).payload (ldCell c 0) 0 d)
    = iprop((vS0.view.loc (c : Thread nD τ) ↦[vS0.view.set]{fullShare} ldv m c 0) ∗ (xS0.view.loc (c : Thread nD τ) ↦[xS0.view.set]{qx 0} xA m c)) := by
  rw [duties_ld, bigSep_singleton, payload_ld]; rfl
theorem rest_ld1' : bigSep ((sched (F := F) m).duties (ldCell c 1) 0) (fun d => (sched (F := F) m).payload (ldCell c 1) 0 d)
    = iprop((vS1.view.loc (c : Thread nD τ) ↦[vS1.view.set]{fullShare} ldv m c 1) ∗ (xS1.view.loc (c : Thread nD τ) ↦[xS1.view.set]{qx 1} xA m c)) := by
  rw [duties_ld, bigSep_singleton, payload_ld]; rfl

/-- The row after the store holds the partial sum as it is named. -/
theorem mine_eq (f : (cc0_scratch1 : Ref sig .tc).ty.Contents (Elt F)) :
    mM.view.writes (Elt F) f [⟨mR, k0_pay2 (vM.view.readAt (Elt F) (vR 0).toLoadRect (ldv m c 0)) (vM.view.readAt (Elt F) (vR 1).toLoadRect (ldv m c 1))⟩]
      = mineV m c := write_m f (mineV m c)

/-- The slots and halves put back, from points-tos. -/
theorem v_join' (f0 f1 f : Buf (Elt F) ((c : Thread nD τ).loc cc0_scratch0)) :
    iprop((vS0.view.loc (c : Thread nD τ) ↦[vS0.view.set]{fullShare} f0) ∗ (vS1.view.loc (c : Thread nD τ) ↦[vS1.view.set]{fullShare} f1) ∗ vRest c f)
      ⊢ (iprop(∃ g : Buf (Elt F) ((c : Thread nD τ).loc cc0_scratch0), ((c : Thread nD τ).loc cc0_scratch0) ↦{fullShare} g) : sProp 𝕄) := v_join c f0 f1 f
theorem x_join' : iprop((xS0.view.loc (c : Thread nD τ) ↦[xS0.view.set]{qx 0} xA m c) ∗ xRest m c 0
          ∗ (xS1.view.loc (c : Thread nD τ) ↦[xS1.view.set]{qx 1} xA m c) ∗ xRest m c 1) ⊢ xWhole m c := x_join m c

/-- What the wait for the three units brings: the slot to copy into on each device ahead, its receive cell at round 0. -/
theorem rest_bar' : bigSep (Finset.univ : Finset (Fin 3)) (fun d => (sched (F := F) m).payload (barCell c) 0 d)
    = iprop(((∃ f, cPts (F := F) (pk c 2) 2 f) ∗ reached ER (rcvCell (pk c 2) 2) 0)
        ∗ ((∃ f, cPts (F := F) (pk c 1) 1 f) ∗ reached ER (rcvCell (pk c 1) 1) 0)
        ∗ ((∃ f, cPts (F := F) (pk c 0) 0 f) ∗ reached ER (rcvCell (pk c 0) 0) 0)) := by
  have h := rest_bar (F := F) m c
  rw [Finset.sdiff_empty, duties_bar] at h
  rw [h]; rfl

/-- The first half: the body's first two parts, run from `bodyPreK`, reach `mid` with the device id read as `c`. -/
theorem bodyA {α : Type} (k : Dev nD → BitVec 32 → BitVec 32 → BitVec 32 → Prog (TpuEff nD τ sig (Elt F) Λ₀ .tc) α) (Q : α → sProp 𝕄)
    (hk : ∀ v2 v49 v50 : BitVec 32, mid m ρ K c ⊢ wp frame (wpE (defs₀ (F := F)) 𝒱₀ c none) Set.univ (k c v2 v49 v50) Q) :
    bodyPreK m ρ K c
      ⊢ wp frame (wpE (defs₀ (F := F)) 𝒱₀ c none) Set.univ
          (k0_part1 (F := F) xM (Memref.isWhole_whole _) oM (hstage0_0 0) vM (Memref.isWhole_whole _) mM (Memref.isWhole_whole _) cM (Memref.isWhole_whole _) cc0_scratch3 cc0_scratch4 cc0_scratch5 >>= fun r1 =>
            k0_part2 (F := F) xM (Memref.isWhole_whole _) oM (hstage0_0 0) vM (Memref.isWhole_whole _) mM (Memref.isWhole_whole _) cM (Memref.isWhole_whole _) cc0_scratch3 cc0_scratch4 cc0_scratch5 r1.2.1 r1.2.2 >>= fun r2 =>
              k r1.1 r1.2.1 r2.1 r2.2) Q := by
  rw [k0_part1_eq_skeleton, k0_part2_eq_skeleton]
  unfold k0_part1_skel k0_part2_skel
  simp only [semSignalWord, semWaitWord, Prog.lift, Prog.bind_op, Prog.bind_ret, Prog.pure_eq_ret, wp_deviceId]
  unfold bodyPreK ghost Proto.invs posns marks payToks creds scratch
  iintro ⟨⟨⟨#HIbar, #HIld0, #HIld1, #HIsnd0, #HIsnd1, #HIsnd2, #HIrcv0, #HIrcv1, #HIrcv2, #HIbarP0, #HIbarP1, #HIbarP2, #HIrcvP0, #HIrcvP1, #HIrcvP2⟩,
      ⟨HatB, HatL0, HatL1, HatS0, HatS1, HatS2, HatR0, HatR1, HatR2⟩,
      ⟨#HrBP0, #HrBP1, #HrBP2, #HrL0, #HrL1, #HrS0, #HrS1, #HrS2, #HrR0, #HrR1, #HrR2⟩,
      ⟨HtBP0, HtBP1, HtBP2, HtL0, HtL1, HtS0, HtS1, HtS2, HtRP0, HtRP1, HtRP2⟩⟩,
    ⟨HcB, HcR0, HcR1, HcR2⟩, #Hlev, Hx, ⟨⟨%fv, Hv⟩, ⟨%fm, Hm⟩, ⟨%fc, Hc⟩⟩, Ho, Hstg⟩
  unfold Dat.owesAt Pipeline.owesWithin
  icases Ho with ⟨%W, %hW, HO⟩
  rw [show (dats m ρ 0 c).owed t₀.castSucc = O₀ c from rfl]
  unfold O₀ O₁ O₂
  ihave Hc := (c_split' c fc) $$ Hc
  icases Hc with ⟨Hc2, Hc1, Hc0, HcRest⟩
  simp only [dev1_eq c, dev2_eq c, dev3_eq c, show (1#32).toNat = 1 from rfl, show (3#32).toNat = 3 from rfl]
  -- the three signals: each hands the signalled device the slot it will copy into
  set_option sl_exec.maxSteps 3 in sl_exec
  -- the two halves of the block and the two slots they are loaded into
  ihave Hx := (x_split' m c) $$ Hx
  icases Hx with ⟨Hx0, HxR0, Hx1, HxR1⟩
  ihave Hv := (v_split' c fv) $$ Hv
  icases Hv with ⟨Hv0, Hv1, HvRest⟩
  -- load 0: rows 0..511 into slot 0, on load cell 0
  iapply (Rounds.wp_copy_pointsTo 𝒱₀ ER (sched m) (c : Thread nD τ) none (src := xS0) (dst := vS0) (sem := ldL 0) (q := qx 0)
      (fs := xA m c) (fd := fv) (r := 0) (d := 0) (κ := K (c, 1))
      (by rw [duties_ld]; exact Finset.mem_singleton_self _) () NL rfl (amount_ld m c 0 0)
      (by rw [payload_ld]; exact ld_hpay0 m c fv)) $$ [Hx0 Hv0 HtL0]
  · isplitr; · iexact HIld0
    isplitl [Hx0]; · iexact Hx0
    isplitl [Hv0]; · iexact Hv0
    isplitl [HtL0]; · iexact HtL0
    iexact HrL0
  iintro HcL0
  -- load 1: rows 512..1023 into slot 1, on load cell 1
  iapply (Rounds.wp_copy_pointsTo 𝒱₀ ER (sched m) (c : Thread nD τ) none (src := xS1) (dst := vS1) (sem := ldL 1) (q := qx 1)
      (fs := xA m c) (fd := fv) (r := 0) (d := 0) (κ := K (c, 2))
      (by rw [duties_ld]; exact Finset.mem_singleton_self _) () NL rfl (amount_ld m c 1 0)
      (by rw [payload_ld]; exact ld_hpay1 m c fv)) $$ [Hx1 Hv1 HtL1]
  · isplitr; · iexact HIld1
    isplitl [Hx1]; · iexact Hx1
    isplitl [Hv1]; · iexact Hv1
    isplitl [HtL1]; · iexact HtL1
    iexact HrL1
  iintro HcL1
  have hmw0 := mayWait_ld (F := F) c 0
  have hmw1 := mayWait_ld (F := F) c 1
  -- the wait for load 0: slot 0 holds rows 0..511
  set_option sl_exec.maxSteps 1 in sl_exec
  ihave Hp := (Entails.of_eq (rest_ld0' m c)) $$ HatL0_pay1
  icases Hp with ⟨Hv0, Hx0⟩
  iapply (wp_load 𝒱₀ (c : Thread nD τ) none Set.univ (m := vM) (r := (vR 0).toLoadRect) (S := vS0.view.set) (q := fullShare)
      (f := ldv m c 0) vload_sub0) $$ Hv0
  iintro Hv0
  -- the wait for load 1: slot 1 holds rows 512..1023
  set_option sl_exec.maxSteps 1 in sl_exec
  ihave Hp := (Entails.of_eq (rest_ld1' m c)) $$ HatL1_pay1
  icases Hp with ⟨Hv1, Hx1⟩
  iapply (wp_load 𝒱₀ (c : Thread nD τ) none Set.univ (m := vM) (r := (vR 1).toLoadRect) (S := vS1.view.set) (q := fullShare)
      (f := ldv m c 1) vload_sub1) $$ Hv1
  iintro Hv1
  -- the partial sum's row: read (unused) and then overwritten with the two column sums added
  ihave Hm : (mM.view.loc (c : Thread nD τ) ↦[Finset.univ]{fullShare} fm) $$ [Hm]
  · iexact Hm
  set_option sl_exec.maxSteps 2 in sl_exec
  rw [mine_eq]
  -- the two load cells are done with: closed, their counters at zero
  imod (Rounds.cell_close ER (sched m) (Set.mem_univ (K (c, 1))) (fun h => h) (R := 1) (duties_later m (ldCell c 0))) $$ [HatL0] with HzL0
  · isplitr; · iexact HIld0
    iexact HatL0
  imod (Rounds.cell_close ER (sched m) (Set.mem_univ (K (c, 2))) (fun h => h) (R := 1) (duties_later m (ldCell c 1))) $$ [HatL1] with HzL1
  · isplitr; · iexact HIld1
    iexact HatL1
  -- the load scratch and the block of x whole again
  ihave Hv := (v_join' c (ldv m c 0) (ldv m c 1) fv) $$ [Hv0 Hv1 HvRest]
  · isplitl [Hv0]; · iexact Hv0
    isplitl [Hv1]; · iexact Hv1
    iexact HvRest
  ihave Hx := (x_join' m c) $$ [Hx0 HxR0 Hx1 HxR1]
  · isplitl [Hx0]; · iexact Hx0
    isplitl [HxR0]; · iexact HxR0
    isplitl [Hx1]; · iexact Hx1
    iexact HxR1
  -- the wait for the three units of the own barrier cell
  have hmwB := mayWait_bar (F := F) c
  set_option sl_exec.maxSteps 1 in sl_exec
  ihave Hp := (Entails.of_eq (rest_bar' m c)) $$ HatB_pay1
  icases Hp with ⟨⟨Hs2, #HrP2⟩, ⟨Hs1, #HrP1⟩, ⟨Hs0, #HrP0⟩⟩
  -- what is held at the cut
  iapply (hk _ _ _)
  unfold mid Proto.invs marks
  isplitr
  · isplitr; · iexact HIbar
    isplitr; · iexact HIld0
    isplitr; · iexact HIld1
    isplitr; · iexact HIsnd0
    isplitr; · iexact HIsnd1
    isplitr; · iexact HIsnd2
    isplitr; · iexact HIrcv0
    isplitr; · iexact HIrcv1
    isplitr; · iexact HIrcv2
    isplitr; · iexact HIbarP0
    isplitr; · iexact HIbarP1
    isplitr; · iexact HIbarP2
    isplitr; · iexact HIrcvP0
    isplitr; · iexact HIrcvP1
    iexact HIrcvP2
  isplitr
  · isplitr; · iexact HrBP0
    isplitr; · iexact HrBP1
    isplitr; · iexact HrBP2
    isplitr; · iexact HrL0
    isplitr; · iexact HrL1
    isplitr; · iexact HrS0
    isplitr; · iexact HrS1
    isplitr; · iexact HrS2
    isplitr; · iexact HrR0
    isplitr; · iexact HrR1
    iexact HrR2
  isplitr; · iexact Hlev
  isplitl [HatS0 HatS1 HatS2 HatR0 HatR1 HatR2]
  · isplitl [HatS0]; · iexact HatS0
    isplitl [HatS1]; · iexact HatS1
    isplitl [HatS2]; · iexact HatS2
    isplitl [HatR0]; · iexact HatR0
    isplitl [HatR1]; · iexact HatR1
    iexact HatR2
  isplitl [HtS0 HtS1 HtS2 HtRP0 HtRP1 HtRP2]
  · isplitl [HtS0]; · iexact HtS0
    isplitl [HtS1]; · iexact HtS1
    isplitl [HtS2]; · iexact HtS2
    isplitl [HtRP0]; · iexact HtRP0
    isplitl [HtRP1]; · iexact HtRP1
    iexact HtRP2
  isplitl [HcR0 HcR1 HcR2]
  · isplitl [HcR0]; · iexact HcR0
    isplitl [HcR1]; · iexact HcR1
    iexact HcR2
  isplitl [HO]; · iexists _; iexact HO
  isplitl [HzL0 HzL1]
  · isplitl [HzL0]; · iexact HzL0
    iexact HzL1
  isplitl [Hx]; · iexact Hx
  isplitl [Hv]; · iexact Hv
  isplitl [Hm]; · iexact Hm
  isplitl [HcRest]; · iexists fc; iexact HcRest
  isplitl [Hs0 Hs1 Hs2]
  · isplitl [Hs0]; · iexact Hs0
    isplitl [Hs1]; · iexact Hs1
    iexact Hs2
  isplitr
  · isplitr; · iexact HrP0
    isplitr; · iexact HrP1
    iexact HrP2
  iexact Hstg

/-- info: 'Cert.Kernel.BodyA.bodyA' depends on axioms: [propext, Classical.choice, Quot.sound] -/
#guard_msgs in #print axioms bodyA

end Cert.Kernel.BodyA

end
-- ==== Proof.W.BodyB.lean ====
/-
  The second half of one device's body: the three copies of its partial sum, one into a slot of each device ahead;
  the waits for the three partial sums landing in its own slots and for its three copies to have been read; its six
  send and receive cells closed; the four partial sums added and scaled into the result's staging row.
-/
import proofs.«900939_g7700000000000940_dist_mean_ax0_shard0_i_m1024_n512_v7x_i4_f32_1_alg».proof.Proof.W.Proto
import proofs.«900939_g7700000000000940_dist_mean_ax0_shard0_i_m1024_n512_v7x_i4_f32_1_alg».proof.Proof.W.Tables
import proofs.«900939_g7700000000000940_dist_mean_ax0_shard0_i_m1024_n512_v7x_i4_f32_1_alg».proof.Proof.W.Regions
import proofs.«900939_g7700000000000940_dist_mean_ax0_shard0_i_m1024_n512_v7x_i4_f32_1_alg».proof.Proof.W.Mid

noncomputable section

namespace Cert.Kernel.BodyB

open Cert.Kernel Cert.Kernel.Gen Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.Kernel.Regions Cert.Kernel.Tables Cert.Kernel.Mid

variable (K : Dev nD × Fin 9 → ℕ) (c : Dev nD)

/-! ## The slots and the landed contents, spelt as points-to assertions -/

theorem cPts0_def (c : Dev nD) (f : Buf (Elt F) ((c : Thread nD τ).loc cc0_scratch2)) :
    cPts c 0 f = (cS0.view.loc (c : Thread nD τ) ↦[cS0.view.set]{fullShare} f : sProp 𝕄) := rfl
theorem cPts1_def (c : Dev nD) (f : Buf (Elt F) ((c : Thread nD τ).loc cc0_scratch2)) :
    cPts c 1 f = (cS1.view.loc (c : Thread nD τ) ↦[cS1.view.set]{fullShare} f : sProp 𝕄) := rfl
theorem cPts2_def (c : Dev nD) (f : Buf (Elt F) ((c : Thread nD τ).loc cc0_scratch2)) :
    cPts c 2 f = (cS2.view.loc (c : Thread nD τ) ↦[cS2.view.set]{fullShare} f : sProp 𝕄) := rfl

/-- A slot read through the whole receive scratch is still that slot. -/
theorem cback0 (f : Buf (Elt F) ((c : Thread nD τ).loc cc0_scratch2)) :
    (cM.view.loc (c : Thread nD τ) ↦[cS0.view.set]{fullShare} f : sProp 𝕄) ⊢ cPts c 0 f := Entails.rfl
theorem cback1 (f : Buf (Elt F) ((c : Thread nD τ).loc cc0_scratch2)) :
    (cM.view.loc (c : Thread nD τ) ↦[cS1.view.set]{fullShare} f : sProp 𝕄) ⊢ cPts c 1 f := Entails.rfl
theorem cback2 (f : Buf (Elt F) ((c : Thread nD τ).loc cc0_scratch2)) :
    (cM.view.loc (c : Thread nD τ) ↦[cS2.view.set]{fullShare} f : sProp 𝕄) ⊢ cPts c 2 f := Entails.rfl

/-! ## The three copies of the partial sum -/

/-- Copy 0 of the partial sum: the addressed transfer into slot 0 of the device `n = pk c 0`, paying duty 0 of
    the sender's send cell 0 with its share `qm 0` of the partial sum's row and duty 0 of the target's receive cell 0 with
    the slot at the landed contents. -/
theorem send0 (n : Dev nD) (hn : n = pk c 0)
    {hsc : (cS0 : Memref sig (Dev.tc n : Thread nD τ).2.kind .vmem S1x512 .f32).view.ref.isScScratch = false}
    {hsrc : (mM : Memref sig .tc .vmem S1x512 .f32).view.WordExact} {hdst : (cS0 : Memref sig .tc .vmem S1x512 .f32).view.WordExact}
    {hsem : DmaTarget.Typed .vmem (rcvL 0) (.remote (Dev.tc n : Thread nD τ) (cS0 : Memref sig .tc .vmem S1x512 .f32) (sndL 0) hsc)}
    {α : Type} {Q : α → sProp 𝕄} {k : PUnit → Prog (TpuEff nD τ sig (Elt F) Λ₀ .tc) α}
    (fd : Buf (Elt F) ((cS0 : Memref sig .tc .vmem S1x512 .f32).view.loc (pk c 0 : Thread nD τ)))
    {O₀ : CellTallies nD τ sig Unit} (O : CellTallies nD τ sig Unit) (hO : O₀ = O + tallyAt (rcvCell (pk c 0) 0) () N) (W : Waits sig Unit) :
    iprop(cellInv ER (sched m) (K (c, 3)) (sndCell c 0) ∗ cellInv ER (sched m) (K (pk c 0, 6)) (rcvCell (pk c 0) 0)
        ∗ mPts m c 0 ∗ cPts (pk c 0) 0 fd
        ∗ owes (c : Thread nD τ) O₀ W
        ∗ dutyTok ER (sndCell c 0) 0 0 ∗ reached ER (sndCell c 0) 0
        ∗ dutyTok ER (rcvCell (pk c 0) 0) 0 0 ∗ reached ER (rcvCell (pk c 0) 0) 0)
      ⊢ iprop(((cred (tallyAt (sndCell c 0) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma mM (.remote (Dev.tc n : Thread nD τ) cS0 (sndL 0) hsc) (rcvL 0) hsrc hdst hsem) k) Q) := by
  subst hn
  exact Rounds.wp_send_pointsTo 𝒱₀ ER (sched m) (c : Thread nD τ) none (κ₁ := K (c, 3)) (κ₂ := K (pk c 0, 6))
    (c' := (pk c 0 : Thread nD τ)) (src := mM) (dst := cS0) (q := qm 0) (fs := mineV m c) (fd := fd)
    (r₁ := 0) (r₂ := 0) (d₁ := 0) (d₂ := 0)
    (by rw [duties_snd]; exact Finset.mem_singleton_self _) (by rw [duties_rcv]; exact Finset.mem_singleton_self _)
    () () N rfl (amount_snd m c 0 0) (amount_rcv m (pk c 0) 0 0) O hO (W := W)
    (by rw [payload_snd]; exact BI.Entails.refl _)
    (by rw [payload_rcv]; exact rcv_hpay0 m c fd)

/-- Copy 1 of the partial sum: the addressed transfer into slot 1 of the device `n = pk c 1`, paying duty 0 of
    the sender's send cell 1 with its share `qm 1` of the partial sum's row and duty 0 of the target's receive cell 1 with
    the slot at the landed contents. -/
theorem send1 (n : Dev nD) (hn : n = pk c 1)
    {hsc : (cS1 : Memref sig (Dev.tc n : Thread nD τ).2.kind .vmem S1x512 .f32).view.ref.isScScratch = false}
    {hsrc : (mM : Memref sig .tc .vmem S1x512 .f32).view.WordExact} {hdst : (cS1 : Memref sig .tc .vmem S1x512 .f32).view.WordExact}
    {hsem : DmaTarget.Typed .vmem (rcvL 1) (.remote (Dev.tc n : Thread nD τ) (cS1 : Memref sig .tc .vmem S1x512 .f32) (sndL 1) hsc)}
    {α : Type} {Q : α → sProp 𝕄} {k : PUnit → Prog (TpuEff nD τ sig (Elt F) Λ₀ .tc) α}
    (fd : Buf (Elt F) ((cS1 : Memref sig .tc .vmem S1x512 .f32).view.loc (pk c 1 : Thread nD τ)))
    {O₀ : CellTallies nD τ sig Unit} (O : CellTallies nD τ sig Unit) (hO : O₀ = O + tallyAt (rcvCell (pk c 1) 1) () N) (W : Waits sig Unit) :
    iprop(cellInv ER (sched m) (K (c, 4)) (sndCell c 1) ∗ cellInv ER (sched m) (K (pk c 1, 7)) (rcvCell (pk c 1) 1)
        ∗ mPts m c 1 ∗ cPts (pk c 1) 1 fd
        ∗ owes (c : Thread nD τ) O₀ W
        ∗ dutyTok ER (sndCell c 1) 0 0 ∗ reached ER (sndCell c 1) 0
        ∗ dutyTok ER (rcvCell (pk c 1) 1) 0 0 ∗ reached ER (rcvCell (pk c 1) 1) 0)
      ⊢ iprop(((cred (tallyAt (sndCell c 1) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma mM (.remote (Dev.tc n : Thread nD τ) cS1 (sndL 1) hsc) (rcvL 1) hsrc hdst hsem) k) Q) := by
  subst hn
  exact Rounds.wp_send_pointsTo 𝒱₀ ER (sched m) (c : Thread nD τ) none (κ₁ := K (c, 4)) (κ₂ := K (pk c 1, 7))
    (c' := (pk c 1 : Thread nD τ)) (src := mM) (dst := cS1) (q := qm 1) (fs := mineV m c) (fd := fd)
    (r₁ := 0) (r₂ := 0) (d₁ := 0) (d₂ := 0)
    (by rw [duties_snd]; exact Finset.mem_singleton_self _) (by rw [duties_rcv]; exact Finset.mem_singleton_self _)
    () () N rfl (amount_snd m c 1 0) (amount_rcv m (pk c 1) 1 0) O hO (W := W)
    (by rw [payload_snd]; exact BI.Entails.refl _)
    (by rw [payload_rcv]; exact rcv_hpay1 m c fd)

/-- Copy 2 of the partial sum: the addressed transfer into slot 2 of the device `n = pk c 2`, paying duty 0 of
    the sender's send cell 2 with its share `qm 2` of the partial sum's row and duty 0 of the target's receive cell 2 with
    the slot at the landed contents. -/
theorem send2 (n : Dev nD) (hn : n = pk c 2)
    {hsc : (cS2 : Memref sig (Dev.tc n : Thread nD τ).2.kind .vmem S1x512 .f32).view.ref.isScScratch = false}
    {hsrc : (mM : Memref sig .tc .vmem S1x512 .f32).view.WordExact} {hdst : (cS2 : Memref sig .tc .vmem S1x512 .f32).view.WordExact}
    {hsem : DmaTarget.Typed .vmem (rcvL 2) (.remote (Dev.tc n : Thread nD τ) (cS2 : Memref sig .tc .vmem S1x512 .f32) (sndL 2) hsc)}
    {α : Type} {Q : α → sProp 𝕄} {k : PUnit → Prog (TpuEff nD τ sig (Elt F) Λ₀ .tc) α}
    (fd : Buf (Elt F) ((cS2 : Memref sig .tc .vmem S1x512 .f32).view.loc (pk c 2 : Thread nD τ)))
    {O₀ : CellTallies nD τ sig Unit} (O : CellTallies nD τ sig Unit) (hO : O₀ = O + tallyAt (rcvCell (pk c 2) 2) () N) (W : Waits sig Unit) :
    iprop(cellInv ER (sched m) (K (c, 5)) (sndCell c 2) ∗ cellInv ER (sched m) (K (pk c 2, 8)) (rcvCell (pk c 2) 2)
        ∗ mPts m c 2 ∗ cPts (pk c 2) 2 fd
        ∗ owes (c : Thread nD τ) O₀ W
        ∗ dutyTok ER (sndCell c 2) 0 0 ∗ reached ER (sndCell c 2) 0
        ∗ dutyTok ER (rcvCell (pk c 2) 2) 0 0 ∗ reached ER (rcvCell (pk c 2) 2) 0)
      ⊢ iprop(((cred (tallyAt (sndCell c 2) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma mM (.remote (Dev.tc n : Thread nD τ) cS2 (sndL 2) hsc) (rcvL 2) hsrc hdst hsem) k) Q) := by
  subst hn
  exact Rounds.wp_send_pointsTo 𝒱₀ ER (sched m) (c : Thread nD τ) none (κ₁ := K (c, 5)) (κ₂ := K (pk c 2, 8))
    (c' := (pk c 2 : Thread nD τ)) (src := mM) (dst := cS2) (q := qm 2) (fs := mineV m c) (fd := fd)
    (r₁ := 0) (r₂ := 0) (d₁ := 0) (d₂ := 0)
    (by rw [duties_snd]; exact Finset.mem_singleton_self _) (by rw [duties_rcv]; exact Finset.mem_singleton_self _)
    () () N rfl (amount_snd m c 2 0) (amount_rcv m (pk c 2) 2 0) O hO (W := W)
    (by rw [payload_snd]; exact BI.Entails.refl _)
    (by rw [payload_rcv]; exact rcv_hpay2 m c fd)

set_option maxHeartbeats 1600000 in
/-- The second half: from `mid`, the rest of the body reaches the body obligation's postcondition. -/
theorem bodyB (v2 v49 v50 : BitVec 32) :
    mid m ρ K c
      ⊢ wp frame (wpE (defs₀ (F := F)) 𝒱₀ c none) Set.univ (restProg (F := F) c v2 v49 v50) (fun _ => bodyPost m ρ c) := by
  unfold mid Proto.invs Proto.marks
  iintro ⟨⟨#Ib, #Il0, #Il1, #Is0, #Is1, #Is2, #Ir0, #Ir1, #Ir2, #Ipb0, #Ipb1, #Ipb2, #Ipr0, #Ipr1, #Ipr2⟩, ⟨#Rb0, #Rb1, #Rb2, #Rl0, #Rl1, #Rs0, #Rs1, #Rs2, #Rr0, #Rr1, #Rr2⟩, #Hlev, ⟨As0, As1, As2, Ar0, Ar1, Ar2⟩, ⟨Ts0, Ts1, Ts2, Tr0, Tr1, Tr2⟩, ⟨Cr0, Cr1, Cr2⟩, ⟨%W, HO⟩, ⟨Zl0, Zl1⟩, Hx, ⟨%g, Hv⟩, Hm, ⟨%fr, Hcr⟩, ⟨⟨%f0, Hp0⟩, ⟨%f1, Hp1⟩, ⟨%f2, Hp2⟩⟩, ⟨#Rp0, #Rp1, #Rp2⟩, ⟨%d, %fo, %hfo, Ho⟩⟩
  ihave Hm3 := (m_split m c) $$ Hm
  icases Hm3 with ⟨Hm0, Hm1, Hm2⟩
  unfold restProg
  rw [k0_part3_eq_skeleton, k0_part4_eq_skeleton]; unfold k0_part3_skel k0_part4_skel
  simp only [Prog.lift, Prog.bind_op, Prog.bind_ret, Prog.pure_eq_ret]
  unfold OR
  -- copy 0
  iapply (send0 m K c _ (dev4_eq c) f0 _ rfl W) $$ [Hm0 Hp0 HO Ts0 Tr0]
  · isplitr; · iexact Is0
    isplitr; · iexact Ipr0
    isplitl [Hm0]; · iexact Hm0
    isplitl [Hp0]; · iexact Hp0
    isplitl [HO]; · iexact HO
    isplitl [Ts0]; · iexact Ts0
    isplitr; · iexact Rs0
    isplitl [Tr0]; · iexact Tr0
    iexact Rp0
  iintro ⟨Cs0, HO⟩
  -- copy 1
  iapply (send1 m K c _ (dev5_eq c) f1 _ rfl W) $$ [Hm1 Hp1 HO Ts1 Tr1]
  · isplitr; · iexact Is1
    isplitr; · iexact Ipr1
    isplitl [Hm1]; · iexact Hm1
    isplitl [Hp1]; · iexact Hp1
    isplitl [HO]; · iexact HO
    isplitl [Ts1]; · iexact Ts1
    isplitr; · iexact Rs1
    isplitl [Tr1]; · iexact Tr1
    iexact Rp1
  iintro ⟨Cs1, HO⟩
  -- copy 2
  iapply (send2 m K c _ (dev6_eq c) f2 _ (zero_add _).symm W) $$ [Hm2 Hp2 HO Ts2 Tr2]
  · isplitr; · iexact Is2
    isplitr; · iexact Ipr2
    isplitl [Hm2]; · iexact Hm2
    isplitl [Hp2]; · iexact Hp2
    isplitl [HO]; · iexact HO
    isplitl [Ts2]; · iexact Ts2
    isplitr; · iexact Rs2
    isplitl [Tr2]; · iexact Tr2
    iexact Rp2
  iintro ⟨Cs2, HO⟩
  -- the wait for the landing in slot 0
  iapply (Rounds.wp_wait_rest_token 𝒱₀ ER (sched m) (c : Thread nD τ) none (κ := K (c, 6)) (sm := rcvL 0) (k' := N)
      (w := .waitDma2 (rcvA 0).sem mM cS0 _ _)
      (fun _ => rfl) (Set.mem_univ _) () (O := 0) (W := W) (R := 0) (m := 0) (T := ∅)
      (by rw [expect_rcv, Nat.zero_add])) $$ [Cr0 HO Ar0]
  · isplitr; · iexact Ir0
    isplitl [Cr0]; · iexact Cr0
    isplitl [HO]; · iexact HO
    isplitr; · rw [MayWait_zero]; iempintro
    iexact Ar0
  iintro ⟨HO, Ar0, -, Hpay⟩
  ihave Hc0 := (Entails.of_eq ((rest_rcv m c 0).trans (cPts0_def c (landv m c 0)))) $$ Hpay
  -- the wait for the landing in slot 1
  iapply (Rounds.wp_wait_rest_token 𝒱₀ ER (sched m) (c : Thread nD τ) none (κ := K (c, 7)) (sm := rcvL 1) (k' := N)
      (w := .waitDma2 (rcvA 1).sem mM cS1 _ _)
      (fun _ => rfl) (Set.mem_univ _) () (O := 0) (W := insert (rcvL 0, ()) (W)) (R := 0) (m := 0) (T := ∅)
      (by rw [expect_rcv, Nat.zero_add])) $$ [Cr1 HO Ar1]
  · isplitr; · iexact Ir1
    isplitl [Cr1]; · iexact Cr1
    isplitl [HO]; · iexact HO
    isplitr; · rw [MayWait_zero]; iempintro
    iexact Ar1
  iintro ⟨HO, Ar1, -, Hpay⟩
  ihave Hc1 := (Entails.of_eq ((rest_rcv m c 1).trans (cPts1_def c (landv m c 1)))) $$ Hpay
  -- the wait for the landing in slot 2
  iapply (Rounds.wp_wait_rest_token 𝒱₀ ER (sched m) (c : Thread nD τ) none (κ := K (c, 8)) (sm := rcvL 2) (k' := N)
      (w := .waitDma2 (rcvA 2).sem mM cS2 _ _)
      (fun _ => rfl) (Set.mem_univ _) () (O := 0) (W := insert (rcvL 1, ()) (insert (rcvL 0, ()) (W))) (R := 0) (m := 0) (T := ∅)
      (by rw [expect_rcv, Nat.zero_add])) $$ [Cr2 HO Ar2]
  · isplitr; · iexact Ir2
    isplitl [Cr2]; · iexact Cr2
    isplitl [HO]; · iexact HO
    isplitr; · rw [MayWait_zero]; iempintro
    iexact Ar2
  iintro ⟨HO, Ar2, -, Hpay⟩
  ihave Hc2 := (Entails.of_eq ((rest_rcv m c 2).trans (cPts2_def c (landv m c 2)))) $$ Hpay
  -- the wait for copy 0 to have been read
  iapply (Rounds.wp_wait_rest_token 𝒱₀ ER (sched m) (c : Thread nD τ) none (κ := K (c, 3)) (sm := sndL 0) (k' := N)
      (w := .waitDma2 (sndA 0).sem cS0 mM _ _)
      (fun _ => rfl) (Set.mem_univ _) () (O := 0) (W := insert (rcvL 2, ()) (insert (rcvL 1, ()) (insert (rcvL 0, ()) (W)))) (R := 0) (m := 0) (T := ∅)
      (by rw [expect_snd, Nat.zero_add])) $$ [Cs0 HO As0]
  · isplitr; · iexact Is0
    isplitl [Cs0]; · iexact Cs0
    isplitl [HO]; · iexact HO
    isplitr; · rw [MayWait_zero]; iempintro
    iexact As0
  iintro ⟨HO, As0, -, Hpay⟩
  ihave Hm0 := (Entails.of_eq (rest_snd m c 0)) $$ Hpay
  -- the wait for copy 1 to have been read
  iapply (Rounds.wp_wait_rest_token 𝒱₀ ER (sched m) (c : Thread nD τ) none (κ := K (c, 4)) (sm := sndL 1) (k' := N)
      (w := .waitDma2 (sndA 1).sem cS1 mM _ _)
      (fun _ => rfl) (Set.mem_univ _) () (O := 0) (W := insert (sndL 0, ()) (insert (rcvL 2, ()) (insert (rcvL 1, ()) (insert (rcvL 0, ()) (W))))) (R := 0) (m := 0) (T := ∅)
      (by rw [expect_snd, Nat.zero_add])) $$ [Cs1 HO As1]
  · isplitr; · iexact Is1
    isplitl [Cs1]; · iexact Cs1
    isplitl [HO]; · iexact HO
    isplitr; · rw [MayWait_zero]; iempintro
    iexact As1
  iintro ⟨HO, As1, -, Hpay⟩
  ihave Hm1 := (Entails.of_eq (rest_snd m c 1)) $$ Hpay
  -- the wait for copy 2 to have been read
  iapply (Rounds.wp_wait_rest_token 𝒱₀ ER (sched m) (c : Thread nD τ) none (κ := K (c, 5)) (sm := sndL 2) (k' := N)
      (w := .waitDma2 (sndA 2).sem cS2 mM _ _)
      (fun _ => rfl) (Set.mem_univ _) () (O := 0) (W := insert (sndL 1, ()) (insert (sndL 0, ()) (insert (rcvL 2, ()) (insert (rcvL 1, ()) (insert (rcvL 0, ()) (W)))))) (R := 0) (m := 0) (T := ∅)
      (by rw [expect_snd, Nat.zero_add])) $$ [Cs2 HO As2]
  · isplitr; · iexact Is2
    isplitl [Cs2]; · iexact Cs2
    isplitl [HO]; · iexact HO
    isplitr; · rw [MayWait_zero]; iempintro
    iexact As2
  iintro ⟨HO, As2, -, Hpay⟩
  ihave Hm2 := (Entails.of_eq (rest_snd m c 2)) $$ Hpay
  -- the partial sum's row whole again
  ihave Hm := (m_join m c) $$ [Hm0 Hm1 Hm2]
  · isplitl [Hm0]; · iexact Hm0
    isplitl [Hm1]; · iexact Hm1
    iexact Hm2
  -- the six send and receive cells close
  imod (Rounds.cell_close ER (sched m) (Set.mem_univ (K (c, 3))) (fun h => h) (R := 0 + 1) (duties_later m (sndCell c 0))) $$ [As0] with Zs0
  · isplitr; · iexact Is0
    iexact As0
  imod (Rounds.cell_close ER (sched m) (Set.mem_univ (K (c, 4))) (fun h => h) (R := 0 + 1) (duties_later m (sndCell c 1))) $$ [As1] with Zs1
  · isplitr; · iexact Is1
    iexact As1
  imod (Rounds.cell_close ER (sched m) (Set.mem_univ (K (c, 5))) (fun h => h) (R := 0 + 1) (duties_later m (sndCell c 2))) $$ [As2] with Zs2
  · isplitr; · iexact Is2
    iexact As2
  imod (Rounds.cell_close ER (sched m) (Set.mem_univ (K (c, 6))) (fun h => h) (R := 0 + 1) (duties_later m (rcvCell c 0))) $$ [Ar0] with Zr0
  · isplitr; · iexact Ir0
    iexact Ar0
  imod (Rounds.cell_close ER (sched m) (Set.mem_univ (K (c, 7))) (fun h => h) (R := 0 + 1) (duties_later m (rcvCell c 1))) $$ [Ar1] with Zr1
  · isplitr; · iexact Ir1
    iexact Ar1
  imod (Rounds.cell_close ER (sched m) (Set.mem_univ (K (c, 8))) (fun h => h) (R := 0 + 1) (duties_later m (rcvCell c 2))) $$ [Ar2] with Zr2
  · isplitr; · iexact Ir2
    iexact Ar2
  -- the four partial sums are read, added and scaled into the result's row
  iapply (wp_load 𝒱₀ (c : Thread nD τ) none Set.univ (m := mM) (Finset.subset_univ _)) $$ Hm; iintro Hm
  iapply (wp_load 𝒱₀ (c : Thread nD τ) none Set.univ (m := cM) (cload_sub0)) $$ Hc0; iintro Hc0
  iapply (wp_load 𝒱₀ (c : Thread nD τ) none Set.univ (m := cM) (cload_sub1)) $$ Hc1; iintro Hc1
  iapply (wp_load 𝒱₀ (c : Thread nD τ) none Set.univ (m := cM) (cload_sub2)) $$ Hc2; iintro Hc2
  iapply (wp_load 𝒱₀ (c : Thread nD τ) none Set.univ (m := oM) (Finset.subset_univ _)) $$ Ho; iintro Ho
  iapply (wp_store 𝒱₀ (c : Thread nD τ) none Set.univ (m := oM) (r := mR) (Mk := Finset.univ) (Finset.subset_univ _)) $$ Ho; iintro Ho
  rw [write_o, wp_ret]; imodintro
  -- the receive scratch whole again
  ihave Hk0 := (cback0 c (landv m c 0)) $$ Hc0
  ihave Hk1 := (cback1 c (landv m c 1)) $$ Hc1
  ihave Hk2 := (cback2 c (landv m c 2)) $$ Hc2
  ihave Hc := (c_join c (landv m c 0) (landv m c 1) (landv m c 2) fr) $$ [Hk0 Hk1 Hk2 Hcr]
  · isplitl [Hk0]; · iexact Hk0
    isplitl [Hk1]; · iexact Hk1
    isplitl [Hk2]; · iexact Hk2
    iexact Hcr
  unfold bodyPost Φ₁ scratch ownZero
  isplitl [Hx Hv Hm Hc Zl0 Zl1 Zs0 Zs1 Zs2 Zr0 Zr1 Zr2]
  · isplitl [Hx]; · iexact Hx
    isplitl [Hv Hm Hc]
    · isplitl [Hv]; · iexists g; iexact Hv
      isplitl [Hm]; · iexists _; iexact Hm
      iexact Hc
    isplitl [Zl0]; · iexact Zl0
    isplitl [Zl1]; · iexact Zl1
    isplitl [Zs0]; · iexact Zs0
    isplitl [Zs1]; · iexact Zs1
    isplitl [Zs2]; · iexact Zs2
    isplitl [Zr0]; · iexact Zr0
    isplitl [Zr1]; · iexact Zr1
    iexact Zr2
  isplitl [HO]
  · iexists (insert (sndL 2, ()) (insert (sndL 1, ()) (insert (sndL 0, ()) (insert (rcvL 2, ()) (insert (rcvL 1, ()) (insert (rcvL 0, ()) (W)))))))
    isplitr; · ipureintro; exact fun _ _ => Or.inl trivial
    iexact HO
  iexists _
  isplitr; · ipureintro; rfl
  iexact Ho

/-- info: 'Cert.Kernel.BodyB.bodyB' depends on axioms: [propext, Classical.choice, Quot.sound] -/
#guard_msgs in #print axioms bodyB

end Cert.Kernel.BodyB

end
-- ==== Proof.W.Body.lean ====
/-
  One device's whole body from the two halves, and the pipeline library's body obligation for it.
-/
import proofs.«900939_g7700000000000940_dist_mean_ax0_shard0_i_m1024_n512_v7x_i4_f32_1_alg».proof.Proof.W.Proto
import proofs.«900939_g7700000000000940_dist_mean_ax0_shard0_i_m1024_n512_v7x_i4_f32_1_alg».proof.Proof.W.Mid
import proofs.«900939_g7700000000000940_dist_mean_ax0_shard0_i_m1024_n512_v7x_i4_f32_1_alg».proof.Proof.W.BodyA
import proofs.«900939_g7700000000000940_dist_mean_ax0_shard0_i_m1024_n512_v7x_i4_f32_1_alg».proof.Proof.W.BodyB

noncomputable section

namespace Cert.Kernel.Body

open Cert.Kernel Cert.Kernel.Gen Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.Kernel.Regions Cert.Kernel.Tables Cert.Kernel.Mid

/-- The whole body on device `c`, the names fixed: the two halves in sequence. -/
theorem sound_body (K : Dev nD × Fin 9 → ℕ) (c : Dev nD) :
    bodyPreK m ρ K c
      ⊢ wp frame (wpE (defs₀ (F := F)) 𝒱₀ c none) Set.univ
          (cc0_body (F := F) xM (Memref.isWhole_whole _) oM (hstage0_0 0) vM (Memref.isWhole_whole _) mM (Memref.isWhole_whole _) cM (Memref.isWhole_whole _) cc0_scratch3 cc0_scratch4 cc0_scratch5)
          (fun _ => bodyPost m ρ c) := by
  rw [body_split]
  exact BodyA.bodyA m ρ K c (fun d0 v2 v49 v50 => restProg (F := F) d0 v2 v49 v50) _ (fun v2 v49 v50 => BodyB.bodyB m ρ K c v2 v49 v50)

theorem bigSep_W (Φ : Fin cfg0.W → sProp 𝕄) : bigSep Finset.univ Φ = iprop(Φ (0 : Fin 1)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (F := F) xM (Memref.isWhole_whole _) oM (hstage0_0 0) vM (Memref.isWhole_whole _) mM (Memref.isWhole_whole _) cM (Memref.isWhole_whole _) cc0_scratch3 cc0_scratch4 cc0_scratch5)
    (fun _ => bodyPost m ρ c)
  unfold bodyPre Φ₀ start
  iintro ⟨⟨⟨⟨%K, Hg⟩, Hcr, Hlev, Hx⟩, Hscr⟩, Ho, Hout⟩
  iapply (sound_body m ρ K c)
  unfold bodyPreK
  isplitl [Hg]; · iexact Hg
  isplitl [Hcr]; · iexact Hcr
  isplitl [Hlev]; · iexact Hlev
  isplitl [Hx]; · iexact Hx
  isplitl [Hscr]; · iexact Hscr
  isplitl [Ho]; · iexact Ho
  iexact Hout

/-- info: 'Cert.Kernel.Body.body_obligation' depends on axioms: [propext, Classical.choice, Quot.sound] -/
#guard_msgs in #print axioms body_obligation

end Cert.Kernel.Body

end
-- ==== Proof.W.Launch.lean ====
/-
  The launch of the four-device mean. The protocol's ghost state is funded for every cell of every device at once and the
  duty tokens are dealt around the ring to the devices that pay them; every cell's invariant is allocated under one update,
  the barrier cell's beside the own cells'; each device collects the credit the other three owe its barrier cell and its
  three receive cells; and the run of the whole program follows from the proof of one device's body, with each device's
  result read off as the named contents and its block of the argument unchanged.
-/
import proofs.«900939_g7700000000000940_dist_mean_ax0_shard0_i_m1024_n512_v7x_i4_f32_1_alg».proof.Proof.W.Proto
import proofs.«900939_g7700000000000940_dist_mean_ax0_shard0_i_m1024_n512_v7x_i4_f32_1_alg».proof.Proof.W.Tables
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Launch

open Cert.Kernel Cert.Kernel.Gen Cert.Kernel.Proto Cert.Kernel.Tables

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the minted tokens -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 9 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
/-- Every device's nine cells. -/
def cellSet : Finset (GSem nD τ sig) := Finset.univ.map ⟨kcell, kcell_injective⟩

/-- A device's own cells' duties as minted: its barrier's three, then duty 0 of each load, send and receive cell. -/
abbrev tokSem : Fin 11 → SemLoc sig × Fin 3
  | 0 => (barL, 0) | 1 => (barL, 1) | 2 => (barL, 2)
  | 3 => (ldL 0, 0) | 4 => (ldL 1, 0)
  | 5 => (sndL 0, 0) | 6 => (sndL 1, 0) | 7 => (sndL 2, 0)
  | 8 => (rcvL 0, 0) | 9 => (rcvL 1, 0) | 10 => (rcvL 2, 0)
theorem tokSem_injective : Function.Injective (tokSem : Fin 11 → SemLoc sig × Fin 3) := by decide
abbrev tokOf (cj : Dev nD × Fin 11) : GSem nD τ sig × ℕ × Fin 3 := (((cj.1 : Thread nD τ), (tokSem cj.2).1), 0, (tokSem cj.2).2)
theorem tokOf_injective : Function.Injective (tokOf : Dev nD × Fin 11 → GSem nD τ sig × ℕ × Fin 3) := by
  rintro ⟨c, j⟩ ⟨c', j'⟩ h
  have h1 : c = c' := by have := congrArg (fun x : GSem nD τ sig × ℕ × Fin 3 => x.1.1.1) h; exact this
  subst h1
  have h2 : tokSem j = tokSem j' :=
    Prod.ext (congrArg (fun x : GSem nD τ sig × ℕ × Fin 3 => x.1.2) h) (congrArg (fun x : GSem nD τ sig × ℕ × Fin 3 => x.2.2) h)
  have : j = j' := tokSem_injective h2
  subst this; rfl
def tokSet : Finset (GSem nD τ sig × ℕ × Fin 3) := Finset.univ.map ⟨tokOf, tokOf_injective⟩

/-- The launch element: the pipeline's copy, and the protocol's cells and tokens. -/
def u₀ : UU :=
  (initOf (Pipeline.cells cfgs cellOf_inj) (Pipeline.launchToks cfgs cellOf_inj), initOf cellSet tokSet)

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (ldCell c 0) 0 0 ∗ dutyTok ER (ldCell c 1) 0 0
    ∗ dutyTok ER (sndCell c 0) 0 0 ∗ dutyTok ER (sndCell c 1) 0 0 ∗ dutyTok ER (sndCell c 2) 0 0
    ∗ dutyTok ER (rcvCell c 0) 0 0 ∗ dutyTok ER (rcvCell c 1) 0 0 ∗ dutyTok ER (rcvCell c 2) 0 0)

/-- What the launch element deals device `c`: its nine cells' round states, positions and reached-marks, its cells' tokens. -/
def G (c : Dev nD) : sProp 𝕄 :=
  iprop((bigSep Finset.univ fun k : Fin 9 => roundState ER (sched m) (kcell (c, k)) 0)
    ∗ (bigSep Finset.univ fun k : Fin 9 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
theorem bigSep_fin11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

/-- Funding: the protocol's launch element is every device's share. -/
theorem fund_cells : BI.own (ER (initOf cellSet tokSet)) ⊢ (|==> bigSep Finset.univ (G m) : sProp 𝕄) := by
  have hX (Φ : GSem nD τ sig → sProp 𝕄) : bigSep cellSet Φ = bigSep Finset.univ fun c : Dev nD => bigSep Finset.univ fun k : Fin 9 => Φ (kcell (c, k)) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet; rw [bigSep_map, bigSep_univ_prod]
    exact bigSep_congr fun c _ => by unfold toks; rw [bigSep_fin11]; rfl
  iintro HX
  imod (Rounds.fund ER (sched m) cellSet tokSet) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero, and the cells' invariants allocated -/

/-- The kernel's own eight semaphores, in the launch's order; -/
theorem ownSems0_eq (c : Dev nD) : (Pipeline.ownSems0 (Ix := Unit) (Name := ℕ) (U := UU) (Lvl := ℕ) (Val := Elt F) (τ := τ) osem c : sProp 𝕄)
    = ownZero c := by
  rw [Pipeline.ownSems0_eq_of_list c osem [0, 1, 2, 3, 4, 5, 6, 7] (by decide) (by decide)]; rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, bigSep_fin9]
  unfold ownZero
  iintro ⟨⟨H1, H2, H3, H4, H5, H6, H7, H8⟩, HB⟩
  isplitl [HB]; · iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The ghost state of every device, from the cells' -/

/-- Every cell's invariant under its name, and that round 0 of every cell is reached: what all devices share. -/
def records (K : Dev nD × Fin 9 → ℕ) : sProp 𝕄 :=
  iprop((bigSep Finset.univ fun ck : Dev nD × Fin 9 => cellInv ER (sched m) (K ck) (kcell ck))
    ∗ bigSep Finset.univ fun ck : Dev nD × Fin 9 => reached ER (kcell ck) 0)

instance records_persistent (K : Dev nD × Fin 9 → ℕ) : BI.Persistent (records m K) := by unfold records; infer_instance

theorem inv_at (K : Dev nD × Fin 9 → ℕ) (ck : Dev nD × Fin 9) :
    (bigSep Finset.univ fun ck : Dev nD × Fin 9 => (cellInv ER (sched m) (K ck) (kcell ck) : sProp 𝕄)) ⊢ cellInv ER (sched m) (K ck) (kcell ck) :=
  bigSep_elim (Finset.mem_univ ck)
theorem reached_at (ck : Dev nD × Fin 9) :
    (bigSep Finset.univ fun ck : Dev nD × Fin 9 => (reached ER (kcell ck) 0 : sProp 𝕄)) ⊢ reached ER (kcell ck) 0 :=
  bigSep_elim (Finset.mem_univ ck)

/-- What stays with device `c` alone: its positions, and the tokens of the duties it pays. -/
def linear (c : Dev nD) : sProp 𝕄 := iprop(posns c ∗ payToks c)

theorem ghost_intro (K : Dev nD × Fin 9 → ℕ) (c : Dev nD) : iprop(records m K ∗ linear c) ⊢ G' m c := by
  unfold records linear G' ghost Proto.invs marks
  iintro ⟨⟨#HI, #HR⟩, Hpos, Htok⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (c, 6)); iexact HI
    isplitr; · iapply (inv_at m K (c, 7)); iexact HI
    isplitr; · iapply (inv_at m K (c, 8)); iexact HI
    isplitr; · iapply (inv_at m K (pk c 0, 0)); iexact HI
    isplitr; · iapply (inv_at m K (pk c 1, 0)); iexact HI
    isplitr; · iapply (inv_at m K (pk c 2, 0)); iexact HI
    isplitr; · iapply (inv_at m K (pk c 0, 6)); iexact HI
    isplitr; · iapply (inv_at m K (pk c 1, 7)); iexact HI
    iapply (inv_at m K (pk c 2, 8)); iexact HI
  isplitl [Hpos]; · iexact Hpos
  isplitr
  · isplitr; · iapply (reached_at (F := F) (pk c 0, 0)); iexact HR
    isplitr; · iapply (reached_at (F := F) (pk c 1, 0)); iexact HR
    isplitr; · iapply (reached_at (F := F) (pk c 2, 0)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    isplitr; · iapply (reached_at (F := F) (c, 6)); iexact HR
    isplitr; · iapply (reached_at (F := F) (c, 7)); iexact HR
    iapply (reached_at (F := F) (c, 8)); iexact HR
  iexact Htok

/-- The tokens dealt around the ring: duty `k` of a barrier cell and the duty of receive cell `k` go to the device `k + 1`
    places behind their owner, which pays them; the load and send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv (ring 0) (fun c : Dev nD => (dutyTok ER (barCell c) 0 0 : sProp 𝕄)),
    bigSep_univ_equiv (ring 1) (fun c : Dev nD => (dutyTok ER (barCell c) 0 1 : sProp 𝕄)),
    bigSep_univ_equiv (ring 2) (fun c : Dev nD => (dutyTok ER (barCell c) 0 2 : sProp 𝕄)),
    bigSep_univ_equiv (ring 0) (fun c : Dev nD => (dutyTok ER (rcvCell c 0) 0 0 : sProp 𝕄)),
    bigSep_univ_equiv (ring 1) (fun c : Dev nD => (dutyTok ER (rcvCell c 1) 0 0 : sProp 𝕄)),
    bigSep_univ_equiv (ring 2) (fun c : Dev nD => (dutyTok ER (rcvCell c 2) 0 0 : sProp 𝕄))]
  exact .rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 9 => iprop(∃ κ : ℕ, cellInv ER (sched m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 9 => (atPos ER (kcell (c, k)) 0 ∅ 0 : sProp 𝕄)) payToks).symm).trans
      (bigSep_mono fun c _ => show _ ⊢ linear c from Entails.of_eq (by unfold linear posns; rw [bigSep_fin9])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem cred3 (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by rw [tallyAt_add, tallyAt_add]]
  exact (sep_mono_right (cred_add _ _).2).trans (cred_add _ _).2

/-- What the others owe device `c`: each of the three devices behind it one unit on its barrier cell, and the device
    `k + 1` places behind it one copy's credit on its receive cell `k`. -/
theorem launch_creds (c : Dev nD) : (Pipeline.launchCred O₀ c : sProp 𝕄) ⊢ creds c := by
  have e : (O₀ : Dev nD → CellTallies nD τ sig Unit) = fun d =>
      (((tallyAt (rcvCell (pk d 2) 2) () N + tallyAt (rcvCell (pk d 1) 1) () N + tallyAt (rcvCell (pk d 0) 0) () N)
        + tallyAt (barCell (pk d 2)) () 1) + tallyAt (barCell (pk d 1)) () 1) + tallyAt (barCell (pk d 0)) () 1 := rfl
  rw [e, Pipeline.launchCred_add, Pipeline.launchCred_add, Pipeline.launchCred_add, Pipeline.launchCred_add, Pipeline.launchCred_add]
  unfold creds
  iintro ⟨⟨⟨⟨⟨HR2, HR1⟩, HR0⟩, HB2⟩, HB1⟩, HB0⟩
  ihave H0 := (Pipeline.launchCred_tallyAt barL (fun d => pk d 0) (fun d => bk d 0) (fun c => pk_bk c 0) (fun d => bk_pk d 0) () 1 c) $$ HB0
  ihave H1 := (Pipeline.launchCred_tallyAt barL (fun d => pk d 1) (fun d => bk d 1) (fun c => pk_bk c 1) (fun d => bk_pk d 1) () 1 c) $$ HB1
  ihave H2 := (Pipeline.launchCred_tallyAt barL (fun d => pk d 2) (fun d => bk d 2) (fun c => pk_bk c 2) (fun d => bk_pk d 2) () 1 c) $$ HB2
  ihave G0 := (Pipeline.launchCred_tallyAt (rcvL 0) (fun d => pk d 0) (fun d => bk d 0) (fun c => pk_bk c 0) (fun d => bk_pk d 0) () N c) $$ HR0
  ihave G1 := (Pipeline.launchCred_tallyAt (rcvL 1) (fun d => pk d 1) (fun d => bk d 1) (fun c => pk_bk c 1) (fun d => bk_pk d 1) () N c) $$ HR1
  ihave G2 := (Pipeline.launchCred_tallyAt (rcvL 2) (fun d => pk d 2) (fun d => bk d 2) (fun c => pk_bk c 2) (fun d => bk_pk d 2) () N c) $$ HR2
  isplitl [H0 H1 H2]
  · iapply (cred3 (F := F) (barCell c))
    isplitl [H0]; · iexact H0
    isplitl [H1] <;> iassumption
  isplitl [G0]; · iexact G0
  isplitl [G1] <;> iassumption

/-! ## The launch theorem's side conditions -/

/-- What a device starts from: the argument's block, which no window stages, arrives as the unscoped rest. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hx, Hlev, Hcr, -, HG⟩
  ihave Hc := (launch_creds (F := F) c) $$ Hcr
  imodintro
  unfold start G' xWhole xA
  isplitl
  · isplitl [HG]; · iexact HG
    isplitl [Hc]; · iexact Hc
    isplitl [Hlev]; · iexact Hlev
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(xWhole m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ scratch
  iintro ⟨Hx, Hr, Hz⟩
  isplitl [Hx]; · iexact Hx
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The result array after the one point: the whole array written with what the body left. -/
theorem arrAt_out (c : Dev nD) : (dats m ρ 0 c).arrAt (0 : Fin cfg0.W) cfg0.N = outV m c := by
  show (dats m ρ 0 c).arrAt (0 : Fin cfg0.W) ((t₀ : Fin cfg0.N).val + 1) = outV m c
  rw [Dat.arrAt_succ, if_pos (flush0_0 t₀)]
  exact Memref.write_access_unit_zero_univ (Elt F) main_v1 (off := fun a => (cfg0.win 0).index t₀ a * (cfg0.win 0).size a)
    (funext fun a => by fin_cases a <;> rfl) _ _ _

set_option maxRecDepth 8000 in
/-- At the compiled mesh of four devices, for any float values, from any memory with zero counters: every weakly fair
    execution of the program terminates, and every final state has each device's result array at the named contents
    and its block of the argument unchanged, given the proof of one device's body. -/
theorem run_out (hbody : ∀ c, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outV m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := xWhole m) (Z := fun _ => iprop(emp))
    (hX := start_intro m ρ) (hin := phi0_intro m ρ) (hout := phi1_exit m ρ)
    (QY := fun c s => s.mem ((c : Thread nD τ).loc main_arg0) = m ((c : Thread nD τ).loc main_arg0))
    (hY := fun c s' => by
      unfold xWhole xA
      iintro ⟨Hx, -, HSI⟩
      icombine HSI Hx gives %hx
      imodintro
      isplitr; · ipureintro; exact Buf.eq_of_forall_mem_univ hx
      iexact HSI)
    (hQ := fun s h c => ⟨((h c).1 0).trans (arrAt_out m ρ c), (h c).2.2⟩)

/-- info: 'Cert.Kernel.Launch.run_out' depends on axioms: [propext, Classical.choice, Quot.sound] -/
#guard_msgs in #print axioms run_out

end Cert.Kernel.Launch

end
-- ==== Proof.lean ====
/-
  The certificate of the four-device column mean.

  Every device ends with the same 1 x 512 row: the sum, over the four devices, of the column sums of each device's
  1024 x 512 block of x, times 2^-12 — each device adds the four partial sums in its own order, which changes nothing
  over the extended reals. The reference divides the column sums of the whole 4096 x 512 array by 4096, which on every
  extended real is the product with 1/4096, and the whole array's column sum is the sum over its four row blocks. The
  three programs run to the end from any memory: the kernel's frame is its run with the result dropped, at the word-level
  instance and at the ideal one; the reference's is its generated run.
-/
import proofs.«900939_g7700000000000940_dist_mean_ax0_shard0_i_m1024_n512_v7x_i4_f32_1_alg».proof.Defs
import proofs.«900939_g7700000000000940_dist_mean_ax0_shard0_i_m1024_n512_v7x_i4_f32_1_alg».proof.Proof.Gen.Kernel
import proofs.«900939_g7700000000000940_dist_mean_ax0_shard0_i_m1024_n512_v7x_i4_f32_1_alg».proof.Proof.Gen.KernelIdeal
import proofs.«900939_g7700000000000940_dist_mean_ax0_shard0_i_m1024_n512_v7x_i4_f32_1_alg».proof.Proof.Gen.ReferenceIdeal
import proofs.«900939_g7700000000000940_dist_mean_ax0_shard0_i_m1024_n512_v7x_i4_f32_1_alg».proof.Proof.Gen.Pre_finite_inputs_Kernel
import proofs.«900939_g7700000000000940_dist_mean_ax0_shard0_i_m1024_n512_v7x_i4_f32_1_alg».proof.Proof.Gen.Pre_finite_inputs_ReferenceIdeal
import proofs.«900939_g7700000000000940_dist_mean_ax0_shard0_i_m1024_n512_v7x_i4_f32_1_alg».proof.Proof.Body
import proofs.«900939_g7700000000000940_dist_mean_ax0_shard0_i_m1024_n512_v7x_i4_f32_1_alg».proof.Proof.Launch
import proofs.«900939_g7700000000000940_dist_mean_ax0_shard0_i_m1024_n512_v7x_i4_f32_1_alg».proof.Proof.KValue
import proofs.«900939_g7700000000000940_dist_mean_ax0_shard0_i_m1024_n512_v7x_i4_f32_1_alg».proof.Proof.RefValue
import proofs.«900939_g7700000000000940_dist_mean_ax0_shard0_i_m1024_n512_v7x_i4_f32_1_alg».proof.Proof.W.Body
import proofs.«900939_g7700000000000940_dist_mean_ax0_shard0_i_m1024_n512_v7x_i4_f32_1_alg».proof.Proof.W.Launch

noncomputable section

namespace Cert.Proof

open Idealize.ShloMosaic Idealize.SL.Sem

/-- The word-level kernel runs on the four devices and leaves each block of x unchanged. -/
theorem frame_k : Cert.frame_Kernel := fun m ρ _ =>
  (θ_run Cert.Kernel.defs _ _).mono (fun _ h c => (h c).2)
    (Cert.Kernel.Launch.run_out (F := Bits) m ρ (Cert.Kernel.Body.body_obligation m ρ))

/-- So does the idealized kernel. -/
theorem frame_ki : Cert.frame_KernelIdeal := fun m ρ _ =>
  (θ_run Cert.KernelIdeal.defs _ _).mono (fun _ h c => (h c).2)
    (Cert.KernelIdeal.Launch.run_out (F := Ideal) m ρ (Cert.KernelIdeal.Body.body_obligation m ρ))

/-- At the ideal instance every device's result row and the reference's are one function of the whole array: the mean
    of each column over its four row blocks. -/
theorem algebraic : Cert.algebraic_KernelIdeal_ReferenceIdeal := by
  intro m ρ m' ρ' _ hagree
  refine ⟨fun i => Cert.Spec.mean (fun d => Layout.block ⟨2, ![1024, 512]⟩ ⟨2, ![4096, 512]⟩ 0 4 d
      (m' (((0 : Dev Cert.ReferenceIdeal.nD).tc : Thread Cert.ReferenceIdeal.nD Cert.ReferenceIdeal.τ).loc Cert.ReferenceIdeal.main_arg0))) (i 1), ?_, ?_⟩
  · refine (θ_run Cert.KernelIdeal.defs _ _).mono (fun _ h c => ⟨(h c).1.trans ?_, (h c).2⟩)
      (Cert.KernelIdeal.Launch.run_out (F := Ideal) m ρ (Cert.KernelIdeal.Body.body_obligation m ρ))
    rw [Cert.KernelIdeal.KValue.outV_eq]
    funext i
    exact congrArg (fun Ys => Cert.Spec.mean Ys (i 1)) (funext fun d => hagree d)
  · exact (θ_run Cert.ReferenceIdeal.defs _ _).mono (fun _ h => h 0) (Cert.RefValue.ref_run_mean m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.RefValue.frame_ri, trivial, algebraic⟩

end Cert.Proof

end
